-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v61)) (v3 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v61) = v2 c
          ∧ r.2.mem ((c.tc : Thread Cert.KernelIdeal.nD Cert.KernelIdeal.τ).loc Cert.KernelIdeal.main_v140) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v146) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x256 : Shape := ⟨2, ![524288, 256]⟩
abbrev S6x128x256 : Shape := ⟨3, ![6, 128, 256]⟩
abbrev S6x256 : Shape := ⟨2, ![6, 256]⟩
abbrev S524288 : Shape := ⟨1, ![524288]⟩
abbrev S_ : Shape := ⟨0, ![]⟩

class Facts : Prop where
  bcast_S_S524288x256 : S_.BroadcastsInDim S524288x256 (![] : Fin 0 → Fin S524288x256.rank)
  reducesTo_S524288x256_S_d0_1 : S524288x256.ReducesTo [0, 1] S_
  h_S_ : 0 < S_.numel
  bcast_S_S6x128x256 : S_.BroadcastsInDim S6x128x256 (![] : Fin 0 → Fin S6x128x256.rank)
  reducesTo_S6x128x256_S_d0_1_2 : S6x128x256.ReducesTo [0, 1, 2] S_
  bcast_S_S6x256 : S_.BroadcastsInDim S6x256 (![] : Fin 0 → Fin S6x256.rank)
  reducesTo_S6x256_S_d0_1 : S6x256.ReducesTo [0, 1] S_
  bcast_S_S524288 : S_.BroadcastsInDim S524288 (![] : Fin 0 → Fin S524288.rank)
  reducesTo_S524288_S_d0 : S524288.ReducesTo [0] S_

variable [Facts]

def fn_part2 {F : FTy → Type} [FloatOps F] (main_v30 : IVec S_ 1) (main_v32 : IVec S524288 1) : IVec S_ 1 :=
  let main_c_13 : IVec S_ 1 := constantI S_ 1 1#1
  let main_v33 : IVec S_ 1 := (fun x v => Host.reduce IntOp.andi x v reducesTo_S524288_S_d0 h_S_) main_v32 main_c_13
  let main_v34 : IVec S_ 1 := andi main_v30 main_v33
  main_v34

def fn_part1 {F : FTy → Type} [FloatOps F] (main_arg4 : IVec S524288 32) (main_arg5 : IVec S524288 32) (main_v13 : IVec S_ 1) (main_v16 : IVec S6x256 1) : IVec S_ 1 :=
  let main_c_5 : IVec S_ 1 := constantI S_ 1 1#1
  let main_v17 : IVec S_ 1 := (fun x v => Host.reduce IntOp.andi x v reducesTo_S6x256_S_d0_1 h_S_) main_v16 main_c_5
  let main_v18 : IVec S_ 1 := andi main_v13 main_v17
  let main_c_6 : IVec S_ 32 := constantI S_ 32 0#32
  let main_v19 : IVec S524288 32 := broadcastInDim S524288 ![] bcast_S_S524288 main_c_6
  let main_v20 : IVec S524288 1 := cmpi .sge main_arg4 main_v19
  let main_c_7 : IVec S_ 1 := constantI S_ 1 1#1
  let main_v21 : IVec S_ 1 := (fun x v => Host.reduce IntOp.andi x v reducesTo_S524288_S_d0 h_S_) main_v20 main_c_7
  let main_v22 : IVec S_ 1 := andi main_v18 main_v21
  let main_c_8 : IVec S_ 32 := constantI S_ 32 128#32
  let main_v23 : IVec S524288 32 := broadcastInDim S524288 ![] bcast_S_S524288 main_c_8
  let main_v24 : IVec S524288 1 := cmpi .slt main_arg4 main_v23
  let main_c_9 : IVec S_ 1 := constantI S_ 1 1#1
  let main_v25 : IVec S_ 1 := (fun x v => Host.reduce IntOp.andi x v reducesTo_S524288_S_d0 h_S_) main_v24 main_c_9
  let main_v26 : IVec S_ 1 := andi main_v22 main_v25
  let main_c_10 : IVec S_ 32 := constantI S_ 32 0#32
  let main_v27 : IVec S524288 32 := broadcastInDim S524288 ![] bcast_S_S524288 main_c_10
  let main_v28 : IVec S524288 1 := cmpi .sge main_arg5 main_v27
  let main_c_11 : IVec S_ 1 := constantI S_ 1 1#1
  let main_v29 : IVec S_ 1 := (fun x v => Host.reduce IntOp.andi x v reducesTo_S524288_S_d0 h_S_) main_v28 main_c_11
  let main_v30 : IVec S_ 1 := andi main_v26 main_v29
  let main_c_12 : IVec S_ 32 := constantI S_ 32 6#32
  let main_v31 : IVec S524288 32 := broadcastInDim S524288 ![] bcast_S_S524288 main_c_12
  let main_v32 : IVec S524288 1 := cmpi .slt main_arg5 main_v31
  fn_part2 (F := F) main_v30 main_v32

def fn {F : FTy → Type} [FloatOps F] (main_arg0 : FVec F S524288x256 .f32) (main_arg1 : FVec F S6x128x256 .f32) (main_arg2 : FVec F S6x256 .f32) (main_arg3 : FVec F S6x256 .f32) (main_arg4 : IVec S524288 32) (main_arg5 : IVec S524288 32) : IVec S_ 1 :=
  let main_v0 : FVec F S524288x256 .f32 := Host.absf main_arg0
  let main_cst : FVec F S_ .f32 := constant S_ .f32 0x7F800000#32
  let main_v1 : FVec F S524288x256 .f32 := broadcastInDim S524288x256 ![] bcast_S_S524288x256 main_cst
  let main_v2 : IVec S524288x256 1 := cmpf .olt main_v0 main_v1
  let main_c : IVec S_ 1 := constantI S_ 1 1#1
  let main_v3 : IVec S_ 1 := (fun x v => Host.reduce IntOp.andi x v reducesTo_S524288x256_S_d0_1 h_S_) main_v2 main_c
  let main_v4 : FVec F S6x128x256 .f32 := Host.absf main_arg1
  let main_cst_0 : FVec F S_ .f32 := constant S_ .f32 0x7F800000#32
  let main_v5 : FVec F S6x128x256 .f32 := broadcastInDim S6x128x256 ![] bcast_S_S6x128x256 main_cst_0
  let main_v6 : IVec S6x128x256 1 := cmpf .olt main_v4 main_v5
  let main_c_1 : IVec S_ 1 := constantI S_ 1 1#1
  let main_v7 : IVec S_ 1 := (fun x v => Host.reduce IntOp.andi x v reducesTo_S6x128x256_S_d0_1_2 h_S_) main_v6 main_c_1
  let main_v8 : IVec S_ 1 := andi main_v3 main_v7
  let main_v9 : FVec F S6x256 .f32 := Host.absf main_arg2
  let main_cst_2 : FVec F S_ .f32 := constant S_ .f32 0x7F800000#32
  let main_v10 : FVec F S6x256 .f32 := broadcastInDim S6x256 ![] bcast_S_S6x256 main_cst_2
  let main_v11 : IVec S6x256 1 := cmpf .olt main_v9 main_v10
  let main_c_3 : IVec S_ 1 := constantI S_ 1 1#1
  let main_v12 : IVec S_ 1 := (fun x v => Host.reduce IntOp.andi x v reducesTo_S6x256_S_d0_1 h_S_) main_v11 main_c_3
  let main_v13 : IVec S_ 1 := andi main_v8 main_v12
  let main_v14 : FVec F S6x256 .f32 := Host.absf main_arg3
  let main_cst_4 : FVec F S_ .f32 := constant S_ .f32 0x7F800000#32
  let main_v15 : FVec F S6x256 .f32 := broadcastInDim S6x256 ![] bcast_S_S6x256 main_cst_4
  let main_v16 : IVec S6x256 1 := cmpf .olt main_v14 main_v15
  fn_part1 (F := F) main_arg4 main_arg5 main_v13 main_v16
-- ==== Kernel.lean ====
abbrev S524288x256 : Shape := ⟨2, ![524288, 256]⟩
abbrev S6x128x256 : Shape := ⟨3, ![6, 128, 256]⟩
abbrev S6x256 : Shape := ⟨2, ![6, 256]⟩
abbrev S524288 : Shape := ⟨1, ![524288]⟩
abbrev S_ : Shape := ⟨0, ![]⟩
abbrev S524288x1 : Shape := ⟨2, ![524288, 1]⟩
abbrev S2x768x256 : Shape := ⟨3, ![2, 768, 256]⟩
abbrev S2x8x256 : Shape := ⟨3, ![2, 8, 256]⟩
abbrev S2048x1 : Shape := ⟨2, ![2048, 1]⟩
abbrev S2048x256 : Shape := ⟨2, ![2048, 256]⟩
abbrev S1x768x256 : Shape := ⟨3, ![1, 768, 256]⟩
abbrev S1x8x256 : Shape := ⟨3, ![1, 8, 256]⟩
abbrev S1x768 : Shape := ⟨2, ![1, 768]⟩
abbrev S2048x768 : Shape := ⟨2, ![2048, 768]⟩
abbrev S1x8 : Shape := ⟨2, ![1, 8]⟩
abbrev S2048x8 : Shape := ⟨2, ![2048, 8]⟩
abbrev S768x256 : Shape := ⟨2, ![768, 256]⟩
abbrev S8x256 : Shape := ⟨2, ![8, 256]⟩
abbrev S768 : Shape := ⟨1, ![768]⟩
abbrev S768x1 : Shape := ⟨2, ![768, 1]⟩
abbrev S6x128x1 : Shape := ⟨3, ![6, 128, 1]⟩
abbrev S6x128 : Shape := ⟨2, ![6, 128]⟩
abbrev S6 : Shape := ⟨1, ![6]⟩
abbrev S6x1 : Shape := ⟨2, ![6, 1]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S256 : Shape := ⟨1, ![256]⟩
abbrev S1x256 : Shape := ⟨2, ![1, 256]⟩

abbrev nBuf : Space → Nat
  | .hbm => 207
  | .vmem => 10
  | .smem => 0
  | _ => 0

abbrev hbmTy0_0 (i : Nat) : BufTy := match i % 128 with
  | 0 => ⟨S524288x256, .f32⟩
  | 1 => ⟨S6x128x256, .f32⟩
  | 2 => ⟨S6x256, .f32⟩
  | 3 => ⟨S6x256, .f32⟩
  | 4 => ⟨S524288, .i32⟩
  | 5 => ⟨S524288, .i32⟩
  | 6 => ⟨S_, .i32⟩
  | 7 => ⟨S524288, .i32⟩
  | 8 => ⟨S524288, .i32⟩
  | 9 => ⟨S524288, .i32⟩
  | 10 => ⟨S524288x1, .i32⟩
  | 11 => ⟨S524288x1, .i32⟩
  | 12 => ⟨S2x768x256, .f32⟩
  | 13 => ⟨S2x8x256, .f32⟩
  | 14 => ⟨S_, .f32⟩
  | 15 => ⟨S768x256, .f32⟩
  | 16 => ⟨S_, .f32⟩
  | 17 => ⟨S8x256, .f32⟩
  | 18 => ⟨S6x256, .f32⟩
  | 19 => ⟨S_, .f32⟩
  | 20 => ⟨S524288, .f32⟩
  | 21 => ⟨S524288, .i32⟩
  | 22 => ⟨S_, .f32⟩
  | 23 => ⟨S768, .f32⟩
  | 24 => ⟨S524288x1, .i32⟩
  | 25 => ⟨S768, .f32⟩
  | 26 => ⟨S768x1, .f32⟩
  | 27 => ⟨S_, .f32⟩
  | 28 => ⟨S768x1, .f32⟩
  | 29 => ⟨S768x1, .f32⟩
  | 30 => ⟨S768x256, .f32⟩
  | 31 => ⟨S768x256, .f32⟩
  | 32 => ⟨S_, .f32⟩
  | 33 => ⟨S768x1, .f32⟩
  | 34 => ⟨S768x1, .i1⟩
  | 35 => ⟨S6x128x1, .i1⟩
  | 36 => ⟨S6x128x256, .f32⟩
  | 37 => ⟨S_, .f32⟩
  | 38 => ⟨S6x128x256, .f32⟩
  | 39 => ⟨S6x128x256, .f32⟩
  | 40 => ⟨S_, .f32⟩
  | 41 => ⟨S6x128x256, .f32⟩
  | 42 => ⟨S6x128x256, .f32⟩
  | 43 => ⟨S6x128x256, .f32⟩
  | 44 => ⟨S6x128x256, .i1⟩
  | 45 => ⟨S6x128x256, .f32⟩
  | 46 => ⟨S6x128x256, .f32⟩
  | 47 => ⟨S_, .f32⟩
  | 48 => ⟨S6x256, .f32⟩
  | 49 => ⟨S6x128, .f32⟩
  | 50 => ⟨S_, .f32⟩
  | 51 => ⟨S6, .f32⟩
  | 52 => ⟨S6x1, .f32⟩
  | 53 => ⟨S_, .f32⟩
  | 54 => ⟨S6x1, .f32⟩
  | 55 => ⟨S6x1, .f32⟩
  | 56 => ⟨S6x256, .f32⟩
  | 57 => ⟨S6x256, .f32⟩
  | 58 => ⟨S6x256, .f32⟩
  | 59 => ⟨S6x256, .f32⟩
  | 60 => ⟨S6x256, .f32⟩
  | 61 => ⟨S6x256, .f32⟩
  | 62 => ⟨S_, .f32⟩
  | 63 => ⟨S6x1, .f32⟩
  | 64 => ⟨S6x1, .f32⟩
  | 65 => ⟨S_, .f32⟩
  | 66 => ⟨S6x1, .f32⟩
  | 67 => ⟨S6x1, .f32⟩
  | 68 => ⟨S6x256, .f32⟩
  | 69 => ⟨S6x256, .f32⟩
  | 70 => ⟨S_, .f32⟩
  | 71 => ⟨S6x1, .f32⟩
  | 72 => ⟨S6x1, .i1⟩
  | 73 => ⟨S_, .f32⟩
  | 74 => ⟨S6x256, .f32⟩
  | 75 => ⟨S6x256, .f32⟩
  | 76 => ⟨S_, .f32⟩
  | 77 => ⟨S6x256, .f32⟩
  | 78 => ⟨S6x256, .f32⟩
  | 79 => ⟨S6x256, .f32⟩
  | 80 => ⟨S6x256, .i1⟩
  | 81 => ⟨S6x256, .f32⟩
  | 82 => ⟨S_, .f32⟩
  | 83 => ⟨S6x256, .f32⟩
  | 84 => ⟨S6x256, .f32⟩
  | 85 => ⟨S_, .f32⟩
  | 86 => ⟨S6x256, .f32⟩
  | 87 => ⟨S6x256, .f32⟩
  | 88 => ⟨S6x256, .f32⟩
  | 89 => ⟨S6x256, .i1⟩
  | 90 => ⟨S6x256, .f32⟩
  | 91 => ⟨S_, .f32⟩
  | 92 => ⟨S128x256, .f32⟩
  | 93 => ⟨S1x128x256, .f32⟩
  | 94 => ⟨S_, .f32⟩
  | 95 => ⟨S1x128x256, .f32⟩
  | 96 => ⟨S1x128x256, .f32⟩
  | 97 => ⟨S6x128x256, .f32⟩
  | 98 => ⟨S6x128x256, .f32⟩
  | 99 => ⟨S6x128x256, .f32⟩
  | 100 => ⟨S_, .f32⟩
  | 101 => ⟨S_, .f32⟩
  | 102 => ⟨S_, .f32⟩
  | 103 => ⟨S_, .f32⟩
  | 104 => ⟨S_, .f32⟩
  | 105 => ⟨S128x256, .f32⟩
  | 106 => ⟨S_, .f32⟩
  | 107 => ⟨S128x256, .f32⟩
  | 108 => ⟨S128x256, .f32⟩
  | 109 => ⟨S128x256, .f32⟩
  | 110 => ⟨S_, .f32⟩
  | 111 => ⟨S128, .f32⟩
  | 112 => ⟨S128x1, .f32⟩
  | 113 => ⟨S1x128, .f32⟩
  | 114 => ⟨S128x128, .f32⟩
  | 115 => ⟨S128x128, .f32⟩
  | 116 => ⟨S128x128, .f32⟩
  | 117 => ⟨S256x128, .f32⟩
  | 118 => ⟨S128x128, .f32⟩
  | 119 => ⟨S_, .f32⟩
  | 120 => ⟨S128x128, .f32⟩
  | 121 => ⟨S128x128, .f32⟩
  | 122 => ⟨S128x128, .f32⟩
  | 123 => ⟨S128x128, .i32⟩
  | 124 => ⟨S128x128, .i32⟩
  | 125 => ⟨S_, .i32⟩
  | 126 => ⟨S128x128, .i32⟩
  | 127 => ⟨S128x128, .i32⟩
  | _ => ⟨S524288x256, .f32⟩

abbrev hbmTy0_1 (i : Nat) : BufTy := match i % 128 with
  | 0 => ⟨S128x128, .i1⟩
  | 1 => ⟨S128x128, .i1⟩
  | 2 => ⟨S_, .f32⟩
  | 3 => ⟨S128x128, .f32⟩
  | 4 => ⟨S128x128, .f32⟩
  | 5 => ⟨S_, .f32⟩
  | 6 => ⟨S_, .f32⟩
  | 7 => ⟨S128x128, .f32⟩
  | 8 => ⟨S128x128, .f32⟩
  | 9 => ⟨S128x128, .f32⟩
  | 10 => ⟨S_, .f32⟩
  | 11 => ⟨S128x128, .f32⟩
  | 12 => ⟨S128x128, .f32⟩
  | 13 => ⟨S_, .f32⟩
  | 14 => ⟨S128x128, .f32⟩
  | 15 => ⟨S128x128, .f32⟩
  | 16 => ⟨S_, .f32⟩
  | 17 => ⟨S_, .f32⟩
  | 18 => ⟨S128x128, .f32⟩
  | 19 => ⟨S128x128, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | 26 => ⟨S256, .f32⟩
  | 27 => ⟨S_, .f32⟩
  | 28 => ⟨S256, .f32⟩
  | 29 => ⟨S256, .f32⟩
  | 30 => ⟨S_, .f32⟩
  | 31 => ⟨S256, .f32⟩
  | 32 => ⟨S_, .f32⟩
  | 33 => ⟨S256, .f32⟩
  | 34 => ⟨S256, .f32⟩
  | 35 => ⟨S1x256, .f32⟩
  | 36 => ⟨S6x256, .f32⟩
  | 37 => ⟨S6x256, .f32⟩
  | 38 => ⟨S6x256, .f32⟩
  | 39 => ⟨S_, .f32⟩
  | 40 => ⟨S_, .f32⟩
  | 41 => ⟨S_, .f32⟩
  | 42 => ⟨S_, .f32⟩
  | 43 => ⟨S1x256, .f32⟩
  | 44 => ⟨S6x256, .f32⟩
  | 45 => ⟨S6x256, .f32⟩
  | 46 => ⟨S6x256, .f32⟩
  | 47 => ⟨S_, .f32⟩
  | 48 => ⟨S_, .f32⟩
  | 49 => ⟨S_, .f32⟩
  | 50 => ⟨S_, .f32⟩
  | 51 => ⟨S_, .f32⟩
  | 52 => ⟨S256, .f32⟩
  | 53 => ⟨S_, .f32⟩
  | 54 => ⟨S256, .f32⟩
  | 55 => ⟨S_, .f32⟩
  | 56 => ⟨S256, .f32⟩
  | 57 => ⟨S256, .f32⟩
  | 58 => ⟨S_, .f32⟩
  | 59 => ⟨S256, .f32⟩
  | 60 => ⟨S256, .f32⟩
  | 61 => ⟨S256, .f32⟩
  | 62 => ⟨S256, .f32⟩
  | 63 => ⟨S256, .f32⟩
  | 64 => ⟨S256, .f32⟩
  | 65 => ⟨S_, .f32⟩
  | 66 => ⟨S_, .f32⟩
  | 67 => ⟨S_, .f32⟩
  | 68 => ⟨S_, .f32⟩
  | 69 => ⟨S256, .f32⟩
  | 70 => ⟨S256, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | _ => ⟨S524288x256, .f32⟩

abbrev hbmTy (i : Nat) : BufTy := match i / 128 with
  | 0 => hbmTy0_0 i
  | 1 => hbmTy0_1 i
  | _ => ⟨S524288x256, .f32⟩

abbrev bufTy : (tb : Table) → Fin (tcTables nBuf tb) → BufTy
  | .hbm, ⟨i, _⟩ => hbmTy i
  | .local _ .vmem, ⟨0, _⟩ => ⟨S2048x1, .i32⟩
  | .local _ .vmem, ⟨1, _⟩ => ⟨S2048x1, .i32⟩
  | .local _ .vmem, ⟨2, _⟩ => ⟨S2048x1, .i32⟩
  | .local _ .vmem, ⟨3, _⟩ => ⟨S2048x1, .i32⟩
  | .local _ .vmem, ⟨4, _⟩ => ⟨S2048x256, .f32⟩
  | .local _ .vmem, ⟨5, _⟩ => ⟨S2048x256, .f32⟩
  | .local _ .vmem, ⟨6, _⟩ => ⟨S1x768x256, .f32⟩
  | .local _ .vmem, ⟨7, _⟩ => ⟨S1x768x256, .f32⟩
  | .local _ .vmem, ⟨8, _⟩ => ⟨S1x8x256, .f32⟩
  | .local _ .vmem, ⟨9, _⟩ => ⟨S1x8x256, .f32⟩
  | _, _ => ⟨S524288x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_cst_8 : Ref sig .tc := ⟨.hbm, 50, rfl⟩
abbrev main_v32 : Ref sig .tc := ⟨.hbm, 51, rfl⟩
abbrev main_v33 : Ref sig .tc := ⟨.hbm, 52, rfl⟩
abbrev main_cst_9 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_cst_13 : Ref sig .tc := ⟨.hbm, 73, rfl⟩
abbrev main_v50 : Ref sig .tc := ⟨.hbm, 74, rfl⟩
abbrev main_v51 : Ref sig .tc := ⟨.hbm, 75, rfl⟩
abbrev main_cst_14 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_v0 : Ref sig .tc := ⟨.hbm, 80, rfl⟩
abbrev main_v55 : Ref sig .tc := ⟨.hbm, 81, rfl⟩
abbrev main_cst_15 : Ref sig .tc := ⟨.hbm, 82, rfl⟩
abbrev main_v56 : Ref sig .tc := ⟨.hbm, 83, rfl⟩
abbrev main_v57 : Ref sig .tc := ⟨.hbm, 84, rfl⟩
abbrev main_cst_16 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_call2_v0 : Ref sig .tc := ⟨.hbm, 89, rfl⟩
abbrev main_v61 : Ref sig .tc := ⟨.hbm, 90, rfl⟩
abbrev main_cst_17 : Ref sig .tc := ⟨.hbm, 91, rfl⟩
abbrev main_v62 : Ref sig .tc := ⟨.hbm, 92, rfl⟩
abbrev main_v63 : Ref sig .tc := ⟨.hbm, 93, rfl⟩
abbrev main_cst_18 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_19 : Ref sig .tc := ⟨.hbm, 100, rfl⟩
abbrev main_v69 : Ref sig .tc := ⟨.hbm, 101, rfl⟩
abbrev main_cst_20 : Ref sig .tc := ⟨.hbm, 102, rfl⟩
abbrev main_v70 : Ref sig .tc := ⟨.hbm, 103, rfl⟩
abbrev main_cst_21 : Ref sig .tc := ⟨.hbm, 104, rfl⟩
abbrev main_v71 : Ref sig .tc := ⟨.hbm, 105, rfl⟩
abbrev main_cst_22 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_23 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_24 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_25 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_26 : Ref sig .tc := ⟨.hbm, 130, rfl⟩
abbrev main_v92 : Ref sig .tc := ⟨.hbm, 131, rfl⟩
abbrev main_v93 : Ref sig .tc := ⟨.hbm, 132, rfl⟩
abbrev main_cst_27 : Ref sig .tc := ⟨.hbm, 133, rfl⟩
abbrev main_call3_v0 : Ref sig .tc := ⟨.hbm, 134, rfl⟩
abbrev main_call3_v1 : Ref sig .tc := ⟨.hbm, 135, rfl⟩
abbrev main_v94 : Ref sig .tc := ⟨.hbm, 136, rfl⟩
abbrev main_v95 : Ref sig .tc := ⟨.hbm, 137, rfl⟩
abbrev main_cst_28 : Ref sig .tc := ⟨.hbm, 138, rfl⟩
abbrev main_v96 : Ref sig .tc := ⟨.hbm, 139, rfl⟩
abbrev main_v97 : Ref sig .tc := ⟨.hbm, 140, rfl⟩
abbrev main_call4_cst : Ref sig .tc := ⟨.hbm, 141, rfl⟩
abbrev main_call4_v0 : Ref sig .tc := ⟨.hbm, 142, rfl⟩
abbrev main_v98 : Ref sig .tc := ⟨.hbm, 143, rfl⟩
abbrev main_cst_29 : Ref sig .tc := ⟨.hbm, 144, rfl⟩
abbrev main_call5_v0 : Ref sig .tc := ⟨.hbm, 145, rfl⟩
abbrev main_call5_v1 : Ref sig .tc := ⟨.hbm, 146, rfl⟩
abbrev main_v99 : Ref sig .tc := ⟨.hbm, 147, rfl⟩
abbrev main_cst_30 : Ref sig .tc := ⟨.hbm, 148, rfl⟩
abbrev main_v100 : Ref sig .tc := ⟨.hbm, 149, rfl⟩
abbrev main_cst_31 : Ref sig .tc := ⟨.hbm, 150, rfl⟩
abbrev main_v101 : Ref sig .tc := ⟨.hbm, 151, rfl⟩
abbrev main_v102 : Ref sig .tc := ⟨.hbm, 152, rfl⟩
abbrev main_cst_32 : Ref sig .tc := ⟨.hbm, 153, rfl⟩
abbrev main_v103 : Ref sig .tc := ⟨.hbm, 154, rfl⟩
abbrev main_cst_33 : Ref sig .tc := ⟨.hbm, 155, rfl⟩
abbrev main_v104 : Ref sig .tc := ⟨.hbm, 156, rfl⟩
abbrev main_v105 : Ref sig .tc := ⟨.hbm, 157, rfl⟩
abbrev main_cst_34 : Ref sig .tc := ⟨.hbm, 158, rfl⟩
abbrev main_v106 : Ref sig .tc := ⟨.hbm, 159, rfl⟩
abbrev main_cst_35 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_cst_36 : Ref sig .tc := ⟨.hbm, 167, rfl⟩
abbrev main_v113 : Ref sig .tc := ⟨.hbm, 168, rfl⟩
abbrev main_cst_37 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_cst_38 : Ref sig .tc := ⟨.hbm, 175, rfl⟩
abbrev main_v119 : Ref sig .tc := ⟨.hbm, 176, rfl⟩
abbrev main_cst_39 : Ref sig .tc := ⟨.hbm, 177, rfl⟩
abbrev main_v120 : Ref sig .tc := ⟨.hbm, 178, rfl⟩
abbrev main_cst_40 : Ref sig .tc := ⟨.hbm, 179, rfl⟩
abbrev main_v121 : Ref sig .tc := ⟨.hbm, 180, rfl⟩
abbrev main_cst_41 : Ref sig .tc := ⟨.hbm, 181, rfl⟩
abbrev main_v122 : Ref sig .tc := ⟨.hbm, 182, rfl⟩
abbrev main_cst_42 : Ref sig .tc := ⟨.hbm, 183, rfl⟩
abbrev main_v123 : Ref sig .tc := ⟨.hbm, 184, rfl⟩
abbrev main_v124 : Ref sig .tc := ⟨.hbm, 185, rfl⟩
abbrev main_cst_43 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_cst_44 : Ref sig .tc := ⟨.hbm, 193, rfl⟩
abbrev main_v131 : Ref sig .tc := ⟨.hbm, 194, rfl⟩
abbrev main_cst_45 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_46 : Ref sig .tc := ⟨.hbm, 199, rfl⟩
abbrev main_v135 : Ref sig .tc := ⟨.hbm, 200, rfl⟩
abbrev main_cst_47 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S_S524288 : S_.BroadcastsInDim S524288 (![] : Fin 0 → Fin S524288.rank)
  shapeCasts_S524288_S524288x1 : S524288.ShapeCasts S524288x1
  inb_S1x768x256_S1x768x256_0_0_0 : ∀ a, (![0, 0, 0] : Fin 3 → Nat) a + S1x768x256.size a ≤ S1x768x256.size a
  h_S1x768x256 : 0 < S1x768x256.numel
  inb_S1x8x256_S1x8x256_0_0_0 : ∀ a, (![0, 0, 0] : Fin 3 → Nat) a + S1x8x256.size a ≤ S1x8x256.size a
  h_S1x8x256 : 0 < S1x8x256.numel
  inb_S2048x256_S2048x256_0_0 : ∀ a, (![0, 0] : Fin 2 → Nat) a + S2048x256.size a ≤ S2048x256.size a
  h_S2048x256 : 0 < S2048x256.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S1x768_d1_w32 : S1x768.Iotas .tc 32 [1]
  broadcasts_S2048x1_S2048x768 : S2048x1.Broadcasts S2048x768
  broadcasts_S1x768_S2048x768 : S1x768.Broadcasts S2048x768
  natLt_1_32 : 1 < 32
  bitsLt_bf16_f32 : FTy.bits .bf16 < FTy.bits .f32
  iota_S1x8_d1_w32 : S1x8.Iotas .tc 32 [1]
  broadcasts_S2048x1_S2048x8 : S2048x1.Broadcasts S2048x8
  broadcasts_S1x8_S2048x8 : S1x8.Broadcasts S2048x8
  shapeCasts_S1x768x256_S768x256 : S1x768x256.ShapeCasts S768x256
  shapeCasts_S768x256_S1x768x256 : S768x256.ShapeCasts S1x768x256
  shapeCasts_S1x8x256_S8x256 : S1x8x256.ShapeCasts S8x256
  shapeCasts_S8x256_S1x8x256 : S8x256.ShapeCasts S1x8x256
  reducesTo_S2x768x256_S768x256_d0 : S2x768x256.ReducesTo [0] S768x256
  h_S_ : 0 < S_.numel
  reducesTo_S2x8x256_S8x256_d0 : S2x8x256.ReducesTo [0] S8x256
  slices_S8x256_S6x256_0_0 : S8x256.Slices ![0, 0] S6x256
  shapeCasts_S524288x1_S524288 : S524288x1.ShapeCasts S524288
  bcast_S_S768 : S_.BroadcastsInDim S768 (![] : Fin 0 → Fin S768.rank)
  bcast_S524288_S524288x1_0 : S524288.BroadcastsInDim S524288x1 (![0] : Fin 1 → Fin S524288x1.rank)
  shapeCasts_S768_S768x1 : S768.ShapeCasts S768x1
  bcast_S_S768x1 : S_.BroadcastsInDim S768x1 (![] : Fin 0 → Fin S768x1.rank)
  bcast_S768x1_S768x256_0_1 : S768x1.BroadcastsInDim S768x256 (![0, 1] : Fin 2 → Fin S768x256.rank)
  shapeCasts_S768x1_S6x128x1 : S768x1.ShapeCasts S6x128x1
  shapeCasts_S768x256_S6x128x256 : S768x256.ShapeCasts S6x128x256
  bcast_S_S6x128x256 : S_.BroadcastsInDim S6x128x256 (![] : Fin 0 → Fin S6x128x256.rank)
  bcast_S6x128x1_S6x128x256_0_1_2 : S6x128x1.BroadcastsInDim S6x128x256 (![0, 1, 2] : Fin 3 → Fin S6x128x256.rank)
  reducesTo_S6x128x256_S6x256_d1 : S6x128x256.ReducesTo [1] S6x256
  shapeCasts_S768_S6x128 : S768.ShapeCasts S6x128
  reducesTo_S6x128_S6_d1 : S6x128.ReducesTo [1] S6
  shapeCasts_S6_S6x1 : S6.ShapeCasts S6x1
  bcast_S_S6x1 : S_.BroadcastsInDim S6x1 (![] : Fin 0 → Fin S6x1.rank)
  bcast_S6x1_S6x256_0_1 : S6x1.BroadcastsInDim S6x256 (![0, 1] : Fin 2 → Fin S6x256.rank)
  bcast_S_S6x256 : S_.BroadcastsInDim S6x256 (![] : Fin 0 → Fin S6x256.rank)
  reducesTo_S6x128x256_S128x256_d0 : S6x128x256.ReducesTo [0] S128x256
  bcast_S128x256_S1x128x256_1_2 : S128x256.BroadcastsInDim S1x128x256 (![1, 2] : Fin 2 → Fin S1x128x256.rank)
  bcast_S_S1x128x256 : S_.BroadcastsInDim S1x128x256 (![] : Fin 0 → Fin S1x128x256.rank)
  bcast_S1x128x256_S6x128x256_0_1_2 : S1x128x256.BroadcastsInDim S6x128x256 (![0, 1, 2] : Fin 3 → Fin S6x128x256.rank)
  reducesTo_S6x128x256_S_d0_1_2 : S6x128x256.ReducesTo [0, 1, 2] S_
  bcast_S_S128x256 : S_.BroadcastsInDim S128x256 (![] : Fin 0 → Fin S128x256.rank)
  reducesTo_S128x256_S128_d1 : S128x256.ReducesTo [1] S128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  transposes_S128x256_S256x128_1_0 : S128x256.Transposes [1, 0] S256x128
  bcast_S_S128x128 : S_.BroadcastsInDim S128x128 (![] : Fin 0 → Fin S128x128.rank)
  reducesTo_S128x128_S_d0_1 : S128x128.ReducesTo [0, 1] S_
  reducesTo_S6x256_S256_d0 : S6x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S6x256_0_1 : S1x256.BroadcastsInDim S6x256 (![0, 1] : Fin 2 → Fin S6x256.rank)
  reducesTo_S6x256_S_d0_1 : S6x256.ReducesTo [0, 1] S_
  reducesTo_S768x256_S256_d0 : S768x256.ReducesTo [0] S256
  reducesTo_S256_S_d0 : S256.ReducesTo [0] S_
  dot_S2048x768_S2048x256_S768x256_0_0_1_1_n_n_wf : DotDims.WF S2048x768 S2048x256 S768x256 [0] [0] [1] [1] [] []
  dot_S2048x8_S2048x256_S8x256_0_0_1_1_n_n_wf : DotDims.WF S2048x8 S2048x256 S8x256 [0] [0] [1] [1] [] []
  scatter_S768_S524288x1_S524288_n_0_0_1_wf : ScatterDims.WF S768 S524288x1 S524288 [] [0] [0] 1
  dot_S128x256_S256x128_S128x128_1_0_0_1_n_n_wf : DotDims.WF S128x256 S256x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S524288x1.size a
  hwx0_0 : ∀ i : grid0.Coords, EltTy.bits .i32 = 32 ∨ (Rect.block (s := S524288x1) S2048x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S524288x1.size a
  hwx0_1 : ∀ i : grid0.Coords, EltTy.bits .i32 = 32 ∨ (Rect.block (s := S524288x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S524288x256.size a
  hwx0_2 : ∀ i : grid0.Coords, EltTy.bits .f32 = 32 ∨ (Rect.block (s := S524288x256) S2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x768x256.size a ≤ S2x768x256.size a
  hwx0_3 : ∀ i : grid0.Coords, EltTy.bits .f32 = 32 ∨ (Rect.block (s := S2x768x256) S1x768x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x256.size a ≤ S2x8x256.size a
  hwx0_4 : ∀ i : grid0.Coords, EltTy.bits .f32 = 32 ∨ (Rect.block (s := S2x8x256) S1x8x256.size (cc0_transform_4 i) (hinb0_4 i)).WholeWords (EltTy.packing .f32)

variable [Facts₀]

def dot_S2048x768_S2048x256_S768x256_0_0_1_1_n_n : DotDims S2048x768 S2048x256 S768x256 where
  lhsContracting := [0]
  rhsContracting := [0]
  lhsNonContracting := [1]
  rhsNonContracting := [1]
  lhsBatch := []
  rhsBatch := []
  wf := dot_S2048x768_S2048x256_S768x256_0_0_1_1_n_n_wf
def dot_S2048x8_S2048x256_S8x256_0_0_1_1_n_n : DotDims S2048x8 S2048x256 S8x256 where
  lhsContracting := [0]
  rhsContracting := [0]
  lhsNonContracting := [1]
  rhsNonContracting := [1]
  lhsBatch := []
  rhsBatch := []
  wf := dot_S2048x8_S2048x256_S8x256_0_0_1_1_n_n_wf
def scatter_S768_S524288x1_S524288_n_0_0_1 : ScatterDims S768 S524288x1 S524288 where
  updateWindowDims := []
  insertedWindowDims := [0]
  scatterDimsToOperandDims := [0]
  indexVectorDim := 1
  wf := scatter_S768_S524288x1_S524288_n_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

abbrev win0_0 : Pipeline.Window sig grid0 :=
  Pipeline.Window.ofSpec (Memref.whole main_v3) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S1x768x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x8x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S524288x256 : Shape := ⟨2, ![524288, 256]⟩
abbrev S6x128x256 : Shape := ⟨3, ![6, 128, 256]⟩
abbrev S6x256 : Shape := ⟨2, ![6, 256]⟩
abbrev S524288 : Shape := ⟨1, ![524288]⟩
abbrev S_ : Shape := ⟨0, ![]⟩
abbrev S768x256 : Shape := ⟨2, ![768, 256]⟩
abbrev S524288x1 : Shape := ⟨2, ![524288, 1]⟩
abbrev S768 : Shape := ⟨1, ![768]⟩
abbrev S768x1 : Shape := ⟨2, ![768, 1]⟩
abbrev S6x128x1 : Shape := ⟨3, ![6, 128, 1]⟩
abbrev S6 : Shape := ⟨1, ![6]⟩
abbrev S6x1 : Shape := ⟨2, ![6, 1]⟩
abbrev S128x256 : Shape := ⟨2, ![128, 256]⟩
abbrev S1x128x256 : Shape := ⟨3, ![1, 128, 256]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S256x128 : Shape := ⟨2, ![256, 128]⟩
abbrev S256 : Shape := ⟨1, ![256]⟩
abbrev S1x256 : Shape := ⟨2, ![1, 256]⟩

abbrev nBuf : Space → Nat
  | .hbm => 213
  | .vmem => 0
  | .smem => 0
  | _ => 0

abbrev hbmTy0_0 (i : Nat) : BufTy := match i % 128 with
  | 0 => ⟨S524288x256, .f32⟩
  | 1 => ⟨S6x128x256, .f32⟩
  | 2 => ⟨S6x256, .f32⟩
  | 3 => ⟨S6x256, .f32⟩
  | 4 => ⟨S524288, .i32⟩
  | 5 => ⟨S524288, .i32⟩
  | 6 => ⟨S_, .i32⟩
  | 7 => ⟨S524288, .i32⟩
  | 8 => ⟨S524288, .i32⟩
  | 9 => ⟨S524288, .i32⟩
  | 10 => ⟨S_, .f32⟩
  | 11 => ⟨S768x256, .f32⟩
  | 12 => ⟨S524288x1, .i32⟩
  | 13 => ⟨S768x256, .f32⟩
  | 14 => ⟨S_, .f32⟩
  | 15 => ⟨S524288, .f32⟩
  | 16 => ⟨S_, .f32⟩
  | 17 => ⟨S768, .f32⟩
  | 18 => ⟨S524288x1, .i32⟩
  | 19 => ⟨S768, .f32⟩
  | 20 => ⟨S_, .f32⟩
  | 21 => ⟨S768, .f32⟩
  | 22 => ⟨S768, .f32⟩
  | 23 => ⟨S768x1, .f32⟩
  | 24 => ⟨S768x256, .f32⟩
  | 25 => ⟨S768x256, .f32⟩
  | 26 => ⟨S_, .f32⟩
  | 27 => ⟨S768, .f32⟩
  | 28 => ⟨S768, .i1⟩
  | 29 => ⟨S6x128x1, .i1⟩
  | 30 => ⟨S6x128x256, .f32⟩
  | 31 => ⟨S_, .f32⟩
  | 32 => ⟨S6x128x256, .f32⟩
  | 33 => ⟨S6x128x256, .f32⟩
  | 34 => ⟨S_, .f32⟩
  | 35 => ⟨S6x128x256, .f32⟩
  | 36 => ⟨S6x128x256, .f32⟩
  | 37 => ⟨S6x128x256, .f32⟩
  | 38 => ⟨S6x128x256, .i1⟩
  | 39 => ⟨S6x128x256, .f32⟩
  | 40 => ⟨S_, .f32⟩
  | 41 => ⟨S6x256, .f32⟩
  | 42 => ⟨S524288x1, .i32⟩
  | 43 => ⟨S6x256, .f32⟩
  | 44 => ⟨S524288x256, .f32⟩
  | 45 => ⟨S_, .f32⟩
  | 46 => ⟨S6x256, .f32⟩
  | 47 => ⟨S524288x1, .i32⟩
  | 48 => ⟨S6x256, .f32⟩
  | 49 => ⟨S_, .f32⟩
  | 50 => ⟨S524288, .f32⟩
  | 51 => ⟨S_, .f32⟩
  | 52 => ⟨S6, .f32⟩
  | 53 => ⟨S524288x1, .i32⟩
  | 54 => ⟨S6, .f32⟩
  | 55 => ⟨S_, .f32⟩
  | 56 => ⟨S6, .f32⟩
  | 57 => ⟨S6, .f32⟩
  | 58 => ⟨S6x1, .f32⟩
  | 59 => ⟨S6x256, .f32⟩
  | 60 => ⟨S6x256, .f32⟩
  | 61 => ⟨S6x256, .f32⟩
  | 62 => ⟨S6x256, .f32⟩
  | 63 => ⟨S6x256, .f32⟩
  | 64 => ⟨S6x256, .f32⟩
  | 65 => ⟨S_, .f32⟩
  | 66 => ⟨S6, .f32⟩
  | 67 => ⟨S6, .f32⟩
  | 68 => ⟨S_, .f32⟩
  | 69 => ⟨S6, .f32⟩
  | 70 => ⟨S6, .f32⟩
  | 71 => ⟨S6x1, .f32⟩
  | 72 => ⟨S6x256, .f32⟩
  | 73 => ⟨S6x256, .f32⟩
  | 74 => ⟨S_, .f32⟩
  | 75 => ⟨S6, .f32⟩
  | 76 => ⟨S6, .i1⟩
  | 77 => ⟨S6x1, .i1⟩
  | 78 => ⟨S_, .f32⟩
  | 79 => ⟨S6x256, .f32⟩
  | 80 => ⟨S6x256, .f32⟩
  | 81 => ⟨S_, .f32⟩
  | 82 => ⟨S6x256, .f32⟩
  | 83 => ⟨S6x256, .f32⟩
  | 84 => ⟨S6x256, .f32⟩
  | 85 => ⟨S6x256, .i1⟩
  | 86 => ⟨S6x256, .f32⟩
  | 87 => ⟨S_, .f32⟩
  | 88 => ⟨S6x256, .f32⟩
  | 89 => ⟨S6x256, .f32⟩
  | 90 => ⟨S_, .f32⟩
  | 91 => ⟨S6x256, .f32⟩
  | 92 => ⟨S6x256, .f32⟩
  | 93 => ⟨S6x256, .f32⟩
  | 94 => ⟨S6x256, .i1⟩
  | 95 => ⟨S6x256, .f32⟩
  | 96 => ⟨S_, .f32⟩
  | 97 => ⟨S128x256, .f32⟩
  | 98 => ⟨S1x128x256, .f32⟩
  | 99 => ⟨S_, .f32⟩
  | 100 => ⟨S1x128x256, .f32⟩
  | 101 => ⟨S1x128x256, .f32⟩
  | 102 => ⟨S6x128x256, .f32⟩
  | 103 => ⟨S6x128x256, .f32⟩
  | 104 => ⟨S6x128x256, .f32⟩
  | 105 => ⟨S_, .f32⟩
  | 106 => ⟨S_, .f32⟩
  | 107 => ⟨S_, .f32⟩
  | 108 => ⟨S_, .f32⟩
  | 109 => ⟨S_, .f32⟩
  | 110 => ⟨S128x256, .f32⟩
  | 111 => ⟨S_, .f32⟩
  | 112 => ⟨S128x256, .f32⟩
  | 113 => ⟨S128x256, .f32⟩
  | 114 => ⟨S128x256, .f32⟩
  | 115 => ⟨S_, .f32⟩
  | 116 => ⟨S128, .f32⟩
  | 117 => ⟨S128x1, .f32⟩
  | 118 => ⟨S1x128, .f32⟩
  | 119 => ⟨S128x128, .f32⟩
  | 120 => ⟨S128x128, .f32⟩
  | 121 => ⟨S128x128, .f32⟩
  | 122 => ⟨S256x128, .f32⟩
  | 123 => ⟨S128x128, .f32⟩
  | 124 => ⟨S_, .f32⟩
  | 125 => ⟨S128x128, .f32⟩
  | 126 => ⟨S128x128, .f32⟩
  | 127 => ⟨S128x128, .f32⟩
  | _ => ⟨S524288x256, .f32⟩

abbrev hbmTy0_1 (i : Nat) : BufTy := match i % 128 with
  | 0 => ⟨S128x128, .i32⟩
  | 1 => ⟨S128x128, .i32⟩
  | 2 => ⟨S_, .i32⟩
  | 3 => ⟨S128x128, .i32⟩
  | 4 => ⟨S128x128, .i32⟩
  | 5 => ⟨S128x128, .i1⟩
  | 6 => ⟨S128x128, .i1⟩
  | 7 => ⟨S_, .f32⟩
  | 8 => ⟨S128x128, .f32⟩
  | 9 => ⟨S128x128, .f32⟩
  | 10 => ⟨S_, .f32⟩
  | 11 => ⟨S_, .f32⟩
  | 12 => ⟨S128x128, .f32⟩
  | 13 => ⟨S128x128, .f32⟩
  | 14 => ⟨S128x128, .f32⟩
  | 15 => ⟨S_, .f32⟩
  | 16 => ⟨S128x128, .f32⟩
  | 17 => ⟨S128x128, .f32⟩
  | 18 => ⟨S_, .f32⟩
  | 19 => ⟨S128x128, .f32⟩
  | 20 => ⟨S128x128, .f32⟩
  | 21 => ⟨S_, .f32⟩
  | 22 => ⟨S_, .f32⟩
  | 23 => ⟨S128x128, .f32⟩
  | 24 => ⟨S128x128, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S256, .f32⟩
  | 32 => ⟨S_, .f32⟩
  | 33 => ⟨S256, .f32⟩
  | 34 => ⟨S256, .f32⟩
  | 35 => ⟨S_, .f32⟩
  | 36 => ⟨S256, .f32⟩
  | 37 => ⟨S_, .f32⟩
  | 38 => ⟨S256, .f32⟩
  | 39 => ⟨S256, .f32⟩
  | 40 => ⟨S1x256, .f32⟩
  | 41 => ⟨S6x256, .f32⟩
  | 42 => ⟨S6x256, .f32⟩
  | 43 => ⟨S6x256, .f32⟩
  | 44 => ⟨S_, .f32⟩
  | 45 => ⟨S_, .f32⟩
  | 46 => ⟨S_, .f32⟩
  | 47 => ⟨S_, .f32⟩
  | 48 => ⟨S1x256, .f32⟩
  | 49 => ⟨S6x256, .f32⟩
  | 50 => ⟨S6x256, .f32⟩
  | 51 => ⟨S6x256, .f32⟩
  | 52 => ⟨S_, .f32⟩
  | 53 => ⟨S_, .f32⟩
  | 54 => ⟨S_, .f32⟩
  | 55 => ⟨S_, .f32⟩
  | 56 => ⟨S_, .f32⟩
  | 57 => ⟨S256, .f32⟩
  | 58 => ⟨S_, .f32⟩
  | 59 => ⟨S256, .f32⟩
  | 60 => ⟨S256, .f32⟩
  | 61 => ⟨S524288x256, .f32⟩
  | 62 => ⟨S_, .f32⟩
  | 63 => ⟨S256, .f32⟩
  | 64 => ⟨S_, .f32⟩
  | 65 => ⟨S256, .f32⟩
  | 66 => ⟨S256, .f32⟩
  | 67 => ⟨S256, .f32⟩
  | 68 => ⟨S256, .f32⟩
  | 69 => ⟨S256, .f32⟩
  | 70 => ⟨S256, .f32⟩
  | 71 => ⟨S_, .f32⟩
  | 72 => ⟨S_, .f32⟩
  | 73 => ⟨S_, .f32⟩
  | 74 => ⟨S_, .f32⟩
  | 75 => ⟨S256, .f32⟩
  | 76 => ⟨S256, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | _ => ⟨S524288x256, .f32⟩

abbrev hbmTy (i : Nat) : BufTy := match i / 128 with
  | 0 => hbmTy0_0 i
  | 1 => hbmTy0_1 i
  | _ => ⟨S524288x256, .f32⟩

abbrev bufTy : (tb : Table) → Fin (tcTables nBuf tb) → BufTy
  | .hbm, ⟨i, _⟩ => hbmTy i
  | _, _ => ⟨S524288x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_v0 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_8 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_10 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_13 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_cst_15 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_v0 : Ref sig .tc := ⟨.hbm, 85, rfl⟩
abbrev main_v60 : Ref sig .tc := ⟨.hbm, 86, rfl⟩
abbrev main_cst_16 : Ref sig .tc := ⟨.hbm, 87, rfl⟩
abbrev main_v61 : Ref sig .tc := ⟨.hbm, 88, rfl⟩
abbrev main_v62 : Ref sig .tc := ⟨.hbm, 89, rfl⟩
abbrev main_cst_17 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_call2_v0 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_v68 : Ref sig .tc := ⟨.hbm, 98, rfl⟩
abbrev main_cst_19 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_20 : Ref sig .tc := ⟨.hbm, 105, rfl⟩
abbrev main_v74 : Ref sig .tc := ⟨.hbm, 106, rfl⟩
abbrev main_cst_21 : Ref sig .tc := ⟨.hbm, 107, rfl⟩
abbrev main_v75 : Ref sig .tc := ⟨.hbm, 108, rfl⟩
abbrev main_cst_22 : Ref sig .tc := ⟨.hbm, 109, rfl⟩
abbrev main_v76 : Ref sig .tc := ⟨.hbm, 110, rfl⟩
abbrev main_cst_23 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_24 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_cst_25 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_c_26 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_cst_27 : Ref sig .tc := ⟨.hbm, 135, rfl⟩
abbrev main_v97 : Ref sig .tc := ⟨.hbm, 136, rfl⟩
abbrev main_v98 : Ref sig .tc := ⟨.hbm, 137, rfl⟩
abbrev main_cst_28 : Ref sig .tc := ⟨.hbm, 138, rfl⟩
abbrev main_call3_v0 : Ref sig .tc := ⟨.hbm, 139, rfl⟩
abbrev main_call3_v1 : Ref sig .tc := ⟨.hbm, 140, rfl⟩
abbrev main_v99 : Ref sig .tc := ⟨.hbm, 141, rfl⟩
abbrev main_v100 : Ref sig .tc := ⟨.hbm, 142, rfl⟩
abbrev main_cst_29 : Ref sig .tc := ⟨.hbm, 143, rfl⟩
abbrev main_v101 : Ref sig .tc := ⟨.hbm, 144, rfl⟩
abbrev main_v102 : Ref sig .tc := ⟨.hbm, 145, rfl⟩
abbrev main_call4_cst : Ref sig .tc := ⟨.hbm, 146, rfl⟩
abbrev main_call4_v0 : Ref sig .tc := ⟨.hbm, 147, rfl⟩
abbrev main_v103 : Ref sig .tc := ⟨.hbm, 148, rfl⟩
abbrev main_cst_30 : Ref sig .tc := ⟨.hbm, 149, rfl⟩
abbrev main_call5_v0 : Ref sig .tc := ⟨.hbm, 150, rfl⟩
abbrev main_call5_v1 : Ref sig .tc := ⟨.hbm, 151, rfl⟩
abbrev main_v104 : Ref sig .tc := ⟨.hbm, 152, rfl⟩
abbrev main_cst_31 : Ref sig .tc := ⟨.hbm, 153, rfl⟩
abbrev main_v105 : Ref sig .tc := ⟨.hbm, 154, rfl⟩
abbrev main_cst_32 : Ref sig .tc := ⟨.hbm, 155, rfl⟩
abbrev main_v106 : Ref sig .tc := ⟨.hbm, 156, rfl⟩
abbrev main_v107 : Ref sig .tc := ⟨.hbm, 157, rfl⟩
abbrev main_cst_33 : Ref sig .tc := ⟨.hbm, 158, rfl⟩
abbrev main_v108 : Ref sig .tc := ⟨.hbm, 159, rfl⟩
abbrev main_cst_34 : Ref sig .tc := ⟨.hbm, 160, rfl⟩
abbrev main_v109 : Ref sig .tc := ⟨.hbm, 161, rfl⟩
abbrev main_v110 : Ref sig .tc := ⟨.hbm, 162, rfl⟩
abbrev main_cst_35 : Ref sig .tc := ⟨.hbm, 163, rfl⟩
abbrev main_v111 : Ref sig .tc := ⟨.hbm, 164, rfl⟩
abbrev main_cst_36 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_37 : Ref sig .tc := ⟨.hbm, 172, rfl⟩
abbrev main_v118 : Ref sig .tc := ⟨.hbm, 173, rfl⟩
abbrev main_cst_38 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_39 : Ref sig .tc := ⟨.hbm, 180, rfl⟩
abbrev main_v124 : Ref sig .tc := ⟨.hbm, 181, rfl⟩
abbrev main_cst_40 : Ref sig .tc := ⟨.hbm, 182, rfl⟩
abbrev main_v125 : Ref sig .tc := ⟨.hbm, 183, rfl⟩
abbrev main_cst_41 : Ref sig .tc := ⟨.hbm, 184, rfl⟩
abbrev main_v126 : Ref sig .tc := ⟨.hbm, 185, rfl⟩
abbrev main_cst_42 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_43 : Ref sig .tc := ⟨.hbm, 190, rfl⟩
abbrev main_v130 : Ref sig .tc := ⟨.hbm, 191, rfl⟩
abbrev main_cst_44 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_cst_45 : Ref sig .tc := ⟨.hbm, 199, rfl⟩
abbrev main_v137 : Ref sig .tc := ⟨.hbm, 200, rfl⟩
abbrev main_cst_46 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_cst_47 : Ref sig .tc := ⟨.hbm, 205, rfl⟩
abbrev main_v141 : Ref sig .tc := ⟨.hbm, 206, rfl⟩
abbrev main_cst_48 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S_S768x256 : S_.BroadcastsInDim S768x256 (![] : Fin 0 → Fin S768x256.rank)
  bcast_S524288_S524288x1_0 : S524288.BroadcastsInDim S524288x1 (![0] : Fin 1 → Fin S524288x1.rank)
  bcast_S_S768 : S_.BroadcastsInDim S768 (![] : Fin 0 → Fin S768.rank)
  bcast_S768_S768x1_0 : S768.BroadcastsInDim S768x1 (![0] : Fin 1 → Fin S768x1.rank)
  bcast_S768x1_S768x256_0_1 : S768x1.BroadcastsInDim S768x256 (![0, 1] : Fin 2 → Fin S768x256.rank)
  shapeCasts_S768_S6x128x1 : S768.ShapeCasts S6x128x1
  shapeCasts_S768x256_S6x128x256 : S768x256.ShapeCasts S6x128x256
  bcast_S_S6x128x256 : S_.BroadcastsInDim S6x128x256 (![] : Fin 0 → Fin S6x128x256.rank)
  bcast_S6x128x1_S6x128x256_0_1_2 : S6x128x1.BroadcastsInDim S6x128x256 (![0, 1, 2] : Fin 3 → Fin S6x128x256.rank)
  bcast_S_S6x256 : S_.BroadcastsInDim S6x256 (![] : Fin 0 → Fin S6x256.rank)
  bcast_S_S6 : S_.BroadcastsInDim S6 (![] : Fin 0 → Fin S6.rank)
  bcast_S6_S6x1_0 : S6.BroadcastsInDim S6x1 (![0] : Fin 1 → Fin S6x1.rank)
  bcast_S6x1_S6x256_0_1 : S6x1.BroadcastsInDim S6x256 (![0, 1] : Fin 2 → Fin S6x256.rank)
  reducesTo_S6x128x256_S128x256_d0 : S6x128x256.ReducesTo [0] S128x256
  h_S_ : 0 < S_.numel
  bcast_S128x256_S1x128x256_1_2 : S128x256.BroadcastsInDim S1x128x256 (![1, 2] : Fin 2 → Fin S1x128x256.rank)
  bcast_S_S1x128x256 : S_.BroadcastsInDim S1x128x256 (![] : Fin 0 → Fin S1x128x256.rank)
  bcast_S1x128x256_S6x128x256_0_1_2 : S1x128x256.BroadcastsInDim S6x128x256 (![0, 1, 2] : Fin 3 → Fin S6x128x256.rank)
  reducesTo_S6x128x256_S_d0_1_2 : S6x128x256.ReducesTo [0, 1, 2] S_
  bcast_S_S128x256 : S_.BroadcastsInDim S128x256 (![] : Fin 0 → Fin S128x256.rank)
  reducesTo_S128x256_S128_d1 : S128x256.ReducesTo [1] S128
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  transposes_S128x256_S256x128_1_0 : S128x256.Transposes [1, 0] S256x128
  bcast_S_S128x128 : S_.BroadcastsInDim S128x128 (![] : Fin 0 → Fin S128x128.rank)
  reducesTo_S128x128_S_d0_1 : S128x128.ReducesTo [0, 1] S_
  reducesTo_S6x256_S256_d0 : S6x256.ReducesTo [0] S256
  bcast_S_S256 : S_.BroadcastsInDim S256 (![] : Fin 0 → Fin S256.rank)
  bcast_S256_S1x256_1 : S256.BroadcastsInDim S1x256 (![1] : Fin 1 → Fin S1x256.rank)
  bcast_S1x256_S6x256_0_1 : S1x256.BroadcastsInDim S6x256 (![0, 1] : Fin 2 → Fin S6x256.rank)
  reducesTo_S6x256_S_d0_1 : S6x256.ReducesTo [0, 1] S_
  reducesTo_S524288x256_S256_d0 : S524288x256.ReducesTo [0] S256
  reducesTo_S256_S_d0 : S256.ReducesTo [0] S_
  scatter_S768x256_S524288x1_S524288x256_1_0_0_1_wf : ScatterDims.WF S768x256 S524288x1 S524288x256 [1] [0] [0] 1
  scatter_S768_S524288x1_S524288_n_0_0_1_wf : ScatterDims.WF S768 S524288x1 S524288 [] [0] [0] 1
  scatter_S6x256_S524288x1_S524288x256_1_0_0_1_wf : ScatterDims.WF S6x256 S524288x1 S524288x256 [1] [0] [0] 1
  scatter_S6_S524288x1_S524288_n_0_0_1_wf : ScatterDims.WF S6 S524288x1 S524288 [] [0] [0] 1
  dot_S128x256_S256x128_S128x128_1_0_0_1_n_n_wf : DotDims.WF S128x256 S256x128 S128x128 [1] [0] [0] [1] [] []

variable [Facts₀]

def scatter_S768x256_S524288x1_S524288x256_1_0_0_1 : ScatterDims S768x256 S524288x1 S524288x256 where
  updateWindowDims := [1]
  insertedWindowDims := [0]
  scatterDimsToOperandDims := [0]
  indexVectorDim := 1
  wf := scatter_S768x256_S524288x1_S524288x256_1_0_0_1_wf
def scatter_S768_S524288x1_S524288_n_0_0_1 : ScatterDims S768 S524288x1 S524288 where
  updateWindowDims := []
  insertedWindowDims := [0]
  scatterDimsToOperandDims := [0]
  indexVectorDim := 1
  wf := scatter_S768_S524288x1_S524288_n_0_0_1_wf
def scatter_S6x256_S524288x1_S524288x256_1_0_0_1 : ScatterDims S6x256 S524288x1 S524288x256 where
  updateWindowDims := [1]
  insertedWindowDims := [0]
  scatterDimsToOperandDims := [0]
  indexVectorDim := 1
  wf := scatter_S6x256_S524288x1_S524288x256_1_0_0_1_wf
def scatter_S6_S524288x1_S524288_n_0_0_1 : ScatterDims S6 S524288x1 S524288 where
  updateWindowDims := []
  insertedWindowDims := [0]
  scatterDimsToOperandDims := [0]
  indexVectorDim := 1
  wf := scatter_S6_S524288x1_S524288_n_0_0_1_wf
def dot_S128x256_S256x128_S128x128_1_0_0_1_n_n : DotDims S128x256 S256x128 S128x128 where
  lhsContracting := [1]
  rhsContracting := [0]
  lhsNonContracting := [0]
  rhsNonContracting := [1]
  lhsBatch := []
  rhsBatch := []
  wf := dot_S128x256_S256x128_S128x128_1_0_0_1_n_n_wf

class Facts : Prop extends Facts₀ where

variable [Facts]
-- ==== Proof.KB.Kit.lean ====
/-
  The program around its one pipelined region. Six host lines come first: the segment id `d·128 + y` of every row and
  the two column reshapes the region reads. Then the region: 2 × 128 grid points, point (c, i) reading rows
  (c·128 + i)·2048 … +2047 of the ids and of the data, and accumulating into core c's block of the two partial-sum
  arrays. Then thirteen stretches of host lines turn the partial sums into the four results; none of them writes an
  argument or an array the region stages, which is what lets the region's arrays and the arguments be read after them.
-/
import proofs.«413714_j12455405158619_3_alg».proof.Proof.Gen.Kernel.Launch
import proofs.«413714_j12455405158619_3_alg».proof.Proof.Gen.Kernel.Skeleton
import proofs.«413714_j12455405158619_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region, and the contents the region is entered with -/

/-- The thirteen stretches of host lines after the region, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- A core's buffers when the region is entered: the launch contents after the six lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- @main is the six lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-! ## What the later lines leave alone -/

/-- The six arguments and the four arrays the region stages. -/
abbrev keepRefs : List (Ref sig .tc) :=
  [main_arg0, main_arg1, main_arg2, main_arg3, main_arg4, main_arg5, main_v3, main_v4, main_v5_0, main_v5_1]

/-- A line whose one result buffer is none of `keepRefs` writes none of them. -/
theorem keeps_single {y : Ref sig .tc} (h : y ∉ keepRefs) :
    ∀ r ∈ keepRefs, Proc.devRef (τ := τ) .tc r ∉ ({Proc.devRef .tc y} : Finset (DevRef τ sig)) :=
  fun r hr hm => h ((Proc.devRef_injective _ (Finset.mem_singleton.mp hm)) ▸ hr)

theorem hostOps1_keeps : (hostOps1 : List (HloOp τ sig (Elt F))).Forall fun op => ∀ r ∈ keepRefs, Proc.devRef (τ := τ) .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_1_keeps : (hostOps1_1 : List (HloOp τ sig (Elt F))).Forall fun op => ∀ r ∈ keepRefs, Proc.devRef (τ := τ) .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_2_keeps : (hostOps1_2 : List (HloOp τ sig (Elt F))).Forall fun op => ∀ r ∈ keepRefs, Proc.devRef (τ := τ) .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_3_keeps : (hostOps1_3 : List (HloOp τ sig (Elt F))).Forall fun op => ∀ r ∈ keepRefs, Proc.devRef (τ := τ) .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_4_keeps : (hostOps1_4 : List (HloOp τ sig (Elt F))).Forall fun op => ∀ r ∈ keepRefs, Proc.devRef (τ := τ) .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_5_keeps : (hostOps1_5 : List (HloOp τ sig (Elt F))).Forall fun op => ∀ r ∈ keepRefs, Proc.devRef (τ := τ) .tc r ∉ op.writes := by
  simp only [hostOps1_5, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_6_keeps : (hostOps1_6 : List (HloOp τ sig (Elt F))).Forall fun op => ∀ r ∈ keepRefs, Proc.devRef (τ := τ) .tc r ∉ op.writes := by
  simp only [hostOps1_6, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_7_keeps : (hostOps1_7 : List (HloOp τ sig (Elt F))).Forall fun op => ∀ r ∈ keepRefs, Proc.devRef (τ := τ) .tc r ∉ op.writes := by
  simp only [hostOps1_7, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_8_keeps : (hostOps1_8 : List (HloOp τ sig (Elt F))).Forall fun op => ∀ r ∈ keepRefs, Proc.devRef (τ := τ) .tc r ∉ op.writes := by
  simp only [hostOps1_8, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_9_keeps : (hostOps1_9 : List (HloOp τ sig (Elt F))).Forall fun op => ∀ r ∈ keepRefs, Proc.devRef (τ := τ) .tc r ∉ op.writes := by
  simp only [hostOps1_9, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_10_keeps : (hostOps1_10 : List (HloOp τ sig (Elt F))).Forall fun op => ∀ r ∈ keepRefs, Proc.devRef (τ := τ) .tc r ∉ op.writes := by
  simp only [hostOps1_10, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_11_keeps : (hostOps1_11 : List (HloOp τ sig (Elt F))).Forall fun op => ∀ r ∈ keepRefs, Proc.devRef (τ := τ) .tc r ∉ op.writes := by
  simp only [hostOps1_11, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_12_keeps : (hostOps1_12 : List (HloOp τ sig (Elt F))).Forall fun op => ∀ r ∈ keepRefs, Proc.devRef (τ := τ) .tc r ∉ op.writes := by
  simp only [hostOps1_12, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)

/-- No later line writes an argument or an array of the region. -/
theorem tail_keeps (r : Ref sig .tc) (hr : r ∈ keepRefs) :
    ∀ op ∈ (tailOps (F := F)).flatten, Proc.devRef (τ := τ) .tc r ∉ op.writes := by
  intro op hop
  obtain ⟨ops, hops, hop⟩ := List.mem_flatten.mp hop
  simp only [tailOps, List.mem_cons, List.mem_nil_iff, or_false] at hops
  rcases hops with rfl | rfl | rfl | rfl | rfl | rfl | rfl | rfl | rfl | rfl | rfl | rfl | rfl
  · exact (List.forall_iff_forall_mem.mp hostOps1_keeps) op hop r hr
  · exact (List.forall_iff_forall_mem.mp hostOps1_1_keeps) op hop r hr
  · exact (List.forall_iff_forall_mem.mp hostOps1_2_keeps) op hop r hr
  · exact (List.forall_iff_forall_mem.mp hostOps1_3_keeps) op hop r hr
  · exact (List.forall_iff_forall_mem.mp hostOps1_4_keeps) op hop r hr
  · exact (List.forall_iff_forall_mem.mp hostOps1_5_keeps) op hop r hr
  · exact (List.forall_iff_forall_mem.mp hostOps1_6_keeps) op hop r hr
  · exact (List.forall_iff_forall_mem.mp hostOps1_7_keeps) op hop r hr
  · exact (List.forall_iff_forall_mem.mp hostOps1_8_keeps) op hop r hr
  · exact (List.forall_iff_forall_mem.mp hostOps1_9_keeps) op hop r hr
  · exact (List.forall_iff_forall_mem.mp hostOps1_10_keeps) op hop r hr
  · exact (List.forall_iff_forall_mem.mp hostOps1_11_keeps) op hop r hr
  · exact (List.forall_iff_forall_mem.mp hostOps1_12_keeps) op hop r hr

/-- In particular none writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := tail_keeps (F := F) (Pipeline.arrRef spec0 w)
    (by fin_cases w <;> decide) op (List.mem_flatten.mpr ⟨ops, hops, hop⟩)
  exact h

/-- The six lines before the region write none of the arguments. -/
theorem hostOps0_keeps_args : (hostOps0 : List (HloOp τ sig (Elt F))).Forall fun op =>
    ∀ r ∈ [main_arg0, main_arg1, main_arg2, main_arg3, main_arg4, main_arg5], Proc.devRef (τ := τ) .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals
    intro r hr hm
    have e := Proc.devRef_injective _ (Finset.mem_singleton.mp hm)
    subst e
    revert hr
    decide

/-- An argument is found by the region as launched. -/
theorem V_arg (c : Dev nD) (r : Ref sig .tc) (hr : r ∈ [main_arg0, main_arg1, main_arg2, main_arg3, main_arg4, main_arg5]) :
    V m c r = m ((c : Thread nD τ).loc r) :=
  StableHlo.after_of_forall_not_mem (b := Proc.devRef .tc r) _ _ (by
    simp only [List.flatten_cons, List.flatten_nil, List.append_nil]
    exact fun op hop => (List.forall_iff_forall_mem.mp (hostOps0_keeps_args (F := F))) op hop r hr)

/-- A buffer the later lines leave alone and the region does not stage holds, after them, what the region found. -/
theorem W_kept (dats : (p : Fin 1) → (c : Dev nD) → Dat τ (Elt F) Unit ℕ (UR sig nD τ) ℕ (cfgs p) c) (c : Dev nD)
    (r : Ref sig .tc) (hr : r ∈ keepRefs) (hne : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (tail_keeps (F := F) r hr),
    Pipeline.withArrays_of_ne _ c (V0 m c) _ r hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body resets its two accumulators exactly when the inner grid coordinate is 0. -/
abbrev cond0_0 (i : grid0.Coords) : Prop := (Scalar.cmpi .ne (Scalar.extui (Scalar.cmpi .eq (BitVec.ofNat 32 (i 1).val) 0#32)) 0#32) = 1#1
/-- Over the 256 points in row-major order that is the points ≡ 0 (mod 128): the first point of each core. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs the body is called with -/

/-- One staging buffer of each accumulator window, through which its contents are stated. -/
abbrev VO0_3 : View sig .tc .vmem S1x768x256 .f32 := (Memref.whole cc0_stg3_0 : Memref sig .tc .vmem S1x768x256 .f32).view
abbrev VO0_4 : View sig .tc .vmem S1x8x256 .f32 := (Memref.whole cc0_stg4_0 : Memref sig .tc .vmem S1x8x256 .f32).view
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x256 .f32 := win0_4.stage (cfg0.slots t 4)
abbrev hs0_4 (t : Fin cfg0.N) : (ms0_4 t).IsWhole := hstage0_4 ((cfg0.slots t 4).cast nbuf0_4)

end Cert.Kernel.Fr

end
-- ==== Proof.KB.RunA.lean ====
/-
  The body at a point where the inner grid coordinate is 0 (the first point of a core). Both accumulator blocks are
  first overwritten with zeros, whatever they held, and then updated: the segment accumulator with the one-hot product
  of the point's 2048 segment ids against its 2048 × 256 data rows, the domain accumulator with the one-hot product of
  the domain ids against the squared rows. What each block ends with is recorded as the list of its stores, last first.
-/
import proofs.«413714_j12455405158619_3_alg».proof.Proof.KB.Kit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the two accumulator blocks at a resetting point, with the proof that it runs: the three
    input blocks are handed back as they were, the accumulators hold their stores. -/
noncomputable def kernelRun0_A (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) :
    Σ' (L3 : List (View.Piece (Elt F) S1x768x256 .f32)), { L4 : List (View.Piece (Elt F) S1x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Fr

end
-- ==== Proof.KB.RunB.lean ====
/-
  The body at a point where the inner grid coordinate is not 0. Nothing is reset: the segment accumulator block is
  read, the one-hot product of the point's segment ids against its data rows is added, and the sum is stored back; the
  domain accumulator likewise with the squared rows. The blocks' contents on entry are what the point before left.
-/
import proofs.«413714_j12455405158619_3_alg».proof.Proof.KB.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the two accumulator blocks at an accumulating point, from their running contents
    `xo3`, `xo4`, with the proof that it runs. -/
noncomputable def kernelRun0_B (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) :
    Σ' (L3 : List (View.Piece (Elt F) S1x768x256 .f32)), { L4 : List (View.Piece (Elt F) S1x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Fr

end
-- ==== Proof.KB.Frame.lean ====
/-
  What the two accumulator blocks hold after every grid point, and from it the run of the whole program and its frame.
  The 256 points are visited core by core (point t is core t / 128, step t % 128). At a point with t % 128 = 0 the
  blocks end at the resetting run's stores; at any other point at the accumulating run's stores over what the point
  before left, because a block is written back to its array only after the last step of a core (t % 128 = 127) and so is
  still in its staging buffer. With that proof data the library's launch theorem for a region between host lines gives
  the run; the six arguments are never written, which is the frame.
-/
import proofs.«413714_j12455405158619_3_alg».proof.Proof.KB.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two blocks -/

theorem cover0_A_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) (y : S1x768x256.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x768x256.size (by sl_kernel_rfl) y

theorem cover0_A_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) (y : S1x8x256.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x8x256.size (by sl_kernel_rfl) y

/-- The segment accumulator block after a resetting point: its stores read back. -/
def out0_A_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) : Vec F S1x768x256 .f32 :=
  VO0_3.read (Elt F) (VO0_3.writes (Elt F) VO0_3.junk (kernelRun0_A c i arg2 harg2 arg3 harg3 arg4 harg4 arg5 harg5 arg6 harg6 hc0 x0 x1 x2).1)

/-- The domain accumulator block after a resetting point. -/
def out0_A_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) : Vec F S1x8x256 .f32 :=
  VO0_4.read (Elt F) (VO0_4.writes (Elt F) VO0_4.junk (kernelRun0_A c i arg2 harg2 arg3 harg3 arg4 harg4 arg5 harg5 arg6 harg6 hc0 x0 x1 x2).2.1)

theorem cover0_B_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) (y : S1x768x256.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1x768x256.size (by sl_kernel_rfl) y

theorem cover0_B_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) (y : S1x8x256.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S1x8x256.size (by sl_kernel_rfl) y

/-- The segment accumulator block after an accumulating point, over the running contents. -/
def out0_B_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) : Vec F S1x768x256 .f32 :=
  VO0_3.read (Elt F) (VO0_3.writes (Elt F) VO0_3.junk (kernelRun0_B c i arg2 harg2 arg3 harg3 arg4 harg4 arg5 harg5 arg6 harg6 hc0 x0 x1 x2 xo3 xo4).1)

/-- The domain accumulator block after an accumulating point. -/
def out0_B_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) : Vec F S1x8x256 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## The two blocks after each point -/

/-- The accumulation: the pair of blocks after the body at position `n`, by recursion on the position. -/
def outsAt0 (c : Dev nD) : (n : ℕ) → n < cfg0.N → Vec F S1x768x256 .f32 × Vec F S1x8x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 128 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a resetting point. -/
theorem outsAt0_A (c : Dev nD) (t : Fin cfg0.N) (h0 : t.val % 128 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At an accumulating point: over what the point before left. -/
theorem outsAt0_B (c : Dev nD) (t : Fin cfg0.N) (h0 : ¬t.val % 128 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the accumulators' at
    `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At an accumulating point the segment accumulator's staging buffer still holds what the point before left. -/
theorem before0_3_B (c : Dev nD) (t : Fin cfg0.N) (h0 : ¬t.val % 128 = 0) (d) :
    (dats m 0 c).before 3 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-- And the domain accumulator's. -/
theorem before0_4_B (c : Dev nD) (t : Fin cfg0.N) (h0 : ¬t.val % 128 = 0) (d) :
    (dats m 0 c).before 4 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point's position decides the case; at an
    accumulating point the accumulators hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 256 := lt_of_lt_of_eq t.isLt (show cfg0.N = 256 from N_0)
  by_cases h0 : t.val % 128 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the region ends at what the proof data computes and
    every other unscoped buffer at what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument the region does not stage ends as launched. -/
theorem kept_arg (c : Dev nD) (r : Ref sig .tc) (hr : r ∈ [main_arg1, main_arg2, main_arg3, main_arg4, main_arg5]) :
    Pipeline.afterTail₀ cfgs (dats m) 0 (V0 m) tailOps c r = m ((c : Thread nD τ).loc r) := by
  have hk : r ∈ keepRefs := by revert hr; simp only [keepRefs, List.mem_cons, List.mem_nil_iff, or_false]; tauto
  have ha : r ∈ [main_arg0, main_arg1, main_arg2, main_arg3, main_arg4, main_arg5] := by
    revert hr; simp only [List.mem_cons, List.mem_nil_iff, or_false]; tauto
  have hne : ∀ w, Pipeline.arrRef spec0 w ≠ r := by
    intro w e; subst e; revert hr; fin_cases w <;> decide
  rw [W_kept m (dats m) c r hk hne]
  exact V_arg m c r ha

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans (((dats m 0 c).arrAt_in 2 rfl _).trans ((A_eq m c 2).trans (V_arg m c main_arg0 (by decide)))),
     ((h c).2 main_arg1 (Pipeline.mem_restRefs_of main_arg1 (by decide) (by decide))).trans (kept_arg m c main_arg1 (by decide)),
     ((h c).2 main_arg2 (Pipeline.mem_restRefs_of main_arg2 (by decide) (by decide))).trans (kept_arg m c main_arg2 (by decide)),
     ((h c).2 main_arg3 (Pipeline.mem_restRefs_of main_arg3 (by decide) (by decide))).trans (kept_arg m c main_arg3 (by decide)),
     ((h c).2 main_arg4 (Pipeline.mem_restRefs_of main_arg4 (by decide) (by decide))).trans (kept_arg m c main_arg4 (by decide)),
     ((h c).2 main_arg5 (Pipeline.mem_restRefs_of main_arg5 (by decide) (by decide))).trans (kept_arg m c main_arg5 (by decide))⟩)
    (run_main m ρ)

end Cert.Kernel.Fr

end
-- ==== Proof.KI.Kit.lean ====
/-
  The program around its one pipelined region. Six host lines come first: the segment id `d·128 + y` of every row and
  the two column reshapes the region reads. Then the region: 2 × 128 grid points, point (c, i) reading rows
  (c·128 + i)·2048 … +2047 of the ids and of the data, and accumulating into core c's block of the two partial-sum
  arrays. Then thirteen stretches of host lines turn the partial sums into the four results; none of them writes an
  argument or an array the region stages, which is what lets the region's arrays and the arguments be read after them.
-/
import proofs.«413714_j12455405158619_3_alg».proof.Proof.Gen.KernelIdeal.Launch
import proofs.«413714_j12455405158619_3_alg».proof.Proof.Gen.KernelIdeal.Skeleton
import proofs.«413714_j12455405158619_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines after the region, and the contents the region is entered with -/

/-- The thirteen stretches of host lines after the region, in program order. -/
abbrev tailOps : List (List (HloOp τ sig (Elt F))) :=
  [hostOps1, hostOps1_1, hostOps1_2, hostOps1_3, hostOps1_4, hostOps1_5, hostOps1_6, hostOps1_7, hostOps1_8, hostOps1_9, hostOps1_10, hostOps1_11, hostOps1_12]

/-- A core's buffers when the region is entered: the launch contents after the six lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor
theorem hostOps1_10_fresh : (hostOps1_10 : List (HloOp τ sig (Elt F))).Forall fun op => op.fresh = ∅ := by
  simp only [List.Forall]; repeat' constructor
theorem hostOps1_11_fresh : (hostOps1_11 : List (HloOp τ sig (Elt F))).Forall fun op => op.fresh = ∅ := by
  simp only [List.Forall]; repeat' constructor
theorem hostOps1_12_fresh : (hostOps1_12 : List (HloOp τ sig (Elt F))).Forall fun op => op.fresh = ∅ := by
  simp only [List.Forall]; repeat' constructor

/-- @main is the six lines, the region, the later lines: it reduces to the region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
  · exact Pipeline.sub_ucRefs op ((List.forall_iff_forall_mem.mp hostOps1_10_sub) op hop)
  · exact Pipeline.sub_ucRefs op ((List.forall_iff_forall_mem.mp hostOps1_11_sub) op hop)
  · exact Pipeline.sub_ucRefs op ((List.forall_iff_forall_mem.mp hostOps1_12_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop
  · exact (List.forall_iff_forall_mem.mp hostOps1_10_fresh) op hop
  · exact (List.forall_iff_forall_mem.mp hostOps1_11_fresh) op hop
  · exact (List.forall_iff_forall_mem.mp hostOps1_12_fresh) op hop

/-! ## What the later lines leave alone -/

/-- The six arguments and the four arrays the region stages. -/
abbrev keepRefs : List (Ref sig .tc) :=
  [main_arg0, main_arg1, main_arg2, main_arg3, main_arg4, main_arg5, main_v3, main_v4, main_v5_0, main_v5_1]

/-- A line whose one result buffer is none of `keepRefs` writes none of them. -/
theorem keeps_single {y : Ref sig .tc} (h : y ∉ keepRefs) :
    ∀ r ∈ keepRefs, Proc.devRef (τ := τ) .tc r ∉ ({Proc.devRef .tc y} : Finset (DevRef τ sig)) :=
  fun r hr hm => h ((Proc.devRef_injective _ (Finset.mem_singleton.mp hm)) ▸ hr)

theorem hostOps1_keeps : (hostOps1 : List (HloOp τ sig (Elt F))).Forall fun op => ∀ r ∈ keepRefs, Proc.devRef (τ := τ) .tc r ∉ op.writes := by
  simp only [hostOps1, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_1_keeps : (hostOps1_1 : List (HloOp τ sig (Elt F))).Forall fun op => ∀ r ∈ keepRefs, Proc.devRef (τ := τ) .tc r ∉ op.writes := by
  simp only [hostOps1_1, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_2_keeps : (hostOps1_2 : List (HloOp τ sig (Elt F))).Forall fun op => ∀ r ∈ keepRefs, Proc.devRef (τ := τ) .tc r ∉ op.writes := by
  simp only [hostOps1_2, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_3_keeps : (hostOps1_3 : List (HloOp τ sig (Elt F))).Forall fun op => ∀ r ∈ keepRefs, Proc.devRef (τ := τ) .tc r ∉ op.writes := by
  simp only [hostOps1_3, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_4_keeps : (hostOps1_4 : List (HloOp τ sig (Elt F))).Forall fun op => ∀ r ∈ keepRefs, Proc.devRef (τ := τ) .tc r ∉ op.writes := by
  simp only [hostOps1_4, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_5_keeps : (hostOps1_5 : List (HloOp τ sig (Elt F))).Forall fun op => ∀ r ∈ keepRefs, Proc.devRef (τ := τ) .tc r ∉ op.writes := by
  simp only [hostOps1_5, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_6_keeps : (hostOps1_6 : List (HloOp τ sig (Elt F))).Forall fun op => ∀ r ∈ keepRefs, Proc.devRef (τ := τ) .tc r ∉ op.writes := by
  simp only [hostOps1_6, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_7_keeps : (hostOps1_7 : List (HloOp τ sig (Elt F))).Forall fun op => ∀ r ∈ keepRefs, Proc.devRef (τ := τ) .tc r ∉ op.writes := by
  simp only [hostOps1_7, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_8_keeps : (hostOps1_8 : List (HloOp τ sig (Elt F))).Forall fun op => ∀ r ∈ keepRefs, Proc.devRef (τ := τ) .tc r ∉ op.writes := by
  simp only [hostOps1_8, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_9_keeps : (hostOps1_9 : List (HloOp τ sig (Elt F))).Forall fun op => ∀ r ∈ keepRefs, Proc.devRef (τ := τ) .tc r ∉ op.writes := by
  simp only [hostOps1_9, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_10_keeps : (hostOps1_10 : List (HloOp τ sig (Elt F))).Forall fun op => ∀ r ∈ keepRefs, Proc.devRef (τ := τ) .tc r ∉ op.writes := by
  simp only [hostOps1_10, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_11_keeps : (hostOps1_11 : List (HloOp τ sig (Elt F))).Forall fun op => ∀ r ∈ keepRefs, Proc.devRef (τ := τ) .tc r ∉ op.writes := by
  simp only [hostOps1_11, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)
theorem hostOps1_12_keeps : (hostOps1_12 : List (HloOp τ sig (Elt F))).Forall fun op => ∀ r ∈ keepRefs, Proc.devRef (τ := τ) .tc r ∉ op.writes := by
  simp only [hostOps1_12, List.Forall, StableHlo.nullary_writes, StableHlo.unary_writes, StableHlo.binary_writes, StableHlo.ternary_writes, StableHlo.quaternary_writes, StableHlo.reshape_writes, StableHlo.binaryIndexed_writes]
  repeat' apply And.intro
  all_goals exact keeps_single (by decide)

/-- No later line writes an argument or an array of the region. -/
theorem tail_keeps (r : Ref sig .tc) (hr : r ∈ keepRefs) :
    ∀ op ∈ (tailOps (F := F)).flatten, Proc.devRef (τ := τ) .tc r ∉ op.writes := by
  intro op hop
  obtain ⟨ops, hops, hop⟩ := List.mem_flatten.mp hop
  simp only [tailOps, List.mem_cons, List.mem_nil_iff, or_false] at hops
  rcases hops with rfl | rfl | rfl | rfl | rfl | rfl | rfl | rfl | rfl | rfl | rfl | rfl | rfl
  · exact (List.forall_iff_forall_mem.mp hostOps1_keeps) op hop r hr
  · exact (List.forall_iff_forall_mem.mp hostOps1_1_keeps) op hop r hr
  · exact (List.forall_iff_forall_mem.mp hostOps1_2_keeps) op hop r hr
  · exact (List.forall_iff_forall_mem.mp hostOps1_3_keeps) op hop r hr
  · exact (List.forall_iff_forall_mem.mp hostOps1_4_keeps) op hop r hr
  · exact (List.forall_iff_forall_mem.mp hostOps1_5_keeps) op hop r hr
  · exact (List.forall_iff_forall_mem.mp hostOps1_6_keeps) op hop r hr
  · exact (List.forall_iff_forall_mem.mp hostOps1_7_keeps) op hop r hr
  · exact (List.forall_iff_forall_mem.mp hostOps1_8_keeps) op hop r hr
  · exact (List.forall_iff_forall_mem.mp hostOps1_9_keeps) op hop r hr
  · exact (List.forall_iff_forall_mem.mp hostOps1_10_keeps) op hop r hr
  · exact (List.forall_iff_forall_mem.mp hostOps1_11_keeps) op hop r hr
  · exact (List.forall_iff_forall_mem.mp hostOps1_12_keeps) op hop r hr

/-- In particular none writes an array of the region. -/
theorem sfx_keeps : ∀ ops ∈ (tailOps : List (List (HloOp τ sig (Elt F)))), ∀ op ∈ ops,
    ∀ w, Proc.devRef .tc (Pipeline.arrRef spec0 w) ∉ op.writes := by
  intro ops hops op hop w
  have h := tail_keeps (F := F) (Pipeline.arrRef spec0 w)
    (by fin_cases w <;> decide) op (List.mem_flatten.mpr ⟨ops, hops, hop⟩)
  exact h

/-- The six lines before the region write none of the arguments. -/
theorem hostOps0_keeps_args : (hostOps0 : List (HloOp τ sig (Elt F))).Forall fun op =>
    ∀ r ∈ [main_arg0, main_arg1, main_arg2, main_arg3, main_arg4, main_arg5], Proc.devRef (τ := τ) .tc r ∉ op.writes := by
  simp only [hostOps0, List.Forall, StableHlo.nullary_writes, StableHlo.unary_writes, StableHlo.binary_writes, StableHlo.ternary_writes, StableHlo.quaternary_writes, StableHlo.reshape_writes, StableHlo.binaryIndexed_writes]
  repeat' apply And.intro
  all_goals
    intro r hr hm
    have e := Proc.devRef_injective _ (Finset.mem_singleton.mp hm)
    subst e
    revert hr
    decide

/-- An argument is found by the region as launched. -/
theorem V_arg (c : Dev nD) (r : Ref sig .tc) (hr : r ∈ [main_arg0, main_arg1, main_arg2, main_arg3, main_arg4, main_arg5]) :
    V m c r = m ((c : Thread nD τ).loc r) :=
  StableHlo.after_of_forall_not_mem (b := Proc.devRef .tc r) _ _ (by
    simp only [List.flatten_cons, List.flatten_nil, List.append_nil]
    exact fun op hop => (List.forall_iff_forall_mem.mp (hostOps0_keeps_args (F := F))) op hop r hr)

/-- A buffer the later lines leave alone and the region does not stage holds, after them, what the region found. -/
theorem W_kept (dats : (p : Fin 1) → (c : Dev nD) → Dat τ (Elt F) Unit ℕ (UR sig nD τ) ℕ (cfgs p) c) (c : Dev nD)
    (r : Ref sig .tc) (hr : r ∈ keepRefs) (hne : ∀ w, Pipeline.arrRef spec0 w ≠ r) :
    Pipeline.afterTail₀ cfgs dats 0 (V0 m) tailOps c r = V m c r := by
  unfold Pipeline.afterTail₀
  rw [StableHlo.after_of_forall_not_mem (b := Proc.devRef .tc r) _ _ (tail_keeps (F := F) r hr),
    Pipeline.withArrays_of_ne _ c (V0 m c) _ r hne]

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry one and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry one and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry one and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch -/

/-- The body resets its two accumulators exactly when the inner grid coordinate is 0. -/
abbrev cond0_0 (i : grid0.Coords) : Prop := (Scalar.cmpi .ne (Scalar.extui (Scalar.cmpi .eq (BitVec.ofNat 32 (i 1).val) 0#32)) 0#32) = 1#1
/-- Over the 256 points in row-major order that is the points ≡ 0 (mod 128): the first point of each core. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs the body is called with -/

/-- One staging buffer of each accumulator window, through which its contents are stated. -/
abbrev VO0_3 : View sig .tc .vmem S1x768x256 .f32 := (Memref.whole cc0_stg3_0 : Memref sig .tc .vmem S1x768x256 .f32).view
abbrev VO0_4 : View sig .tc .vmem S1x8x256 .f32 := (Memref.whole cc0_stg4_0 : Memref sig .tc .vmem S1x8x256 .f32).view
abbrev ms0_0 (t : Fin cfg0.N) : Memref sig .tc .vmem S2048x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x768x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x8x256 .f32 := win0_4.stage (cfg0.slots t 4)
abbrev hs0_4 (t : Fin cfg0.N) : (ms0_4 t).IsWhole := hstage0_4 ((cfg0.slots t 4).cast nbuf0_4)

end Cert.KernelIdeal.Fr

end
-- ==== Proof.KI.RunA.lean ====
/-
  The body at a point where the inner grid coordinate is 0 (the first point of a core). Both accumulator blocks are
  first overwritten with zeros, whatever they held, and then updated: the segment accumulator with the one-hot product
  of the point's 2048 segment ids against its 2048 × 256 data rows, the domain accumulator with the one-hot product of
  the domain ids against the squared rows. What each block ends with is recorded as the list of its stores, last first.
-/
import proofs.«413714_j12455405158619_3_alg».proof.Proof.KI.Kit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the two accumulator blocks at a resetting point, with the proof that it runs: the three
    input blocks are handed back as they were, the accumulators hold their stores. -/
noncomputable def kernelRun0_A (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) :
    Σ' (L3 : List (View.Piece (Elt F) S1x768x256 .f32)), { L4 : List (View.Piece (Elt F) S1x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Fr

end
-- ==== Proof.KI.RunB.lean ====
/-
  The body at a point where the inner grid coordinate is not 0. Nothing is reset: the segment accumulator block is
  read, the one-hot product of the point's segment ids against its data rows is added, and the sum is stored back; the
  domain accumulator likewise with the squared rows. The blocks' contents on entry are what the point before left.
-/
import proofs.«413714_j12455405158619_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The stores the body makes into the two accumulator blocks at an accumulating point, from their running contents
    `xo3`, `xo4`, with the proof that it runs. -/
noncomputable def kernelRun0_B (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) :
    Σ' (L3 : List (View.Piece (Elt F) S1x768x256 .f32)), { L4 : List (View.Piece (Elt F) S1x8x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Fr

end
-- ==== Proof.KI.Frame.lean ====
/-
  What the two accumulator blocks hold after every grid point, and from it the run of the whole program and its frame.
  The 256 points are visited core by core (point t is core t / 128, step t % 128). At a point with t % 128 = 0 the
  blocks end at the resetting run's stores; at any other point at the accumulating run's stores over what the point
  before left, because a block is written back to its array only after the last step of a core (t % 128 = 127) and so is
  still in its staging buffer. With that proof data the library's launch theorem for a region between host lines gives
  the run; the six arguments are never written, which is the frame.
-/
import proofs.«413714_j12455405158619_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the two blocks -/

theorem cover0_A_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) (y : S1x768x256.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x768x256.size (by sl_kernel_rfl) y

theorem cover0_A_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) (y : S1x8x256.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x8x256.size (by sl_kernel_rfl) y

/-- The segment accumulator block after a resetting point: its stores read back. -/
def out0_A_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) : Vec F S1x768x256 .f32 :=
  VO0_3.read (Elt F) (VO0_3.writes (Elt F) VO0_3.junk (kernelRun0_A c i arg2 harg2 arg3 harg3 arg4 harg4 arg5 harg5 arg6 harg6 hc0 x0 x1 x2).1)

/-- The domain accumulator block after a resetting point. -/
def out0_A_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) : Vec F S1x8x256 .f32 :=
  VO0_4.read (Elt F) (VO0_4.writes (Elt F) VO0_4.junk (kernelRun0_A c i arg2 harg2 arg3 harg3 arg4 harg4 arg5 harg5 arg6 harg6 hc0 x0 x1 x2).2.1)

theorem cover0_B_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) (y : S1x768x256.Idx) :
    ∃ pc ∈ (kernelRun0_B c i arg2 harg2 arg3 harg3 arg4 harg4 arg5 harg5 arg6 harg6 hc0 x0 x1 x2 xo3 xo4).1, y ∈ pc.1.set :=
  View.cover_of_tiledL (kernelRun0_B c i arg2 harg2 arg3 harg3 arg4 harg4 arg5 harg5 arg6 harg6 hc0 x0 x1 x2 xo3 xo4).1 S1x768x256.size (by sl_kernel_rfl) y

theorem cover0_B_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) (y : S1x8x256.Idx) :
    ∃ pc ∈ (kernelRun0_B c i arg2 harg2 arg3 harg3 arg4 harg4 arg5 harg5 arg6 harg6 hc0 x0 x1 x2 xo3 xo4).2.1, y ∈ pc.1.set :=
  View.cover_of_tiledL (kernelRun0_B c i arg2 harg2 arg3 harg3 arg4 harg4 arg5 harg5 arg6 harg6 hc0 x0 x1 x2 xo3 xo4).2.1 S1x8x256.size (by sl_kernel_rfl) y

/-- The segment accumulator block after an accumulating point, over the running contents. -/
def out0_B_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) : Vec F S1x768x256 .f32 :=
  VO0_3.read (Elt F) (VO0_3.writes (Elt F) VO0_3.junk (kernelRun0_B c i arg2 harg2 arg3 harg3 arg4 harg4 arg5 harg5 arg6 harg6 hc0 x0 x1 x2 xo3 xo4).1)

/-- The domain accumulator block after an accumulating point. -/
def out0_B_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) : Vec F S1x8x256 .f32 :=
  VO0_4.read (Elt F) (VO0_4.writes (Elt F) VO0_4.junk (kernelRun0_B c i arg2 harg2 arg3 harg3 arg4 harg4 arg5 harg5 arg6 harg6 hc0 x0 x1 x2 xo3 xo4).2.1)

/-! ## The two blocks after each point -/

/-- The accumulation: the pair of blocks after the body at position `n`, by recursion on the position. -/
def outsAt0 (c : Dev nD) : (n : ℕ) → n < cfg0.N → Vec F S1x768x256 .f32 × Vec F S1x8x256 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩),
              out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩))
  | n + 1, hn =>
    if h0 : (n + 1) % 128 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩),
       out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2,
       out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2)

/-- At a resetting point. -/
theorem outsAt0_A (c : Dev nD) (t : Fin cfg0.N) (h0 : t.val % 128 = 0) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t)) := by
  obtain ⟨n, hn⟩ := t
  cases n with
  | zero => exact rfl
  | succ n => exact (dif_pos h0).trans rfl

/-- At an accumulating point: over what the point before left. -/
theorem outsAt0_B (c : Dev nD) (t : Fin cfg0.N) (h0 : ¬t.val % 128 = 0) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2,
      out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and the accumulators' at
    `outsAt0`; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- At an accumulating point the segment accumulator's staging buffer still holds what the point before left. -/
theorem before0_3_B (c : Dev nD) (t : Fin cfg0.N) (h0 : ¬t.val % 128 = 0) (d) :
    (dats m 0 c).before 3 t d = (outsAt0 m c (t.val - 1) (Nat.lt_of_le_of_lt (Nat.sub_le _ _) t.isLt)).1 := by
  have hN : t.val < 256 := lt_of_lt_of_eq t.isLt (show cfg0.N = 256 from N_0)
  rw [Dat.before_out_kept _ 3 rfl t (by omega) (Bool.eq_false_iff.mpr fun h => by have := (flush0_3 _).mp h; dsimp only at this; omega)
    (fun _ => rfl) (fun _ _ => rfl)]
  dsimp only [dats]

/-- And the domain accumulator's. -/
theorem before0_4_B (c : Dev nD) (t : Fin cfg0.N) (h0 : ¬t.val % 128 = 0) (d) :
    (dats m 0 c).before 4 t d = (outsAt0 m c (t.val - 1) (Nat.lt_of_le_of_lt (Nat.sub_le _ _) t.isLt)).2 := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' buffers hold their blocks; the point's position decides the case; at an
    accumulating point the accumulators hold what the point before left; so the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 256 := lt_of_lt_of_eq t.isLt (show cfg0.N = 256 from N_0)
  by_cases h0 : t.val % 128 = 0
  · rw [outsAt0_A m c t h0]
    dsimp only
    unfold out0_A_3 out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _)
    · unfold owns; iexists _; isplitr
      swap; · iexact H4
      ipureintro; exact View.read_writes_of_cover _ _ _ _ _ (cover0_A_4 c _ _ _ _ _ _ _ _ _ _ _ _ _ _ _)
  · rw [outsAt0_B m c t h0]
    dsimp only
    simp only [before0_3_B m c t h0, before0_4_B m c t h0]
    unfold out0_B_3 out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) _ _).2.2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _)
    · unfold owns; iexists _; isplitr
      swap; · iexact H4
      ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the region ends at what the proof data computes and
    every other unscoped buffer at what the later lines leave. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument the region does not stage ends as launched. -/
theorem kept_arg (c : Dev nD) (r : Ref sig .tc) (hr : r ∈ [main_arg1, main_arg2, main_arg3, main_arg4, main_arg5]) :
    Pipeline.afterTail₀ cfgs (dats m) 0 (V0 m) tailOps c r = m ((c : Thread nD τ).loc r) := by
  have hk : r ∈ keepRefs := by revert hr; simp only [keepRefs, List.mem_cons, List.mem_nil_iff, or_false]; tauto
  have ha : r ∈ [main_arg0, main_arg1, main_arg2, main_arg3, main_arg4, main_arg5] := by
    revert hr; simp only [List.mem_cons, List.mem_nil_iff, or_false]; tauto
  have hne : ∀ w, Pipeline.arrRef spec0 w ≠ r := by
    intro w e; subst e; revert hr; fin_cases w <;> decide
  rw [W_kept m (dats m) c r hk hne]
  exact V_arg m c r ha

/-- The frame: the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 2).trans (((dats m 0 c).arrAt_in 2 rfl _).trans ((A_eq m c 2).trans (V_arg m c main_arg0 (by decide)))),
     ((h c).2 main_arg1 (Pipeline.mem_restRefs_of main_arg1 (by decide) (by decide))).trans (kept_arg m c main_arg1 (by decide)),
     ((h c).2 main_arg2 (Pipeline.mem_restRefs_of main_arg2 (by decide) (by decide))).trans (kept_arg m c main_arg2 (by decide)),
     ((h c).2 main_arg3 (Pipeline.mem_restRefs_of main_arg3 (by decide) (by decide))).trans (kept_arg m c main_arg3 (by decide)),
     ((h c).2 main_arg4 (Pipeline.mem_restRefs_of main_arg4 (by decide) (by decide))).trans (kept_arg m c main_arg4 (by decide)),
     ((h c).2 main_arg5 (Pipeline.mem_restRefs_of main_arg5 (by decide) (by decide))).trans (kept_arg m c main_arg5 (by decide))⟩)
    (run_main m ρ)

end Cert.KernelIdeal.Fr

end
-- ==== Proof.KI.Pay.lean ====
/-
  The body's arithmetic read at an index, at the exact values. The segment payload adds to the accumulator block, at
  (0, s, j), the sum over the block's 2048 rows t of the indicator that row t's segment word is the word of s times the
  row's entry in column j: the one-hot matrix product, with the change of float format the identity. The domain payload
  does the same with the domain words (8 positions) and the squared entries. The two reset payloads are zero.
-/
import proofs.«413714_j12455405158619_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.KernelIdeal.Pay

open Cert.KernelIdeal Cert.KernelIdeal.Gen
open Idealize.ShloMosaic Idealize.ShloMosaic.ValueIdx

/-- The reset value of the segment accumulator is zero everywhere. -/
theorem pay2_apply (i : S1x768x256.Idx) : (k0_pay2 (F := Ideal) : S1x768x256.Idx → EReal) i = 0 := by
  unfold k0_pay2
  exact Ideal.ofBits_zero_f32

/-- The reset value of the domain accumulator is zero everywhere. -/
theorem pay3_apply (i : S1x8x256.Idx) : (k0_pay3 (F := Ideal) : S1x8x256.Idx → EReal) i = 0 := by
  unfold k0_pay3
  exact Ideal.ofBits_zero_f32

/-- The left operand's index on its contracted axis is the contraction position. -/
private theorem lhs_seg_0 (i : S768x256.Idx) (q : dot_S2048x768_S2048x256_S768x256_0_0_1_1_n_n.contr.Idx) :
    (dot_S2048x768_S2048x256_S768x256_0_0_1_1_n_n.lhsIdx i q 0).val = (q ⟨0, by decide⟩).val :=
  dot_S2048x768_S2048x256_S768x256_0_0_1_1_n_n.lhsIdx_val_of_single rfl i q
/-- The left operand's index on its free axis is the result's row. -/
private theorem lhs_seg_1 (i : S768x256.Idx) (q : dot_S2048x768_S2048x256_S768x256_0_0_1_1_n_n.contr.Idx) :
    (dot_S2048x768_S2048x256_S768x256_0_0_1_1_n_n.lhsIdx i q 1).val = (i 0).val := by
  unfold DotDims.lhsIdx
  rw [dif_neg (show ¬(1 : Fin S2048x768.rank) ∈ dot_S2048x768_S2048x256_S768x256_0_0_1_1_n_n.lhsBatch by decide), dif_pos (show (1 : Fin S2048x768.rank) ∈ dot_S2048x768_S2048x256_S768x256_0_0_1_1_n_n.lhsNonContracting by decide)]
  rfl
/-- The right operand's index on its contracted axis is the contraction position. -/
private theorem rhs_seg_0 (i : S768x256.Idx) (q : dot_S2048x768_S2048x256_S768x256_0_0_1_1_n_n.contr.Idx) :
    (dot_S2048x768_S2048x256_S768x256_0_0_1_1_n_n.rhsIdx i q 0).val = (q ⟨0, by decide⟩).val :=
  dot_S2048x768_S2048x256_S768x256_0_0_1_1_n_n.rhsIdx_val_of_single rfl i q
/-- The right operand's index on its free axis is the result's column. -/
private theorem rhs_seg_1 (i : S768x256.Idx) (q : dot_S2048x768_S2048x256_S768x256_0_0_1_1_n_n.contr.Idx) :
    (dot_S2048x768_S2048x256_S768x256_0_0_1_1_n_n.rhsIdx i q 1).val = (i 1).val := by
  unfold DotDims.rhsIdx
  rw [dif_neg (show ¬(1 : Fin S2048x256.rank) ∈ dot_S2048x768_S2048x256_S768x256_0_0_1_1_n_n.rhsBatch by decide), dif_pos (show (1 : Fin S2048x256.rank) ∈ dot_S2048x768_S2048x256_S768x256_0_0_1_1_n_n.rhsNonContracting by decide)]
  rfl

/-- The block product into the zero accumulator at (r, c): the sum over the 2048 rows t of the left operand at (t, r)
    times the right operand at (t, c). -/
private theorem matmul_seg_apply (L : FVec Ideal S2048x768 .bf16) (R : FVec Ideal S2048x256 .bf16) (r : Fin 768) (c : Fin 256) :
    (matmul dot_S2048x768_S2048x256_S768x256_0_0_1_1_n_n none L R (constant (F := Ideal) S768x256 .f32 0x00000000#32) : FVec Ideal S768x256 .f32) (ix2 r c)
      = ∑ t : Fin 2048, (L (ix2 t r) : EReal) * (R (ix2 t c) : EReal) := by
  simp only [matmul]
  rw [Ideal.matmul_constant_zero_apply, ← Equiv.sum_comp (ValueIdx.contrEquiv1 dot_S2048x768_S2048x256_S768x256_0_0_1_1_n_n 2048 rfl rfl).symm]
  refine Finset.sum_congr rfl fun k _ => ?_
  have hk := ValueIdx.contrEquiv1_symm_val dot_S2048x768_S2048x256_S768x256_0_0_1_1_n_n 2048 rfl rfl k
  have el : dot_S2048x768_S2048x256_S768x256_0_0_1_1_n_n.lhsIdx (ix2 r c) ((ValueIdx.contrEquiv1 dot_S2048x768_S2048x256_S768x256_0_0_1_1_n_n 2048 rfl rfl).symm k) = ix2 k r := funext fun a => Fin.ext (by
    match a with
    | ⟨0, _⟩ => exact (lhs_seg_0 _ _).trans hk
    | ⟨1, _⟩ => exact lhs_seg_1 _ _)
  have er : dot_S2048x768_S2048x256_S768x256_0_0_1_1_n_n.rhsIdx (ix2 r c) ((ValueIdx.contrEquiv1 dot_S2048x768_S2048x256_S768x256_0_0_1_1_n_n 2048 rfl rfl).symm k) = ix2 k c := funext fun a => Fin.ext (by
    match a with
    | ⟨0, _⟩ => exact (rhs_seg_0 _ _).trans hk
    | ⟨1, _⟩ => exact rhs_seg_1 _ _)
  rw [el, er]

/-- The left operand's index on its contracted axis is the contraction position. -/
private theorem lhs_dom_0 (i : S8x256.Idx) (q : dot_S2048x8_S2048x256_S8x256_0_0_1_1_n_n.contr.Idx) :
    (dot_S2048x8_S2048x256_S8x256_0_0_1_1_n_n.lhsIdx i q 0).val = (q ⟨0, by decide⟩).val :=
  dot_S2048x8_S2048x256_S8x256_0_0_1_1_n_n.lhsIdx_val_of_single rfl i q
/-- The left operand's index on its free axis is the result's row. -/
private theorem lhs_dom_1 (i : S8x256.Idx) (q : dot_S2048x8_S2048x256_S8x256_0_0_1_1_n_n.contr.Idx) :
    (dot_S2048x8_S2048x256_S8x256_0_0_1_1_n_n.lhsIdx i q 1).val = (i 0).val := by
  unfold DotDims.lhsIdx
  rw [dif_neg (show ¬(1 : Fin S2048x8.rank) ∈ dot_S2048x8_S2048x256_S8x256_0_0_1_1_n_n.lhsBatch by decide), dif_pos (show (1 : Fin S2048x8.rank) ∈ dot_S2048x8_S2048x256_S8x256_0_0_1_1_n_n.lhsNonContracting by decide)]
  rfl
/-- The right operand's index on its contracted axis is the contraction position. -/
private theorem rhs_dom_0 (i : S8x256.Idx) (q : dot_S2048x8_S2048x256_S8x256_0_0_1_1_n_n.contr.Idx) :
    (dot_S2048x8_S2048x256_S8x256_0_0_1_1_n_n.rhsIdx i q 0).val = (q ⟨0, by decide⟩).val :=
  dot_S2048x8_S2048x256_S8x256_0_0_1_1_n_n.rhsIdx_val_of_single rfl i q
/-- The right operand's index on its free axis is the result's column. -/
private theorem rhs_dom_1 (i : S8x256.Idx) (q : dot_S2048x8_S2048x256_S8x256_0_0_1_1_n_n.contr.Idx) :
    (dot_S2048x8_S2048x256_S8x256_0_0_1_1_n_n.rhsIdx i q 1).val = (i 1).val := by
  unfold DotDims.rhsIdx
  rw [dif_neg (show ¬(1 : Fin S2048x256.rank) ∈ dot_S2048x8_S2048x256_S8x256_0_0_1_1_n_n.rhsBatch by decide), dif_pos (show (1 : Fin S2048x256.rank) ∈ dot_S2048x8_S2048x256_S8x256_0_0_1_1_n_n.rhsNonContracting by decide)]
  rfl

/-- The block product into the zero accumulator at (r, c): the sum over the 2048 rows t of the left operand at (t, r)
    times the right operand at (t, c). -/
private theorem matmul_dom_apply (L : FVec Ideal S2048x8 .bf16) (R : FVec Ideal S2048x256 .bf16) (r : Fin 8) (c : Fin 256) :
    (matmul dot_S2048x8_S2048x256_S8x256_0_0_1_1_n_n none L R (constant (F := Ideal) S8x256 .f32 0x00000000#32) : FVec Ideal S8x256 .f32) (ix2 r c)
      = ∑ t : Fin 2048, (L (ix2 t r) : EReal) * (R (ix2 t c) : EReal) := by
  simp only [matmul]
  rw [Ideal.matmul_constant_zero_apply, ← Equiv.sum_comp (ValueIdx.contrEquiv1 dot_S2048x8_S2048x256_S8x256_0_0_1_1_n_n 2048 rfl rfl).symm]
  refine Finset.sum_congr rfl fun k _ => ?_
  have hk := ValueIdx.contrEquiv1_symm_val dot_S2048x8_S2048x256_S8x256_0_0_1_1_n_n 2048 rfl rfl k
  have el : dot_S2048x8_S2048x256_S8x256_0_0_1_1_n_n.lhsIdx (ix2 r c) ((ValueIdx.contrEquiv1 dot_S2048x8_S2048x256_S8x256_0_0_1_1_n_n 2048 rfl rfl).symm k) = ix2 k r := funext fun a => Fin.ext (by
    match a with
    | ⟨0, _⟩ => exact (lhs_dom_0 _ _).trans hk
    | ⟨1, _⟩ => exact lhs_dom_1 _ _)
  have er : dot_S2048x8_S2048x256_S8x256_0_0_1_1_n_n.rhsIdx (ix2 r c) ((ValueIdx.contrEquiv1 dot_S2048x8_S2048x256_S8x256_0_0_1_1_n_n 2048 rfl rfl).symm k) = ix2 k c := funext fun a => Fin.ext (by
    match a with
    | ⟨0, _⟩ => exact (rhs_dom_0 _ _).trans hk
    | ⟨1, _⟩ => exact rhs_dom_1 _ _)
  rw [el, er]

/-- A one-bit word widened to 32 bits and read signed is the bit. -/
private theorem toInt_setWidth_bit32 : ∀ b : BitVec 1, (b.setWidth 32).toInt = (b.toNat : ℤ) := by decide

/-- At the exact values a widened condition converts to one or zero. -/
private theorem sitofp_bit (b : BitVec 1) :
    (FloatOps.sitofp (F := Ideal) .f32 (b.setWidth 32) : EReal) = if b = 1#1 then 1 else 0 := by
  show ((((b.setWidth 32).toInt : ℤ) : ℝ) : EReal) = _
  rw [toInt_setWidth_bit32]
  rcases BitVec.eq_zero_or_eq_one b with h | h
  · subst h; simp
  · subst h; simp

/-- A comparison of two integer vectors at an index compares the elements. -/
private theorem cmpi_apply {s : Shape} {w : Nat} (p : CmpIPredicate) (a b : IVec s w) (i : s.Idx) :
    cmpi p a b i = IntOp.cmpi p (a i) (b i) := rfl

/-- The one-hot factor at (t, r): the word column broadcast along the rows against the position row broadcast down the
    columns, compared, widened and converted, is one where row t's word is the word of r and zero elsewhere. -/
private theorem onehot_apply {n : Nat} (w : (⟨2, ![2048, 1]⟩ : Shape).Idx → BitVec 32)
    (hc : (⟨2, ![2048, 1]⟩ : Shape).ShapeCasts ⟨2, ![2048, 1]⟩)
    (hb1 : (⟨2, ![2048, 1]⟩ : Shape).Broadcasts ⟨2, ![2048, n]⟩)
    (hb2 : (⟨2, ![1, n]⟩ : Shape).Broadcasts ⟨2, ![2048, n]⟩)
    (hi : (⟨2, ![1, n]⟩ : Shape).Iotas .tc 32 [1]) (h1 : 1 < 32) (hb : FTy.bf16.bits < FTy.f32.bits)
    (t : Fin 2048) (r : Fin n) :
    ((truncf .bf16 (sitofp .f32 (extui 32 (cmpi .eq (broadcastTo ⟨2, ![2048, n]⟩ (shapeCast ⟨2, ![2048, 1]⟩ w hc) hb1)
        (broadcastTo ⟨2, ![2048, n]⟩ (iota .tc ⟨2, ![1, n]⟩ 32 [1] hi) hb2)) h1) : FVec Ideal ⟨2, ![2048, n]⟩ .f32) hb
        : FVec Ideal ⟨2, ![2048, n]⟩ .bf16) (ix2 t r) : EReal)
      = if w (ix2 t (0 : Fin 1)) = BitVec.ofNat 32 r.val then 1 else 0 := by
  rw [truncf_apply, sitofp_apply, extui_apply, sitofp_bit, cmpi_apply]
  have e1 : broadcastTo ⟨2, ![2048, n]⟩ (shapeCast ⟨2, ![2048, 1]⟩ w hc) hb1 (ix2 t r) = w (ix2 t (0 : Fin 1)) := by
    rw [shapeCast_self]
    exact broadcastTo_apply w hb1 (ix2 t r) (ix2 t (0 : Fin 1)) (fun a => match a with
      | ⟨0, _⟩ => by show t.val = if (2048 : Nat) = 1 then 0 else t.val; rw [if_neg (by decide)]
      | ⟨1, _⟩ => by show (0 : Nat) = if (1 : Nat) = 1 then 0 else r.val; rw [if_pos rfl])
  have e2 : broadcastTo ⟨2, ![2048, n]⟩ (iota .tc ⟨2, ![1, n]⟩ 32 [1] hi) hb2 (ix2 t r) = BitVec.ofNat 32 r.val := by
    refine (broadcastTo_apply _ hb2 (ix2 t r) (ix2 (0 : Fin 1) r) (fun a => match a with
      | ⟨0, _⟩ => by show (0 : Nat) = if (1 : Nat) = 1 then 0 else t.val; rw [if_pos rfl]
      | ⟨1, _⟩ => by
          show r.val = if n = 1 then 0 else r.val
          split_ifs with h
          · have := r.isLt; omega
          · rfl)).trans ?_
    exact iota_single_apply .tc _ 32 1 hi _
  rw [e1, e2]
  simp only [StableHlo.Predicate.cmpi_eq_iff]

/-- The segment accumulator's update at (0, s, j). -/
theorem pay4_apply (x : Vec Ideal S2048x256 .f32) (sg : Vec Ideal S2048x1 .i32) (acc : Vec Ideal S1x768x256 .f32) (s : Fin 768) (j : Fin 256) :
    (k0_pay4 (F := Ideal) x sg acc : S1x768x256.Idx → EReal) (ix3 (0 : Fin 1) s j)
      = (acc : S1x768x256.Idx → EReal) (ix3 (0 : Fin 1) s j)
        + ∑ t : Fin 2048, (if (sg : S2048x1.Idx → BitVec 32) (ix2 t (0 : Fin 1)) = BitVec.ofNat 32 s.val then (1 : EReal) else 0) * (x : S2048x256.Idx → EReal) (ix2 t j) := by
  unfold k0_pay4
  dsimp only
  rw [shapeCast_apply _ shapeCasts_S768x256_S1x768x256 (ix3 (0 : Fin 1) s j) (ix2 s j)
        (by rw [Shape.rowMajor_val_two, Shape.rowMajor_val_three]
            show s.val * 256 + j.val = ((0 : Nat) * 768 + s.val) * 256 + j.val
            omega),
      addf_apply,
      shapeCast_apply acc shapeCasts_S1x768x256_S768x256 (ix2 s j) (ix3 (0 : Fin 1) s j)
        (by rw [Shape.rowMajor_val_two, Shape.rowMajor_val_three]
            show ((0 : Nat) * 768 + s.val) * 256 + j.val = s.val * 256 + j.val
            omega),
      matmul_seg_apply]
  refine congrArg (fun z : EReal => (acc (ix3 (0 : Fin 1) s j) : EReal) + z) (Finset.sum_congr rfl fun t _ => ?_)
  rw [truncf_apply x, onehot_apply (n := 768)]

/-- The domain accumulator's update at (0, dd, j). -/
theorem pay15_apply (x : Vec Ideal S2048x256 .f32) (dm : Vec Ideal S2048x1 .i32) (acc : Vec Ideal S1x8x256 .f32) (dd : Fin 8) (j : Fin 256) :
    (k0_pay1 (F := Ideal) (k0_pay5 (F := Ideal) x dm acc) : S1x8x256.Idx → EReal) (ix3 (0 : Fin 1) dd j)
      = (acc : S1x8x256.Idx → EReal) (ix3 (0 : Fin 1) dd j)
        + ∑ t : Fin 2048, (if (dm : S2048x1.Idx → BitVec 32) (ix2 t (0 : Fin 1)) = BitVec.ofNat 32 dd.val then (1 : EReal) else 0)
            * ((x : S2048x256.Idx → EReal) (ix2 t j) * (x : S2048x256.Idx → EReal) (ix2 t j)) := by
  unfold k0_pay1 k0_pay5
  dsimp only
  rw [shapeCast_apply _ shapeCasts_S8x256_S1x8x256 (ix3 (0 : Fin 1) dd j) (ix2 dd j)
        (by rw [Shape.rowMajor_val_two, Shape.rowMajor_val_three]
            show dd.val * 256 + j.val = ((0 : Nat) * 8 + dd.val) * 256 + j.val
            omega),
      addf_apply,
      shapeCast_apply acc shapeCasts_S1x8x256_S8x256 (ix2 dd j) (ix3 (0 : Fin 1) dd j)
        (by rw [Shape.rowMajor_val_two, Shape.rowMajor_val_three]
            show ((0 : Nat) * 8 + dd.val) * 256 + j.val = dd.val * 256 + j.val
            omega),
      matmul_dom_apply]
  refine congrArg (fun z : EReal => (acc (ix3 (0 : Fin 1) dd j) : EReal) + z) (Finset.sum_congr rfl fun t _ => ?_)
  rw [truncf_apply (mulf x x), mulf_apply, onehot_apply (n := 8)]

end Cert.KernelIdeal.Pay

end
-- ==== Proof.Spec.lean ====
/-
  The vocabulary in which the two programs are compared. The data is a 524288 × 256 table x of extended reals; every row r
  carries a class word y r and a domain word d r, and its segment word is d r · 128 + y r (32-bit arithmetic). A scatter with
  accumulation lands row r at the position its word names when read as a signed integer; so the sum that lands at position n
  is the sum over the rows whose word is n. The pipelined region visits the rows in 2 × 128 blocks of 2048 and, per core cc,
  adds up indicator-weighted rows: `Part`.
-/
import Mathlib.Data.EReal.Basic
import Mathlib.Algebra.BigOperators.Group.Finset.Basic
import Idealize.ShloMosaic.PureOps.Ideal

noncomputable section

namespace Cert.Spec

open Idealize.ShloMosaic

/-- Row r's segment word: d r · 128 + y r. -/
def segw (y d : Fin 524288 → BitVec 32) (r : Fin 524288) : BitVec 32 := IntOp.addi (IntOp.muli (d r) 128#32) (y r)

/-- The rows whose word, read signed, is n. -/
def rowsOf (w : Fin 524288 → BitVec 32) (n : ℕ) : Finset (Fin 524288) := Finset.univ.filter fun r => (w r).toInt = (n : ℤ)

/-- Column j summed over the rows whose word is n. -/
def SegSum (x : Fin 524288 → Fin 256 → EReal) (w : Fin 524288 → BitVec 32) (n : ℕ) (j : Fin 256) : EReal := ∑ r ∈ rowsOf w n, x r j

/-- The number of rows whose word is n. -/
def SegCnt (w : Fin 524288 → BitVec 32) (n : ℕ) : EReal := ∑ _r ∈ rowsOf w n, (1 : EReal)

/-- The row that step i of core cc holds at position t of its block. -/
def rowOf (cc : Fin 2) (i : Fin 128) (t : Fin 2048) : Fin 524288 := ⟨(cc.val * 128 + i.val) * 2048 + t.val, by omega⟩

/-- Core cc's partial sum for position n: over its 128 steps and the 2048 rows of a step, the row's entry weighted by the
    indicator that the row's word is the word of n. -/
def Part (w : Fin 524288 → BitVec 32) (x : Fin 524288 → Fin 256 → EReal) (cc : Fin 2) (n : ℕ) (j : Fin 256) : EReal :=
  ∑ i : Fin 128, ∑ t : Fin 2048, (if w (rowOf cc i t) = BitVec.ofNat 32 n then (1 : EReal) else 0) * x (rowOf cc i t) j

end Cert.Spec

end
-- ==== Proof.LibReshape.lean ====
/-
  A vector reshaped to a column or to a row, read at an index: element `(i, 0)` of the column `[n] → [n, 1]` and
  element `(0, k)` of the row `[n] → [1, n]` are the vector's elements `i` and `k` (a reshape keeps the row-major
  position, and the positions of `(i, 0)` in `[n, 1]`, of `(0, k)` in `[1, n]` and of `i`, `k` in `[n]` agree).
-/
import Idealize.ShloMosaic.Lib.ValueIdx
import Idealize.ShloMosaic.Lib.Pipeline.Value

noncomputable section

namespace Cert.Rgcn.Lib

open Idealize.ShloMosaic Idealize.ShloMosaic.ValueIdx

theorem col_of_vec_apply {α : Type} {n : Nat} (v : (⟨1, ![n]⟩ : Shape).Idx → α)
    (h : (⟨1, ![n]⟩ : Shape).ShapeCasts ⟨2, ![n, 1]⟩) (i : Fin n) :
    shapeCast ⟨2, ![n, 1]⟩ v h (ix2 i (0 : Fin 1)) = v (ix1 i) :=
  -- both row-major positions are `i`: `i · 1 + 0` in the column
  shapeCast_apply v h (ix2 i (0 : Fin 1)) (ix1 i) (by
    rw [Shape.rowMajor_val_one, Shape.rowMajor_val_two]
    show i.val = i.val * 1 + 0
    omega)

theorem row_of_vec_apply {α : Type} {n : Nat} (v : (⟨1, ![n]⟩ : Shape).Idx → α)
    (h : (⟨1, ![n]⟩ : Shape).ShapeCasts ⟨2, ![1, n]⟩) (k : Fin n) :
    shapeCast ⟨2, ![1, n]⟩ v h (ix2 (0 : Fin 1) k) = v (ix1 k) :=
  -- both row-major positions are `k`: `0 · n + k` in the row
  shapeCast_apply v h (ix2 (0 : Fin 1) k) (ix1 k) (by
    rw [Shape.rowMajor_val_one, Shape.rowMajor_val_two]
    show k.val = 0 * n + k.val
    omega)

end Cert.Rgcn.Lib

end
-- ==== Proof.KI.Cols.lean ====
/-
  The two id columns the region reads, as the six host lines before it leave them: row r of the segment column holds
  d r · 128 + y r, row r of the domain column holds d r.
-/
import proofs.«413714_j12455405158619_3_alg».proof.Proof.KI.Kit
import proofs.«413714_j12455405158619_3_alg».proof.Proof.Spec
import proofs.«413714_j12455405158619_3_alg».proof.Proof.LibReshape
import Idealize.ShloMosaic.Lib.ValueIdx
import Idealize.ShloMosaic.Lib.StableHlo.Run

noncomputable section

namespace Cert.KernelIdeal.Fr

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ)

/-- The segment-id column: row r holds d r · 128 + y r. -/
theorem V_seg_col (c : Dev nD) (r : Fin 524288) :
    (V m c main_v3 : S524288x1.Idx → BitVec 32) (ix2 r (0 : Fin 1))
      = Cert.Spec.segw (fun r => (m ((c : Thread nD τ).loc main_arg4) : S524288.Idx → BitVec 32) (ix1 r))
          (fun r => (m ((c : Thread nD τ).loc main_arg5) : S524288.Idx → BitVec 32) (ix1 r)) r := by
  have e : (V m c main_v3 : S524288x1.Idx → BitVec 32)
      = shapeCast S524288x1 (addi (muli (m ((c : Thread nD τ).loc main_arg5) : S524288.Idx → BitVec 32)
          (broadcastInDim S524288 ![] bcast_S_S524288 (constantI S_ 32 128#32))) (m ((c : Thread nD τ).loc main_arg4) : S524288.Idx → BitVec 32))
          shapeCasts_S524288_S524288x1 := by
    dsimp only [V, V0]
    simp only [hostOps0, List.flatten_cons, List.flatten_nil, List.append_nil]
    after_results
    rfl
  rw [e, Cert.Rgcn.Lib.col_of_vec_apply]
  -- at row r the product and the sum are taken entrywise, and the broadcast constant reads 128
  rfl

/-- The domain-id column: row r holds d r. -/
theorem V_dom_col (c : Dev nD) (r : Fin 524288) :
    (V m c main_v4 : S524288x1.Idx → BitVec 32) (ix2 r (0 : Fin 1))
      = (m ((c : Thread nD τ).loc main_arg5) : S524288.Idx → BitVec 32) (ix1 r) := by
  have e : (V m c main_v4 : S524288x1.Idx → BitVec 32)
      = shapeCast S524288x1 (m ((c : Thread nD τ).loc main_arg5) : S524288.Idx → BitVec 32) shapeCasts_S524288_S524288x1 := by
    dsimp only [V, V0]
    simp only [hostOps0, List.flatten_cons, List.flatten_nil, List.append_nil]
    after_results
    rfl
  rw [e]
  exact Cert.Rgcn.Lib.col_of_vec_apply _ _ r

end Cert.KernelIdeal.Fr

end
-- ==== Proof.KI.Acc.lean ====
/-
  What the two partial-sum arrays hold when the region is left, at the exact values. Core cc's block of the segment
  array is the sum, over the core's 128 steps, of the one-hot product of the step's 2048 segment words against its 2048
  data rows; the domain array likewise with the domain words and the squared rows.

  The road. Each case of the body leaves in an accumulator block the one store that covers it, whose payload is the
  block's contents on entry (the stored zeros at the first step of a core) plus the step's one-hot product. Read at an
  index, with row p of step t's input blocks being row t · 2048 + p of the arrays, the block after point n holds the
  sum of the addends of the points of n's core up to n: by induction on n. A block is written back only after its
  core's last step, to block (cc, 0, 0) of its array, and the two cores' blocks cover the array.
-/
import proofs.«413714_j12455405158619_3_alg».proof.Proof.KI.Frame
import proofs.«413714_j12455405158619_3_alg».proof.Proof.KI.Pay
import proofs.«413714_j12455405158619_3_alg».proof.Proof.KI.Cols
import proofs.«413714_j12455405158619_3_alg».proof.Proof.Spec
import Idealize.ShloMosaic.Lib.ValueIdx
import Idealize.ShloMosaic.Lib.Pipeline.Value
import Idealize.ShloMosaic.Lib.Tactic
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.ValueIdx Idealize.ShloMosaic.Tactic
open Idealize.SL Idealize.SL.Sem

/-! ## What each case's stores leave, as the body's arithmetic -/

section Pieces
variable {F : FTy → Type} [FloatOps F]

private theorem hz3 : (![0, 0, 0] : Fin 3 → Nat) = fun _ => 0 := funext fun a => by fin_cases a <;> rfl
private theorem hz2 : (![0, 0] : Fin 2 → Nat) = fun _ => 0 := funext fun a => by fin_cases a <;> rfl

/-- An accumulating point leaves in the segment block its running contents plus the point's one-hot product. -/
theorem out_B_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) :
    out0_B_3 c i arg2 harg2 arg3 harg3 arg4 harg4 arg5 harg5 arg6 harg6 hc0 x0 x1 x2 xo3 xo4 = k0_pay4 x2 x0 xo3 := by
  unfold out0_B_3
  rw [View.read_writes_eq_canon _ _ _ (cover0_B_3 c i arg2 harg2 arg3 harg3 arg4 harg4 arg5 harg5 arg6 harg6 hc0 x0 x1 x2 xo3 xo4)]
  unfold kernelRun0_B
  dsimp only
  sl_unfold_words
  rw [View.canon_unit_zero hz3]
  simp only [View.readAt_eq_ld, harg2.read_unread, harg4.read_unread, harg5.read_unread,
    View.ld_unit_zero (S := S2048x256) hz2, View.ld_unit_zero (S := S2048x1) hz2, View.ld_unit_zero (S := S1x768x256) hz3]

/-- And in the domain block its running contents plus the one-hot product against the squared rows. -/
theorem out_B_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : ¬cond0_0 i)
    (x0 : Vec F S2048x1 .i32) (x1 : Vec F S2048x1 .i32) (x2 : Vec F S2048x256 .f32) (xo3 : Vec F S1x768x256 .f32) (xo4 : Vec F S1x8x256 .f32) :
    out0_B_4 c i arg2 harg2 arg3 harg3 arg4 harg4 arg5 harg5 arg6 harg6 hc0 x0 x1 x2 xo3 xo4 = k0_pay1 (k0_pay5 x2 x1 xo4) := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  rw [View.canon_unit_zero hz3]
  simp only [View.readAt_eq_ld, harg3.read_unread, harg4.read_unread, harg6.read_unread,
    View.ld_unit_zero (S := S2048x256) hz2, View.ld_unit_zero (S := S2048x1) hz2, View.ld_unit_zero (S := S1x8x256) hz3]

/-- A resetting point leaves in the segment block the point's one-hot product over the stored zeros. -/
theorem out_A_3 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) :
    out0_A_3 c i arg2 harg2 arg3 harg3 arg4 harg4 arg5 harg5 arg6 harg6 hc0 x0 x1 x2 = k0_pay4 x2 x0 (k0_pay2 (F := F)) := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  rw [View.canon_cons_unit_zero (S := S1x768x256) hz3]
  simp only [View.readAt_eq_ld, harg2.read_unread, harg4.read_unread,
    View.ld_unit_zero (S := S2048x256) hz2, View.ld_unit_zero (S := S2048x1) hz2, View.readCov_unit_zero (S := S1x768x256) _ hz3]

/-- And in the domain block the one-hot product against the squared rows over the stored zeros. -/
theorem out_A_4 (c : Dev nD) (i : grid0.Coords) (arg2 : Memref sig .tc .vmem S2048x1 .i32) (harg2 : arg2.IsWhole) (arg3 : Memref sig .tc .vmem S2048x1 .i32) (harg3 : arg3.IsWhole) (arg4 : Memref sig .tc .vmem S2048x256 .f32) (harg4 : arg4.IsWhole) (arg5 : Memref sig .tc .vmem S1x768x256 .f32) (harg5 : arg5.IsWhole) (arg6 : Memref sig .tc .vmem S1x8x256 .f32) (harg6 : arg6.IsWhole) (hc0 : cond0_0 i)
    (x0 : Vec F S2048x1 .i32) (x1 : Vec F S2048x1 .i32) (x2 : Vec F S2048x256 .f32) :
    out0_A_4 c i arg2 harg2 arg3 harg3 arg4 harg4 arg5 harg5 arg6 harg6 hc0 x0 x1 x2 = k0_pay1 (k0_pay5 x2 x1 (k0_pay3 (F := F))) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  rw [View.canon_cons_unit_zero (S := S1x8x256) hz3]
  simp only [View.readAt_eq_ld, harg3.read_unread, harg4.read_unread,
    View.ld_unit_zero (S := S2048x256) hz2, View.ld_unit_zero (S := S2048x1) hz2, View.readCov_unit_zero (S := S1x8x256) _ hz3]

end Pieces

/-! ## The input blocks of a point, read at an index -/

section Blocks

variable (m : (ℓ : Loc nD τ sig) → Buf (Elt Ideal) ℓ)

/-- The data as the region finds it, as a table of extended reals; the segment-id and domain-id columns as words per row. -/
abbrev Xk (c : Dev nD) : Fin 524288 → Fin 256 → EReal := fun r j => V m c main_arg0 (ix2 r j)
abbrev SGk (c : Dev nD) : Fin 524288 → BitVec 32 := fun r => V m c main_v3 (ix2 r (0 : Fin 1))
abbrev DMk (c : Dev nD) : Fin 524288 → BitVec 32 := fun r => V m c main_v4 (ix2 r (0 : Fin 1))

/-- The three input blocks of point t, at their literal types. -/
abbrev sblk (c : Dev nD) (t : Fin cfg0.N) : Vec Ideal S2048x1 .i32 := iblk (F := Ideal) m c 0 t
abbrev dblk (c : Dev nD) (t : Fin cfg0.N) : Vec Ideal S2048x1 .i32 := iblk (F := Ideal) m c 1 t
abbrev xblk (c : Dev nD) (t : Fin cfg0.N) : Vec Ideal S2048x256 .f32 := iblk (F := Ideal) m c 2 t

private theorem N256 : cfg0.N = 256 := N_0

/-- Row p of point t's blocks is row t · 2048 + p of the arrays. -/
def rowAt (t : Fin cfg0.N) (p : Fin 2048) : Fin 524288 := ⟨t.val * 2048 + p.val, by have := lt_of_lt_of_eq t.isLt N256; omega⟩

private theorem idx0_0 : ∀ t : Fin cfg0.N, win0_0.index t 0 = t.val ∧ win0_0.index t 1 = 0 :=
  (by decide +kernel : ∀ t : Fin grid0.N, win0_0.index t 0 = t.val ∧ win0_0.index t 1 = 0)
private theorem idx0_1 : ∀ t : Fin cfg0.N, win0_1.index t 0 = t.val ∧ win0_1.index t 1 = 0 :=
  (by decide +kernel : ∀ t : Fin grid0.N, win0_1.index t 0 = t.val ∧ win0_1.index t 1 = 0)
private theorem idx0_2 : ∀ t : Fin cfg0.N, win0_2.index t 0 = t.val ∧ win0_2.index t 1 = 0 :=
  (by decide +kernel : ∀ t : Fin grid0.N, win0_2.index t 0 = t.val ∧ win0_2.index t 1 = 0)

theorem sblk_apply (c : Dev nD) (t : Fin cfg0.N) (p : Fin 2048) :
    (sblk m c t : S2048x1.Idx → BitVec 32) (ix2 p (0 : Fin 1)) = SGk m c (rowAt t p) := by
  have hi := idx0_0 t
  unfold sblk iblk
  rw [View.read_apply]
  show V m c main_v3 _ = V m c main_v3 _
  congr 1
  funext a
  apply Fin.ext
  match a with
  | ⟨0, _⟩ => show win0_0.index t 0 * 2048 + 1 * p.val = t.val * 2048 + p.val; rw [hi.1]; omega
  | ⟨1, _⟩ => show win0_0.index t 1 * 1 + 1 * 0 = 0; rw [hi.2]

theorem dblk_apply (c : Dev nD) (t : Fin cfg0.N) (p : Fin 2048) :
    (dblk m c t : S2048x1.Idx → BitVec 32) (ix2 p (0 : Fin 1)) = DMk m c (rowAt t p) := by
  have hi := idx0_1 t
  unfold dblk iblk
  rw [View.read_apply]
  show V m c main_v4 _ = V m c main_v4 _
  congr 1
  funext a
  apply Fin.ext
  match a with
  | ⟨0, _⟩ => show win0_1.index t 0 * 2048 + 1 * p.val = t.val * 2048 + p.val; rw [hi.1]; omega
  | ⟨1, _⟩ => show win0_1.index t 1 * 1 + 1 * 0 = 0; rw [hi.2]

theorem xblk_apply (c : Dev nD) (t : Fin cfg0.N) (p : Fin 2048) (j : Fin 256) :
    (xblk m c t : S2048x256.Idx → EReal) (ix2 p j) = Xk m c (rowAt t p) j := by
  have hi := idx0_2 t
  unfold xblk iblk
  rw [View.read_apply]
  show V m c main_arg0 _ = V m c main_arg0 _
  congr 1
  funext a
  apply Fin.ext
  match a with
  | ⟨0, _⟩ => show win0_2.index t 0 * 2048 + 1 * p.val = t.val * 2048 + p.val; rw [hi.1]; omega
  | ⟨1, _⟩ => show win0_2.index t 1 * 256 + 1 * j.val = j.val; rw [hi.2]; omega

end Blocks

/-! ## The segment block after every point -/

section Acc

variable (m : (ℓ : Loc nD τ sig) → Buf (Elt Ideal) ℓ)

/-- What point k adds to position (s, j) of the segment block: over the point's 2048 rows, the row's entry in column j
    where the row's segment word is the word of s. -/
def add3 (c : Dev nD) (s : Fin 768) (j : Fin 256) (k : ℕ) : EReal :=
  if h : k < cfg0.N then ∑ p : Fin 2048, (if SGk m c (rowAt ⟨k, h⟩ p) = BitVec.ofNat 32 s.val then (1 : EReal) else 0) * Xk m c (rowAt ⟨k, h⟩ p) j else 0

theorem add3_at (c : Dev nD) (s : Fin 768) (j : Fin 256) (t : Fin cfg0.N) :
    add3 m c s j t.val = ∑ p : Fin 2048, (if SGk m c (rowAt t p) = BitVec.ofNat 32 s.val then (1 : EReal) else 0) * Xk m c (rowAt t p) j :=
  dif_pos t.isLt

/-- The segment block after point n. -/
abbrev acc3 (c : Dev nD) (n : ℕ) (h : n < cfg0.N) : S1x768x256.Idx → EReal := (outsAt0 (F := Ideal) m c n h).1

/-- A resetting point leaves its own addend. -/
theorem step3_A (c : Dev nD) (t : Fin cfg0.N) (h0 : t.val % 128 = 0) (s : Fin 768) (j : Fin 256) :
    acc3 m c t.val t.isLt (ix3 (0 : Fin 1) s j) = add3 m c s j t.val := by
  unfold acc3
  rw [outsAt0_A m c t h0]
  dsimp only
  refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (sblk m c t) (dblk m c t) (xblk m c t)) (ix3 (0 : Fin 1) s j)).trans ?_
  refine (Pay.pay4_apply (xblk m c t) (sblk m c t) (k0_pay2 (F := Ideal)) s j).trans ?_
  rw [Pay.pay2_apply, zero_add, add3_at]
  refine Finset.sum_congr rfl fun p _ => ?_
  rw [sblk_apply, xblk_apply]

/-- An accumulating point adds its addend to what the point before left. -/
theorem step3_B (c : Dev nD) (t : Fin cfg0.N) (h0 : ¬t.val % 128 = 0) (s : Fin 768) (j : Fin 256) :
    acc3 m c t.val t.isLt (ix3 (0 : Fin 1) s j)
      = acc3 m c (t.val - 1) (Nat.lt_of_le_of_lt (Nat.sub_le _ _) t.isLt) (ix3 (0 : Fin 1) s j) + add3 m c s j t.val := by
  unfold acc3
  rw [outsAt0_B m c t h0]
  dsimp only
  refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (sblk m c t) (dblk m c t) (xblk m c t)
    (outsAt0 (F := Ideal) m c (t.val - 1) (Nat.lt_of_le_of_lt (Nat.sub_le _ _) t.isLt)).1
    (outsAt0 (F := Ideal) m c (t.val - 1) (Nat.lt_of_le_of_lt (Nat.sub_le _ _) t.isLt)).2) (ix3 (0 : Fin 1) s j)).trans ?_
  refine (Pay.pay4_apply (xblk m c t) (sblk m c t) (outsAt0 (F := Ideal) m c (t.val - 1) (Nat.lt_of_le_of_lt (Nat.sub_le _ _) t.isLt)).1 s j).trans ?_
  rw [add3_at]
  refine congrArg _ (Finset.sum_congr rfl fun p _ => ?_)
  rw [sblk_apply, xblk_apply]

/-- After point n the segment block holds the addends of its core's points up to n. -/
theorem acc3_eq (c : Dev nD) (s : Fin 768) (j : Fin 256) : ∀ (n : ℕ) (h : n < cfg0.N),
    acc3 m c n h (ix3 (0 : Fin 1) s j) = ∑ i ∈ Finset.range (n % 128 + 1), add3 m c s j (n - n % 128 + i)
  | 0, h => by
    refine (step3_A m c ⟨0, h⟩ rfl s j).trans ?_
    show add3 m c s j 0 = _
    simp
  | n + 1, h => by
    by_cases h0 : (n + 1) % 128 = 0
    · refine (step3_A m c ⟨n + 1, h⟩ h0 s j).trans ?_
      show add3 m c s j (n + 1) = _
      rw [h0]
      simp
    · refine (step3_B m c ⟨n + 1, h⟩ h0 s j).trans ?_
      show acc3 m c n (Nat.lt_of_succ_lt h) (ix3 (0 : Fin 1) s j) + add3 m c s j (n + 1) = _
      rw [acc3_eq c s j n (Nat.lt_of_succ_lt h)]
      have e1 : (n + 1) % 128 = n % 128 + 1 := by omega
      have e2 : n + 1 - (n % 128 + 1) = n - n % 128 := by omega
      have e3 : n - n % 128 + (n % 128 + 1) = n + 1 := by omega
      rw [e1, e2, Finset.sum_range_succ _ (n % 128 + 1), e3]

end Acc

/-! ## The segment array after the region -/

section Arr3

variable (m : (ℓ : Loc nD τ sig) → Buf (Elt Ideal) ℓ)

/-- The addends of a core's 128 points make the core's partial sum. -/
theorem sum_add3 (c : Dev nD) (cc : Fin 2) (s : Fin 768) (j : Fin 256) :
    ∑ i ∈ Finset.range 128, add3 m c s j (cc.val * 128 + i) = Cert.Spec.Part (SGk m c) (Xk m c) cc s.val j := by
  rw [Finset.sum_range]
  unfold Cert.Spec.Part
  refine Finset.sum_congr rfl fun i _ => ?_
  have hlt : cc.val * 128 + i.val < cfg0.N := by rw [N256]; omega
  exact (add3_at m c s j ⟨cc.val * 128 + i.val, hlt⟩).trans rfl

/-- The segment partial-sum array the region leaves: core cc's block holds core cc's partial sums. -/
def G3 (c : Dev nD) : S2x768x256.Idx → EReal := fun i => Cert.Spec.Part (SGk m c) (Xk m c) (i 0) (i 1).val (i 2)

private theorem idx0_3 : ∀ t : Fin cfg0.N, win0_3.index t 0 = t.val / 128 ∧ win0_3.index t 1 = 0 ∧ win0_3.index t 2 = 0 :=
  (by decide +kernel : ∀ t : Fin grid0.N, win0_3.index t 0 = t.val / 128 ∧ win0_3.index t 1 = 0 ∧ win0_3.index t 2 = 0)

/-- The block written back after a core's last point is the core's block of the array. -/
theorem flushed3_eq (c : Dev nD) (t : Fin cfg0.N) (hf : (cfg0.win 3).flush t = true) :
    (dats (F := Ideal) m 0 c).flushed 3 t = ((cfg0.win 3).blk t).view.read (Elt Ideal) (G3 m c) := by
  have h127 : t.val % 128 = 127 := (flush0_3 t).mp hf
  have hN := lt_of_lt_of_eq t.isLt N256
  have hi := idx0_3 t
  show (cfg0.win 3).cut (grid0.coords t) ((dats (F := Ideal) m 0 c).after 3 t) = _
  rw [after0_3]
  funext y
  obtain ⟨a, s, j, rfl⟩ : ∃ (a : Fin 1) (s : Fin 768) (j : Fin 256), y = ix3 a s j := ⟨y 0, y 1, y 2, eq_ix3 y⟩
  obtain rfl : a = 0 := Subsingleton.elim _ _
  rw [View.read_apply]
  show acc3 m c t.val t.isLt ((cfg0.win 3).xinj (grid0.coords t) (ix3 (0 : Fin 1) s j)) = G3 m c (((cfg0.win 3).blk t).view.emb (ix3 (0 : Fin 1) s j))
  have ex : (cfg0.win 3).xinj (grid0.coords t) (ix3 (0 : Fin 1) s j) = ix3 (0 : Fin 1) s j := funext fun a => Fin.ext (by
    match a with
    | ⟨0, _⟩ => rfl
    | ⟨1, _⟩ => rfl
    | ⟨2, _⟩ => rfl)
  have hcc : t.val / 128 < 2 := by omega
  have ee : ((cfg0.win 3).blk t).view.emb (ix3 (0 : Fin 1) s j) = ix3 (⟨t.val / 128, hcc⟩ : Fin 2) s j := funext fun a => Fin.ext (by
    match a with
    | ⟨0, _⟩ => show win0_3.index t 0 * 1 + 1 * 0 = t.val / 128; rw [hi.1]; omega
    | ⟨1, _⟩ => show win0_3.index t 1 * 768 + 1 * s.val = s.val; rw [hi.2.1]; omega
    | ⟨2, _⟩ => show win0_3.index t 2 * 256 + 1 * j.val = j.val; rw [hi.2.2]; omega)
  rw [ex, ee, acc3_eq m c s j t.val t.isLt, h127]
  show ∑ i ∈ Finset.range 128, add3 m c s j (t.val - 127 + i) = Cert.Spec.Part (SGk m c) (Xk m c) ⟨t.val / 128, hcc⟩ s.val j
  rw [← sum_add3 m c ⟨t.val / 128, hcc⟩ s j]
  have e : t.val - 127 = t.val / 128 * 128 := by omega
  rw [e]

/-- So the segment array ends holding every core's partial sums. -/
theorem final3 (c : Dev nD) : (dats (F := Ideal) m 0 c).arrAt 3 cfg0.N = G3 m c :=
  (dats (F := Ideal) m 0 c).arrAt_eq_of_cover 3 (G3 m c) (flushed3_eq m c) fun i => by
    have h0 : (i 0 : Nat) < 2 := (i 0).isLt
    have h1 : (i 1 : Nat) < 768 := (i 1).isLt
    have h2 : (i 2 : Nat) < 256 := (i 2).isLt
    have hlt : (i 0 : Nat) * 128 + 127 < cfg0.N := by rw [N256]; omega
    refine ⟨⟨(i 0 : Nat) * 128 + 127, hlt⟩, (flush0_3 _).mpr (by show ((i 0 : Nat) * 128 + 127) % 128 = 127; omega), ?_⟩
    have hi := idx0_3 ⟨(i 0 : Nat) * 128 + 127, hlt⟩
    show i ∈ ((View.whole main_v5_0).slice (win0_3.rect ⟨(i 0 : Nat) * 128 + 127, hlt⟩)).set
    rw [View.set_slice_whole, Rect.mem_set_unit]
    intro a
    match a with
    | ⟨0, _⟩ =>
      show win0_3.index ⟨(i 0 : Nat) * 128 + 127, hlt⟩ 0 * 1 ≤ (i 0 : Nat) ∧ (i 0 : Nat) < win0_3.index ⟨(i 0 : Nat) * 128 + 127, hlt⟩ 0 * 1 + 1
      rw [hi.1]; show ((i 0 : Nat) * 128 + 127) / 128 * 1 ≤ (i 0 : Nat) ∧ (i 0 : Nat) < ((i 0 : Nat) * 128 + 127) / 128 * 1 + 1; omega
    | ⟨1, _⟩ =>
      show win0_3.index ⟨(i 0 : Nat) * 128 + 127, hlt⟩ 1 * 768 ≤ (i 1 : Nat) ∧ (i 1 : Nat) < win0_3.index ⟨(i 0 : Nat) * 128 + 127, hlt⟩ 1 * 768 + 768
      rw [hi.2.1]; omega
    | ⟨2, _⟩ =>
      show win0_3.index ⟨(i 0 : Nat) * 128 + 127, hlt⟩ 2 * 256 ≤ (i 2 : Nat) ∧ (i 2 : Nat) < win0_3.index ⟨(i 0 : Nat) * 128 + 127, hlt⟩ 2 * 256 + 256
      rw [hi.2.2]; omega

end Arr3

/-! ## The domain block after every point -/

section Acc4

variable (m : (ℓ : Loc nD τ sig) → Buf (Elt Ideal) ℓ)

/-- What point k adds to position (dd, j) of the domain block: over the point's 2048 rows, the square of the row's entry in
    column j where the row's domain word is the word of dd. -/
def add4 (c : Dev nD) (dd : Fin 8) (j : Fin 256) (k : ℕ) : EReal :=
  if h : k < cfg0.N then ∑ p : Fin 2048, (if DMk m c (rowAt ⟨k, h⟩ p) = BitVec.ofNat 32 dd.val then (1 : EReal) else 0) * (Xk m c (rowAt ⟨k, h⟩ p) j * Xk m c (rowAt ⟨k, h⟩ p) j) else 0

theorem add4_at (c : Dev nD) (dd : Fin 8) (j : Fin 256) (t : Fin cfg0.N) :
    add4 m c dd j t.val = ∑ p : Fin 2048, (if DMk m c (rowAt t p) = BitVec.ofNat 32 dd.val then (1 : EReal) else 0) * (Xk m c (rowAt t p) j * Xk m c (rowAt t p) j) :=
  dif_pos t.isLt

/-- The domain block after point n. -/
abbrev acc4 (c : Dev nD) (n : ℕ) (h : n < cfg0.N) : S1x8x256.Idx → EReal := (outsAt0 (F := Ideal) m c n h).2

/-- A resetting point leaves its own addend. -/
theorem step4_A (c : Dev nD) (t : Fin cfg0.N) (h0 : t.val % 128 = 0) (dd : Fin 8) (j : Fin 256) :
    acc4 m c t.val t.isLt (ix3 (0 : Fin 1) dd j) = add4 m c dd j t.val := by
  unfold acc4
  rw [outsAt0_A m c t h0]
  dsimp only
  refine (congrFun (out_A_4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (sblk m c t) (dblk m c t) (xblk m c t)) (ix3 (0 : Fin 1) dd j)).trans ?_
  refine (Pay.pay15_apply (xblk m c t) (dblk m c t) (k0_pay3 (F := Ideal)) dd j).trans ?_
  rw [Pay.pay3_apply, zero_add, add4_at]
  refine Finset.sum_congr rfl fun p _ => ?_
  rw [dblk_apply, xblk_apply]

/-- An accumulating point adds its addend to what the point before left. -/
theorem step4_B (c : Dev nD) (t : Fin cfg0.N) (h0 : ¬t.val % 128 = 0) (dd : Fin 8) (j : Fin 256) :
    acc4 m c t.val t.isLt (ix3 (0 : Fin 1) dd j)
      = acc4 m c (t.val - 1) (Nat.lt_of_le_of_lt (Nat.sub_le _ _) t.isLt) (ix3 (0 : Fin 1) dd j) + add4 m c dd j t.val := by
  unfold acc4
  rw [outsAt0_B m c t h0]
  dsimp only
  refine (congrFun (out_B_4 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (sblk m c t) (dblk m c t) (xblk m c t)
    (outsAt0 (F := Ideal) m c (t.val - 1) (Nat.lt_of_le_of_lt (Nat.sub_le _ _) t.isLt)).1
    (outsAt0 (F := Ideal) m c (t.val - 1) (Nat.lt_of_le_of_lt (Nat.sub_le _ _) t.isLt)).2) (ix3 (0 : Fin 1) dd j)).trans ?_
  refine (Pay.pay15_apply (xblk m c t) (dblk m c t) (outsAt0 (F := Ideal) m c (t.val - 1) (Nat.lt_of_le_of_lt (Nat.sub_le _ _) t.isLt)).2 dd j).trans ?_
  rw [add4_at]
  refine congrArg _ (Finset.sum_congr rfl fun p _ => ?_)
  rw [dblk_apply, xblk_apply]

/-- After point n the domain block holds the addends of its core's points up to n. -/
theorem acc4_eq (c : Dev nD) (dd : Fin 8) (j : Fin 256) : ∀ (n : ℕ) (h : n < cfg0.N),
    acc4 m c n h (ix3 (0 : Fin 1) dd j) = ∑ i ∈ Finset.range (n % 128 + 1), add4 m c dd j (n - n % 128 + i)
  | 0, h => by
    refine (step4_A m c ⟨0, h⟩ rfl dd j).trans ?_
    show add4 m c dd j 0 = _
    simp
  | n + 1, h => by
    by_cases h0 : (n + 1) % 128 = 0
    · refine (step4_A m c ⟨n + 1, h⟩ h0 dd j).trans ?_
      show add4 m c dd j (n + 1) = _
      rw [h0]
      simp
    · refine (step4_B m c ⟨n + 1, h⟩ h0 dd j).trans ?_
      show acc4 m c n (Nat.lt_of_succ_lt h) (ix3 (0 : Fin 1) dd j) + add4 m c dd j (n + 1) = _
      rw [acc4_eq c dd j n (Nat.lt_of_succ_lt h)]
      have e1 : (n + 1) % 128 = n % 128 + 1 := by omega
      have e2 : n + 1 - (n % 128 + 1) = n - n % 128 := by omega
      have e3 : n - n % 128 + (n % 128 + 1) = n + 1 := by omega
      rw [e1, e2, Finset.sum_range_succ _ (n % 128 + 1), e3]

end Acc4

/-! ## The domain array after the region -/

section Arr4

variable (m : (ℓ : Loc nD τ sig) → Buf (Elt Ideal) ℓ)

/-- The addends of a core's 128 points make the core's partial sum. -/
theorem sum_add4 (c : Dev nD) (cc : Fin 2) (dd : Fin 8) (j : Fin 256) :
    ∑ i ∈ Finset.range 128, add4 m c dd j (cc.val * 128 + i) = Cert.Spec.Part (DMk m c) (fun r j => Xk m c r j * Xk m c r j) cc dd.val j := by
  rw [Finset.sum_range]
  unfold Cert.Spec.Part
  refine Finset.sum_congr rfl fun i _ => ?_
  have hlt : cc.val * 128 + i.val < cfg0.N := by rw [N256]; omega
  exact (add4_at m c dd j ⟨cc.val * 128 + i.val, hlt⟩).trans rfl

/-- The domain partial-sum array the region leaves: core cc's block holds core cc's partial sums. -/
def G4 (c : Dev nD) : S2x8x256.Idx → EReal := fun i => Cert.Spec.Part (DMk m c) (fun r j => Xk m c r j * Xk m c r j) (i 0) (i 1).val (i 2)

private theorem idx0_4 : ∀ t : Fin cfg0.N, win0_4.index t 0 = t.val / 128 ∧ win0_4.index t 1 = 0 ∧ win0_4.index t 2 = 0 :=
  (by decide +kernel : ∀ t : Fin grid0.N, win0_4.index t 0 = t.val / 128 ∧ win0_4.index t 1 = 0 ∧ win0_4.index t 2 = 0)

/-- The block written back after a core's last point is the core's block of the array. -/
theorem flushed4_eq (c : Dev nD) (t : Fin cfg0.N) (hf : (cfg0.win 4).flush t = true) :
    (dats (F := Ideal) m 0 c).flushed 4 t = ((cfg0.win 4).blk t).view.read (Elt Ideal) (G4 m c) := by
  have h127 : t.val % 128 = 127 := (flush0_4 t).mp hf
  have hN := lt_of_lt_of_eq t.isLt N256
  have hi := idx0_4 t
  show (cfg0.win 4).cut (grid0.coords t) ((dats (F := Ideal) m 0 c).after 4 t) = _
  rw [after0_4]
  funext y
  obtain ⟨a, dd, j, rfl⟩ : ∃ (a : Fin 1) (dd : Fin 8) (j : Fin 256), y = ix3 a dd j := ⟨y 0, y 1, y 2, eq_ix3 y⟩
  obtain rfl : a = 0 := Subsingleton.elim _ _
  rw [View.read_apply]
  show acc4 m c t.val t.isLt ((cfg0.win 4).xinj (grid0.coords t) (ix3 (0 : Fin 1) dd j)) = G4 m c (((cfg0.win 4).blk t).view.emb (ix3 (0 : Fin 1) dd j))
  have ex : (cfg0.win 4).xinj (grid0.coords t) (ix3 (0 : Fin 1) dd j) = ix3 (0 : Fin 1) dd j := funext fun a => Fin.ext (by
    match a with
    | ⟨0, _⟩ => rfl
    | ⟨1, _⟩ => rfl
    | ⟨2, _⟩ => rfl)
  have hcc : t.val / 128 < 2 := by omega
  have ee : ((cfg0.win 4).blk t).view.emb (ix3 (0 : Fin 1) dd j) = ix3 (⟨t.val / 128, hcc⟩ : Fin 2) dd j := funext fun a => Fin.ext (by
    match a with
    | ⟨0, _⟩ => show win0_4.index t 0 * 1 + 1 * 0 = t.val / 128; rw [hi.1]; omega
    | ⟨1, _⟩ => show win0_4.index t 1 * 8 + 1 * dd.val = dd.val; rw [hi.2.1]; omega
    | ⟨2, _⟩ => show win0_4.index t 2 * 256 + 1 * j.val = j.val; rw [hi.2.2]; omega)
  rw [ex, ee, acc4_eq m c dd j t.val t.isLt, h127]
  show ∑ i ∈ Finset.range 128, add4 m c dd j (t.val - 127 + i) = Cert.Spec.Part (DMk m c) (fun r j => Xk m c r j * Xk m c r j) ⟨t.val / 128, hcc⟩ dd.val j
  rw [← sum_add4 m c ⟨t.val / 128, hcc⟩ dd j]
  have e : t.val - 127 = t.val / 128 * 128 := by omega
  rw [e]

/-- So the domain array ends holding every core's partial sums. -/
theorem final4 (c : Dev nD) : (dats (F := Ideal) m 0 c).arrAt 4 cfg0.N = G4 m c :=
  (dats (F := Ideal) m 0 c).arrAt_eq_of_cover 4 (G4 m c) (flushed4_eq m c) fun i => by
    have h0 : (i 0 : Nat) < 2 := (i 0).isLt
    have h1 : (i 1 : Nat) < 8 := (i 1).isLt
    have h2 : (i 2 : Nat) < 256 := (i 2).isLt
    have hlt : (i 0 : Nat) * 128 + 127 < cfg0.N := by rw [N256]; omega
    refine ⟨⟨(i 0 : Nat) * 128 + 127, hlt⟩, (flush0_4 _).mpr (by show ((i 0 : Nat) * 128 + 127) % 128 = 127; omega), ?_⟩
    have hi := idx0_4 ⟨(i 0 : Nat) * 128 + 127, hlt⟩
    show i ∈ ((View.whole main_v5_1).slice (win0_4.rect ⟨(i 0 : Nat) * 128 + 127, hlt⟩)).set
    rw [View.set_slice_whole, Rect.mem_set_unit]
    intro a
    match a with
    | ⟨0, _⟩ =>
      show win0_4.index ⟨(i 0 : Nat) * 128 + 127, hlt⟩ 0 * 1 ≤ (i 0 : Nat) ∧ (i 0 : Nat) < win0_4.index ⟨(i 0 : Nat) * 128 + 127, hlt⟩ 0 * 1 + 1
      rw [hi.1]; show ((i 0 : Nat) * 128 + 127) / 128 * 1 ≤ (i 0 : Nat) ∧ (i 0 : Nat) < ((i 0 : Nat) * 128 + 127) / 128 * 1 + 1; omega
    | ⟨1, _⟩ =>
      show win0_4.index ⟨(i 0 : Nat) * 128 + 127, hlt⟩ 1 * 8 ≤ (i 1 : Nat) ∧ (i 1 : Nat) < win0_4.index ⟨(i 0 : Nat) * 128 + 127, hlt⟩ 1 * 8 + 8
      rw [hi.2.1]; omega
    | ⟨2, _⟩ =>
      show win0_4.index ⟨(i 0 : Nat) * 128 + 127, hlt⟩ 2 * 256 ≤ (i 2 : Nat) ∧ (i 2 : Nat) < win0_4.index ⟨(i 0 : Nat) * 128 + 127, hlt⟩ 2 * 256 + 256
      rw [hi.2.2]; omega

end Arr4

/-! ## The statements -/

section Statements

variable (m : (ℓ : Loc nD τ sig) → Buf (Elt Ideal) ℓ)

/-- Core cc's block of the segment partial sums after the region. -/
theorem arrAt3 (c : Dev nD) (cc : Fin 2) (s : Fin 768) (j : Fin 256) :
    ((dats (F := Ideal) m 0 c).arrAt 3 cfg0.N : S2x768x256.Idx → EReal) (ix3 cc s j)
      = Cert.Spec.Part (SGk m c) (Xk m c) cc s.val j :=
  congrFun (final3 m c) (ix3 cc s j)

/-- Core cc's block of the domain partial sums of squares after the region. -/
theorem arrAt4 (c : Dev nD) (cc : Fin 2) (dd : Fin 8) (j : Fin 256) :
    ((dats (F := Ideal) m 0 c).arrAt 4 cfg0.N : S2x8x256.Idx → EReal) (ix3 cc dd j)
      = Cert.Spec.Part (DMk m c) (fun r j => Xk m c r j * Xk m c r j) cc dd.val j :=
  congrFun (final4 m c) (ix3 cc dd j)

/-- The segment-id column the region reads: row r holds d r · 128 + y r. -/
theorem V_seg (c : Dev nD) (r : Fin 524288) :
    SGk m c r
      = Cert.Spec.segw (fun r => (m ((c : Thread nD τ).loc main_arg4) : S524288.Idx → BitVec 32) (ix1 r))
          (fun r => (m ((c : Thread nD τ).loc main_arg5) : S524288.Idx → BitVec 32) (ix1 r)) r :=
  V_seg_col m c r

/-- The domain-id column the region reads: row r holds d r. -/
theorem V_dom (c : Dev nD) (r : Fin 524288) :
    DMk m c r
      = (m ((c : Thread nD τ).loc main_arg5) : S524288.Idx → BitVec 32) (ix1 r) :=
  V_dom_col m c r

end Statements

end Cert.KernelIdeal.Fr

end
-- ==== Proof.TailFn.lean ====
/- (a table, no argument: one definition per host line after the region, in program order, copied from the operation lists).
   The host lines after the region as value functions. Family kv: every buffer those lines write, as a function of what the
   region leaves (the two partial-sum arrays p3, p4), the segment-id column sg and the arguments x1, x2, x3. Families fa, fm, fv, fl:
   the same lines again, but from the values at which the reference's program and this one meet: the segment sums, the clamped and
   the positive per-segment counts, the domain sums, squares, clamped counts and their test, the feature means of the data and of
   its squares, and the three updated arrays. -/
import proofs.«413714_j12455405158619_3_alg».proof.Proof.Gen.KernelIdeal

noncomputable section

namespace Cert.KernelIdeal.TailFn

open Cert.KernelIdeal Cert.KernelIdeal.Gen Idealize.ShloMosaic

variable {F : FTy → Type} [FloatOps F]

/-! ## From what the region leaves -/

def kv_main_cst : (⟨S_, .f32⟩ : BufTy).Contents (Elt F) :=
  (constant S_ .f32 0x00000000#32)

def kv_main_v6 (p3 : (⟨S2x768x256, .f32⟩ : BufTy).Contents (Elt F)) : (⟨S768x256, .f32⟩ : BufTy).Contents (Elt F) :=
  ((fun x v => Host.reduceAdd x v reducesTo_S2x768x256_S768x256_d0 h_S_) : (⟨S2x768x256, .f32⟩ : BufTy).Contents (Elt F) → (⟨S_, .f32⟩ : BufTy).Contents (Elt F) → (⟨S768x256, .f32⟩ : BufTy).Contents (Elt F)) p3 (kv_main_cst (F := F))

def kv_main_cst_0 : (⟨S_, .f32⟩ : BufTy).Contents (Elt F) :=
  (constant S_ .f32 0x00000000#32)

def kv_main_v7 (p4 : (⟨S2x8x256, .f32⟩ : BufTy).Contents (Elt F)) : (⟨S8x256, .f32⟩ : BufTy).Contents (Elt F) :=
  ((fun x v => Host.reduceAdd x v reducesTo_S2x8x256_S8x256_d0 h_S_) : (⟨S2x8x256, .f32⟩ : BufTy).Contents (Elt F) → (⟨S_, .f32⟩ : BufTy).Contents (Elt F) → (⟨S8x256, .f32⟩ : BufTy).Contents (Elt F)) p4 (kv_main_cst_0 (F := F))

def kv_main_v8 (p4 : (⟨S2x8x256, .f32⟩ : BufTy).Contents (Elt F)) : (⟨S6x256, .f32⟩ : BufTy).Contents (Elt F) :=
  ((extractStridedSlice S6x256 ![0, 0] · slices_S8x256_S6x256_0_0) : (⟨S8x256, .f32⟩ : BufTy).Contents (Elt F) → (⟨S6x256, .f32⟩ : BufTy).Contents (Elt F)) (kv_main_v7 (F := F) p4)

def kv_main_cst_1 : (⟨S_, .f32⟩ : BufTy).Contents (Elt F) :=
  (constant S_ .f32 0x3F800000#32)

def kv_main_v9 : (⟨S524288, .f32⟩ : BufTy).Contents (Elt F) :=
  (broadcastInDim S524288 ![] bcast_S_S524288 : (⟨S_, .f32⟩ : BufTy).Contents (Elt F) → (⟨S524288, .f32⟩ : BufTy).Contents (Elt F)) (kv_main_cst_1 (F := F))

def kv_main_v10 (sg : (⟨S524288x1, .i32⟩ : BufTy).Contents (Elt F)) : (⟨S524288, .i32⟩ : BufTy).Contents (Elt F) :=
  shapeCast S524288 sg shapeCasts_S524288x1_S524288

def kv_main_cst_2 : (⟨S_, .f32⟩ : BufTy).Contents (Elt F) :=
  (constant S_ .f32 0x00000000#32)

def kv_main_v11 : (⟨S768, .f32⟩ : BufTy).Contents (Elt F) :=
  (broadcastInDim S768 ![] bcast_S_S768 : (⟨S_, .f32⟩ : BufTy).Contents (Elt F) → (⟨S768, .f32⟩ : BufTy).Contents (Elt F)) (kv_main_cst_2 (F := F))

def kv_main_v12 (sg : (⟨S524288x1, .i32⟩ : BufTy).Contents (Elt F)) : (⟨S524288x1, .i32⟩ : BufTy).Contents (Elt F) :=
  (broadcastInDim S524288x1 ![0] bcast_S524288_S524288x1_0 : (⟨S524288, .i32⟩ : BufTy).Contents (Elt F) → (⟨S524288x1, .i32⟩ : BufTy).Contents (Elt F)) (kv_main_v10 (F := F) sg)

def kv_main_v13 (sg : (⟨S524288x1, .i32⟩ : BufTy).Contents (Elt F)) : (⟨S768, .f32⟩ : BufTy).Contents (Elt F) :=
  ((fun x i u => Host.scatterAdd scatter_S768_S524288x1_S524288_n_0_0_1 x i u) : (⟨S768, .f32⟩ : BufTy).Contents (Elt F) → (⟨S524288x1, .i32⟩ : BufTy).Contents (Elt F) → (⟨S524288, .f32⟩ : BufTy).Contents (Elt F) → (⟨S768, .f32⟩ : BufTy).Contents (Elt F)) (kv_main_v11 (F := F)) (kv_main_v12 (F := F) sg) (kv_main_v9 (F := F))

def kv_main_v14 (sg : (⟨S524288x1, .i32⟩ : BufTy).Contents (Elt F)) : (⟨S768x1, .f32⟩ : BufTy).Contents (Elt F) :=
  shapeCast S768x1 (kv_main_v13 (F := F) sg) shapeCasts_S768_S768x1

def kv_main_cst_3 : (⟨S_, .f32⟩ : BufTy).Contents (Elt F) :=
  (constant S_ .f32 0x3F800000#32)

def kv_main_v15 : (⟨S768x1, .f32⟩ : BufTy).Contents (Elt F) :=
  (broadcastInDim S768x1 ![] bcast_S_S768x1 : (⟨S_, .f32⟩ : BufTy).Contents (Elt F) → (⟨S768x1, .f32⟩ : BufTy).Contents (Elt F)) (kv_main_cst_3 (F := F))

def kv_main_v16 (sg : (⟨S524288x1, .i32⟩ : BufTy).Contents (Elt F)) : (⟨S768x1, .f32⟩ : BufTy).Contents (Elt F) :=
  (maximumf : (⟨S768x1, .f32⟩ : BufTy).Contents (Elt F) → (⟨S768x1, .f32⟩ : BufTy).Contents (Elt F) → (⟨S768x1, .f32⟩ : BufTy).Contents (Elt F)) (kv_main_v14 (F := F) sg) (kv_main_v15 (F := F))

def kv_main_v17 (sg : (⟨S524288x1, .i32⟩ : BufTy).Contents (Elt F)) : (⟨S768x256, .f32⟩ : BufTy).Contents (Elt F) :=
  (broadcastInDim S768x256 ![0, 1] bcast_S768x1_S768x256_0_1 : (⟨S768x1, .f32⟩ : BufTy).Contents (Elt F) → (⟨S768x256, .f32⟩ : BufTy).Contents (Elt F)) (kv_main_v16 (F := F) sg)

def kv_main_v18 (p3 : (⟨S2x768x256, .f32⟩ : BufTy).Contents (Elt F)) (sg : (⟨S524288x1, .i32⟩ : BufTy).Contents (Elt F)) : (⟨S768x256, .f32⟩ : BufTy).Contents (Elt F) :=
  (Host.divf : (⟨S768x256, .f32⟩ : BufTy).Contents (Elt F) → (⟨S768x256, .f32⟩ : BufTy).Contents (Elt F) → (⟨S768x256, .f32⟩ : BufTy).Contents (Elt F)) (kv_main_v6 (F := F) p3) (kv_main_v17 (F := F) sg)

def kv_main_cst_4 : (⟨S_, .f32⟩ : BufTy).Contents (Elt F) :=
  (constant S_ .f32 0x00000000#32)

def kv_main_v19 : (⟨S768x1, .f32⟩ : BufTy).Contents (Elt F) :=
  (broadcastInDim S768x1 ![] bcast_S_S768x1 : (⟨S_, .f32⟩ : BufTy).Contents (Elt F) → (⟨S768x1, .f32⟩ : BufTy).Contents (Elt F)) (kv_main_cst_4 (F := F))

def kv_main_v20 (sg : (⟨S524288x1, .i32⟩ : BufTy).Contents (Elt F)) : (⟨S768x1, .i1⟩ : BufTy).Contents (Elt F) :=
  (cmpf .ogt : (⟨S768x1, .f32⟩ : BufTy).Contents (Elt F) → (⟨S768x1, .f32⟩ : BufTy).Contents (Elt F) → (⟨S768x1, .i1⟩ : BufTy).Contents (Elt F)) (kv_main_v14 (F := F) sg) (kv_main_v19 (F := F))

def kv_main_v21 (sg : (⟨S524288x1, .i32⟩ : BufTy).Contents (Elt F)) : (⟨S6x128x1, .i1⟩ : BufTy).Contents (Elt F) :=
  shapeCast S6x128x1 (kv_main_v20 (F := F) sg) shapeCasts_S768x1_S6x128x1

def kv_main_v22 (p3 : (⟨S2x768x256, .f32⟩ : BufTy).Contents (Elt F)) (sg : (⟨S524288x1, .i32⟩ : BufTy).Contents (Elt F)) : (⟨S6x128x256, .f32⟩ : BufTy).Contents (Elt F) :=
  shapeCast S6x128x256 (kv_main_v18 (F := F) p3 sg) shapeCasts_S768x256_S6x128x256

def kv_main_cst_5 : (⟨S_, .f32⟩ : BufTy).Contents (Elt F) :=
  (constant S_ .f32 0x3F666666#32)

def kv_main_v23 : (⟨S6x128x256, .f32⟩ : BufTy).Contents (Elt F) :=
  (broadcastInDim S6x128x256 ![] bcast_S_S6x128x256 : (⟨S_, .f32⟩ : BufTy).Contents (Elt F) → (⟨S6x128x256, .f32⟩ : BufTy).Contents (Elt F)) (kv_main_cst_5 (F := F))

def kv_main_v24 (x1 : (⟨S6x128x256, .f32⟩ : BufTy).Contents (Elt F)) : (⟨S6x128x256, .f32⟩ : BufTy).Contents (Elt F) :=
  (mulf : (⟨S6x128x256, .f32⟩ : BufTy).Contents (Elt F) → (⟨S6x128x256, .f32⟩ : BufTy).Contents (Elt F) → (⟨S6x128x256, .f32⟩ : BufTy).Contents (Elt F)) (kv_main_v23 (F := F)) x1

def kv_main_cst_6 : (⟨S_, .f32⟩ : BufTy).Contents (Elt F) :=
  (constant S_ .f32 0x3DCCCCCD#32)

def kv_main_v25 : (⟨S6x128x256, .f32⟩ : BufTy).Contents (Elt F) :=
  (broadcastInDim S6x128x256 ![] bcast_S_S6x128x256 : (⟨S_, .f32⟩ : BufTy).Contents (Elt F) → (⟨S6x128x256, .f32⟩ : BufTy).Contents (Elt F)) (kv_main_cst_6 (F := F))

def kv_main_v26 (p3 : (⟨S2x768x256, .f32⟩ : BufTy).Contents (Elt F)) (sg : (⟨S524288x1, .i32⟩ : BufTy).Contents (Elt F)) : (⟨S6x128x256, .f32⟩ : BufTy).Contents (Elt F) :=
  (mulf : (⟨S6x128x256, .f32⟩ : BufTy).Contents (Elt F) → (⟨S6x128x256, .f32⟩ : BufTy).Contents (Elt F) → (⟨S6x128x256, .f32⟩ : BufTy).Contents (Elt F)) (kv_main_v25 (F := F)) (kv_main_v22 (F := F) p3 sg)

def kv_main_v27 (p3 : (⟨S2x768x256, .f32⟩ : BufTy).Contents (Elt F)) (sg : (⟨S524288x1, .i32⟩ : BufTy).Contents (Elt F)) (x1 : (⟨S6x128x256, .f32⟩ : BufTy).Contents (Elt F)) : (⟨S6x128x256, .f32⟩ : BufTy).Contents (Elt F) :=
  (addf : (⟨S6x128x256, .f32⟩ : BufTy).Contents (Elt F) → (⟨S6x128x256, .f32⟩ : BufTy).Contents (Elt F) → (⟨S6x128x256, .f32⟩ : BufTy).Contents (Elt F)) (kv_main_v24 (F := F) x1) (kv_main_v26 (F := F) p3 sg)

def kv_main_call0_v0 (sg : (⟨S524288x1, .i32⟩ : BufTy).Contents (Elt F)) : (⟨S6x128x256, .i1⟩ : BufTy).Contents (Elt F) :=
  (broadcastInDim S6x128x256 ![0, 1, 2] bcast_S6x128x1_S6x128x256_0_1_2) (kv_main_v21 (F := F) sg)

def kv_main_v28 (p3 : (⟨S2x768x256, .f32⟩ : BufTy).Contents (Elt F)) (sg : (⟨S524288x1, .i32⟩ : BufTy).Contents (Elt F)) (x1 : (⟨S6x128x256, .f32⟩ : BufTy).Contents (Elt F)) : (⟨S6x128x256, .f32⟩ : BufTy).Contents (Elt F) :=
  select (kv_main_call0_v0 (F := F) sg) (kv_main_v27 (F := F) p3 sg x1) x1

def kv_main_v29 (p3 : (⟨S2x768x256, .f32⟩ : BufTy).Contents (Elt F)) : (⟨S6x128x256, .f32⟩ : BufTy).Contents (Elt F) :=
  shapeCast S6x128x256 (kv_main_v6 (F := F) p3) shapeCasts_S768x256_S6x128x256

def kv_main_cst_7 : (⟨S_, .f32⟩ : BufTy).Contents (Elt F) :=
  (constant S_ .f32 0x00000000#32)

def kv_main_v30 (p3 : (⟨S2x768x256, .f32⟩ : BufTy).Contents (Elt F)) : (⟨S6x256, .f32⟩ : BufTy).Contents (Elt F) :=
  ((fun x v => Host.reduceAdd x v reducesTo_S6x128x256_S6x256_d1 h_S_) : (⟨S6x128x256, .f32⟩ : BufTy).Contents (Elt F) → (⟨S_, .f32⟩ : BufTy).Contents (Elt F) → (⟨S6x256, .f32⟩ : BufTy).Contents (Elt F)) (kv_main_v29 (F := F) p3) (kv_main_cst_7 (F := F))

def kv_main_v31 (sg : (⟨S524288x1, .i32⟩ : BufTy).Contents (Elt F)) : (⟨S6x128, .f32⟩ : BufTy).Contents (Elt F) :=
  shapeCast S6x128 (kv_main_v13 (F := F) sg) shapeCasts_S768_S6x128

def kv_main_cst_8 : (⟨S_, .f32⟩ : BufTy).Contents (Elt F) :=
  (constant S_ .f32 0x00000000#32)

def kv_main_v32 (sg : (⟨S524288x1, .i32⟩ : BufTy).Contents (Elt F)) : (⟨S6, .f32⟩ : BufTy).Contents (Elt F) :=
  ((fun x v => Host.reduceAdd x v reducesTo_S6x128_S6_d1 h_S_) : (⟨S6x128, .f32⟩ : BufTy).Contents (Elt F) → (⟨S_, .f32⟩ : BufTy).Contents (Elt F) → (⟨S6, .f32⟩ : BufTy).Contents (Elt F)) (kv_main_v31 (F := F) sg) (kv_main_cst_8 (F := F))

def kv_main_v33 (sg : (⟨S524288x1, .i32⟩ : BufTy).Contents (Elt F)) : (⟨S6x1, .f32⟩ : BufTy).Contents (Elt F) :=
  shapeCast S6x1 (kv_main_v32 (F := F) sg) shapeCasts_S6_S6x1

def kv_main_cst_9 : (⟨S_, .f32⟩ : BufTy).Contents (Elt F) :=
  (constant S_ .f32 0x3F800000#32)

def kv_main_v34 : (⟨S6x1, .f32⟩ : BufTy).Contents (Elt F) :=
  (broadcastInDim S6x1 ![] bcast_S_S6x1 : (⟨S_, .f32⟩ : BufTy).Contents (Elt F) → (⟨S6x1, .f32⟩ : BufTy).Contents (Elt F)) (kv_main_cst_9 (F := F))

def kv_main_v35 (sg : (⟨S524288x1, .i32⟩ : BufTy).Contents (Elt F)) : (⟨S6x1, .f32⟩ : BufTy).Contents (Elt F) :=
  (maximumf : (⟨S6x1, .f32⟩ : BufTy).Contents (Elt F) → (⟨S6x1, .f32⟩ : BufTy).Contents (Elt F) → (⟨S6x1, .f32⟩ : BufTy).Contents (Elt F)) (kv_main_v33 (F := F) sg) (kv_main_v34 (F := F))

def kv_main_v36 (sg : (⟨S524288x1, .i32⟩ : BufTy).Contents (Elt F)) : (⟨S6x256, .f32⟩ : BufTy).Contents (Elt F) :=
  (broadcastInDim S6x256 ![0, 1] bcast_S6x1_S6x256_0_1 : (⟨S6x1, .f32⟩ : BufTy).Contents (Elt F) → (⟨S6x256, .f32⟩ : BufTy).Contents (Elt F)) (kv_main_v35 (F := F) sg)

def kv_main_v37 (p3 : (⟨S2x768x256, .f32⟩ : BufTy).Contents (Elt F)) (sg : (⟨S524288x1, .i32⟩ : BufTy).Contents (Elt F)) : (⟨S6x256, .f32⟩ : BufTy).Contents (Elt F) :=
  (Host.divf : (⟨S6x256, .f32⟩ : BufTy).Contents (Elt F) → (⟨S6x256, .f32⟩ : BufTy).Contents (Elt F) → (⟨S6x256, .f32⟩ : BufTy).Contents (Elt F)) (kv_main_v30 (F := F) p3) (kv_main_v36 (F := F) sg)

def kv_main_v38 (sg : (⟨S524288x1, .i32⟩ : BufTy).Contents (Elt F)) : (⟨S6x256, .f32⟩ : BufTy).Contents (Elt F) :=
  (broadcastInDim S6x256 ![0, 1] bcast_S6x1_S6x256_0_1 : (⟨S6x1, .f32⟩ : BufTy).Contents (Elt F) → (⟨S6x256, .f32⟩ : BufTy).Contents (Elt F)) (kv_main_v35 (F := F) sg)

def kv_main_v39 (p3 : (⟨S2x768x256, .f32⟩ : BufTy).Contents (Elt F)) (sg : (⟨S524288x1, .i32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v38 (F := F) sg) (kv_main_v37 (F := F) p3 sg)

def kv_main_v40 (p3 : (⟨S2x768x256, .f32⟩ : BufTy).Contents (Elt F)) (sg : (⟨S524288x1, .i32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v39 (F := F) p3 sg) (kv_main_v37 (F := F) p3 sg)

def kv_main_v41 (p3 : (⟨S2x768x256, .f32⟩ : BufTy).Contents (Elt F)) (p4 : (⟨S2x8x256, .f32⟩ : BufTy).Contents (Elt F)) (sg : (⟨S524288x1, .i32⟩ : BufTy).Contents (Elt F)) : (⟨S6x256, .f32⟩ : BufTy).Contents (Elt F) :=
  (subf : (⟨S6x256, .f32⟩ : BufTy).Contents (Elt F) → (⟨S6x256, .f32⟩ : BufTy).Contents (Elt F) → (⟨S6x256, .f32⟩ : BufTy).Contents (Elt F)) (kv_main_v8 (F := F) p4) (kv_main_v40 (F := F) p3 sg)

def kv_main_cst_10 : (⟨S_, .f32⟩ : BufTy).Contents (Elt F) :=
  (constant S_ .f32 0x3F800000#32)

def kv_main_v42 : (⟨S6x1, .f32⟩ : BufTy).Contents (Elt F) :=
  (broadcastInDim S6x1 ![] bcast_S_S6x1 : (⟨S_, .f32⟩ : BufTy).Contents (Elt F) → (⟨S6x1, .f32⟩ : BufTy).Contents (Elt F)) (kv_main_cst_10 (F := F))

def kv_main_v43 (sg : (⟨S524288x1, .i32⟩ : BufTy).Contents (Elt F)) : (⟨S6x1, .f32⟩ : BufTy).Contents (Elt F) :=
  (subf : (⟨S6x1, .f32⟩ : BufTy).Contents (Elt F) → (⟨S6x1, .f32⟩ : BufTy).Contents (Elt F) → (⟨S6x1, .f32⟩ : BufTy).Contents (Elt F)) (kv_main_v33 (F := F) sg) (kv_main_v42 (F := F))

def kv_main_cst_11 : (⟨S_, .f32⟩ : BufTy).Contents (Elt F) :=
  (constant S_ .f32 0x3F800000#32)

def kv_main_v44 : (⟨S6x1, .f32⟩ : BufTy).Contents (Elt F) :=
  (broadcastInDim S6x1 ![] bcast_S_S6x1 : (⟨S_, .f32⟩ : BufTy).Contents (Elt F) → (⟨S6x1, .f32⟩ : BufTy).Contents (Elt F)) (kv_main_cst_11 (F := F))

def kv_main_v45 (sg : (⟨S524288x1, .i32⟩ : BufTy).Contents (Elt F)) : (⟨S6x1, .f32⟩ : BufTy).Contents (Elt F) :=
  (maximumf : (⟨S6x1, .f32⟩ : BufTy).Contents (Elt F) → (⟨S6x1, .f32⟩ : BufTy).Contents (Elt F) → (⟨S6x1, .f32⟩ : BufTy).Contents (Elt F)) (kv_main_v43 (F := F) sg) (kv_main_v44 (F := F))

def kv_main_v46 (sg : (⟨S524288x1, .i32⟩ : BufTy).Contents (Elt F)) : (⟨S6x256, .f32⟩ : BufTy).Contents (Elt F) :=
  (broadcastInDim S6x256 ![0, 1] bcast_S6x1_S6x256_0_1 : (⟨S6x1, .f32⟩ : BufTy).Contents (Elt F) → (⟨S6x256, .f32⟩ : BufTy).Contents (Elt F)) (kv_main_v45 (F := F) sg)

def kv_main_v47 (p3 : (⟨S2x768x256, .f32⟩ : BufTy).Contents (Elt F)) (p4 : (⟨S2x8x256, .f32⟩ : BufTy).Contents (Elt F)) (sg : (⟨S524288x1, .i32⟩ : BufTy).Contents (Elt F)) : (⟨S6x256, .f32⟩ : BufTy).Contents (Elt F) :=
  (Host.divf : (⟨S6x256, .f32⟩ : BufTy).Contents (Elt F) → (⟨S6x256, .f32⟩ : BufTy).Contents (Elt F) → (⟨S6x256, .f32⟩ : BufTy).Contents (Elt F)) (kv_main_v41 (F := F) p3 p4 sg) (kv_main_v46 (F := F) sg)

def kv_main_cst_12 : (⟨S_, .f32⟩ : BufTy).Contents (Elt F) :=
  (constant S_ .f32 0x3F800000#32)

def kv_main_v48 : (⟨S6x1, .f32⟩ : BufTy).Contents (Elt F) :=
  (broadcastInDim S6x1 ![] bcast_S_S6x1 : (⟨S_, .f32⟩ : BufTy).Contents (Elt F) → (⟨S6x1, .f32⟩ : BufTy).Contents (Elt F)) (kv_main_cst_12 (F := F))

def kv_main_v49 (sg : (⟨S524288x1, .i32⟩ : BufTy).Contents (Elt F)) : (⟨S6x1, .i1⟩ : BufTy).Contents (Elt F) :=
  (cmpf .ogt : (⟨S6x1, .f32⟩ : BufTy).Contents (Elt F) → (⟨S6x1, .f32⟩ : BufTy).Contents (Elt F) → (⟨S6x1, .i1⟩ : BufTy).Contents (Elt F)) (kv_main_v33 (F := F) sg) (kv_main_v48 (F := F))

def kv_main_cst_13 : (⟨S_, .f32⟩ : BufTy).Contents (Elt F) :=
  (constant S_ .f32 0x3F666666#32)

def kv_main_v50 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (kv_main_cst_13 (F := F))

def kv_main_v51 (x2 : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v50 (F := F)) x2

def kv_main_cst_14 : (⟨S_, .f32⟩ : BufTy).Contents (Elt F) :=
  (constant S_ .f32 0x3DCCCCCD#32)

def kv_main_v52 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (kv_main_cst_14 (F := F))

def kv_main_v53 (p3 : (⟨S2x768x256, .f32⟩ : BufTy).Contents (Elt F)) (sg : (⟨S524288x1, .i32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v52 (F := F)) (kv_main_v37 (F := F) p3 sg)

def kv_main_v54 (p3 : (⟨S2x768x256, .f32⟩ : BufTy).Contents (Elt F)) (sg : (⟨S524288x1, .i32⟩ : BufTy).Contents (Elt F)) (x2 : (⟨S6x256, .f32⟩ : BufTy).Contents (Elt F)) : (⟨S6x256, .f32⟩ : BufTy).Contents (Elt F) :=
  (addf : (⟨S6x256, .f32⟩ : BufTy).Contents (Elt F) → (⟨S6x256, .f32⟩ : BufTy).Contents (Elt F) → (⟨S6x256, .f32⟩ : BufTy).Contents (Elt F)) (kv_main_v51 (F := F) x2) (kv_main_v53 (F := F) p3 sg)

def kv_main_call1_v0 (sg : (⟨S524288x1, .i32⟩ : BufTy).Contents (Elt F)) : (⟨S6x256, .i1⟩ : BufTy).Contents (Elt F) :=
  (broadcastInDim S6x256 ![0, 1] bcast_S6x1_S6x256_0_1) (kv_main_v49 (F := F) sg)

def kv_main_v55 (p3 : (⟨S2x768x256, .f32⟩ : BufTy).Contents (Elt F)) (sg : (⟨S524288x1, .i32⟩ : BufTy).Contents (Elt F)) (x2 : (⟨S6x256, .f32⟩ : BufTy).Contents (Elt F)) : (⟨S6x256, .f32⟩ : BufTy).Contents (Elt F) :=
  select (kv_main_call1_v0 (F := F) sg) (kv_main_v54 (F := F) p3 sg x2) x2

def kv_main_cst_15 : (⟨S_, .f32⟩ : BufTy).Contents (Elt F) :=
  (constant S_ .f32 0x3F666666#32)

def kv_main_v56 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (kv_main_cst_15 (F := F))

def kv_main_v57 (x3 : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v56 (F := F)) x3

def kv_main_cst_16 : (⟨S_, .f32⟩ : BufTy).Contents (Elt F) :=
  (constant S_ .f32 0x3DCCCCCD#32)

def kv_main_v58 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (kv_main_cst_16 (F := F))

def kv_main_v59 (p3 : (⟨S2x768x256, .f32⟩ : BufTy).Contents (Elt F)) (p4 : (⟨S2x8x256, .f32⟩ : BufTy).Contents (Elt F)) (sg : (⟨S524288x1, .i32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v58 (F := F)) (kv_main_v47 (F := F) p3 p4 sg)

def kv_main_v60 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S6x256, .f32⟩ : BufTy).Contents (Elt F) :=
  (addf : (⟨S6x256, .f32⟩ : BufTy).Contents (Elt F) → (⟨S6x256, .f32⟩ : BufTy).Contents (Elt F) → (⟨S6x256, .f32⟩ : BufTy).Contents (Elt F)) (kv_main_v57 (F := F) x3) (kv_main_v59 (F := F) p3 p4 sg)

def kv_main_call2_v0 (sg : (⟨S524288x1, .i32⟩ : BufTy).Contents (Elt F)) : (⟨S6x256, .i1⟩ : BufTy).Contents (Elt F) :=
  (broadcastInDim S6x256 ![0, 1] bcast_S6x1_S6x256_0_1) (kv_main_v49 (F := F) sg)

def kv_main_v61 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S6x256, .f32⟩ : BufTy).Contents (Elt F) :=
  select (kv_main_call2_v0 (F := F) sg) (kv_main_v60 (F := F) p3 p4 sg x3) x3

def kv_main_cst_17 : (⟨S_, .f32⟩ : BufTy).Contents (Elt F) :=
  (constant S_ .f32 0x00000000#32)

def kv_main_v62 (p3 : (⟨S2x768x256, .f32⟩ : BufTy).Contents (Elt F)) (sg : (⟨S524288x1, .i32⟩ : BufTy).Contents (Elt F)) (x1 : (⟨S6x128x256, .f32⟩ : BufTy).Contents (Elt F)) : (⟨S128x256, .f32⟩ : BufTy).Contents (Elt F) :=
  ((fun x v => Host.reduceAdd x v reducesTo_S6x128x256_S128x256_d0 h_S_) : (⟨S6x128x256, .f32⟩ : BufTy).Contents (Elt F) → (⟨S_, .f32⟩ : BufTy).Contents (Elt F) → (⟨S128x256, .f32⟩ : BufTy).Contents (Elt F)) (kv_main_v28 (F := F) p3 sg x1) (kv_main_cst_17 (F := F))

def kv_main_v63 (p3 : (⟨S2x768x256, .f32⟩ : BufTy).Contents (Elt F)) (sg : (⟨S524288x1, .i32⟩ : BufTy).Contents (Elt F)) (x1 : (⟨S6x128x256, .f32⟩ : BufTy).Contents (Elt F)) : (⟨S1x128x256, .f32⟩ : BufTy).Contents (Elt F) :=
  (broadcastInDim S1x128x256 ![1, 2] bcast_S128x256_S1x128x256_1_2 : (⟨S128x256, .f32⟩ : BufTy).Contents (Elt F) → (⟨S1x128x256, .f32⟩ : BufTy).Contents (Elt F)) (kv_main_v62 (F := F) p3 sg x1)

def kv_main_cst_18 : (⟨S_, .f32⟩ : BufTy).Contents (Elt F) :=
  (constant S_ .f32 0x40C00000#32)

def kv_main_v64 : (⟨S1x128x256, .f32⟩ : BufTy).Contents (Elt F) :=
  (broadcastInDim S1x128x256 ![] bcast_S_S1x128x256 : (⟨S_, .f32⟩ : BufTy).Contents (Elt F) → (⟨S1x128x256, .f32⟩ : BufTy).Contents (Elt F)) (kv_main_cst_18 (F := F))

def kv_main_v65 (p3 : (⟨S2x768x256, .f32⟩ : BufTy).Contents (Elt F)) (sg : (⟨S524288x1, .i32⟩ : BufTy).Contents (Elt F)) (x1 : (⟨S6x128x256, .f32⟩ : BufTy).Contents (Elt F)) : (⟨S1x128x256, .f32⟩ : BufTy).Contents (Elt F) :=
  (Host.divf : (⟨S1x128x256, .f32⟩ : BufTy).Contents (Elt F) → (⟨S1x128x256, .f32⟩ : BufTy).Contents (Elt F) → (⟨S1x128x256, .f32⟩ : BufTy).Contents (Elt F)) (kv_main_v63 (F := F) p3 sg x1) (kv_main_v64 (F := F))

def kv_main_v66 (p3 : (⟨S2x768x256, .f32⟩ : BufTy).Contents (Elt F)) (sg : (⟨S524288x1, .i32⟩ : BufTy).Contents (Elt F)) (x1 : (⟨S6x128x256, .f32⟩ : BufTy).Contents (Elt F)) : (⟨S6x128x256, .f32⟩ : BufTy).Contents (Elt F) :=
  (broadcastInDim S6x128x256 ![0, 1, 2] bcast_S1x128x256_S6x128x256_0_1_2 : (⟨S1x128x256, .f32⟩ : BufTy).Contents (Elt F) → (⟨S6x128x256, .f32⟩ : BufTy).Contents (Elt F)) (kv_main_v65 (F := F) p3 sg x1)

def kv_main_v67 (p3 : (⟨S2x768x256, .f32⟩ : BufTy).Contents (Elt F)) (sg : (⟨S524288x1, .i32⟩ : BufTy).Contents (Elt F)) (x1 : (⟨S6x128x256, .f32⟩ : BufTy).Contents (Elt F)) : (⟨S6x128x256, .f32⟩ : BufTy).Contents (Elt F) :=
  (subf : (⟨S6x128x256, .f32⟩ : BufTy).Contents (Elt F) → (⟨S6x128x256, .f32⟩ : BufTy).Contents (Elt F) → (⟨S6x128x256, .f32⟩ : BufTy).Contents (Elt F)) (kv_main_v28 (F := F) p3 sg x1) (kv_main_v66 (F := F) p3 sg x1)

def kv_main_v68 (p3 : (⟨S2x768x256, .f32⟩ : BufTy).Contents (Elt F)) (sg : (⟨S524288x1, .i32⟩ : BufTy).Contents (Elt F)) (x1 : (⟨S6x128x256, .f32⟩ : BufTy).Contents (Elt F)) : (⟨S6x128x256, .f32⟩ : BufTy).Contents (Elt F) :=
  (mulf : (⟨S6x128x256, .f32⟩ : BufTy).Contents (Elt F) → (⟨S6x128x256, .f32⟩ : BufTy).Contents (Elt F) → (⟨S6x128x256, .f32⟩ : BufTy).Contents (Elt F)) (kv_main_v67 (F := F) p3 sg x1) (kv_main_v67 (F := F) p3 sg x1)

def kv_main_cst_19 : (⟨S_, .f32⟩ : BufTy).Contents (Elt F) :=
  (constant S_ .f32 0x00000000#32)

def kv_main_v69 (p3 : (⟨S2x768x256, .f32⟩ : BufTy).Contents (Elt F)) (sg : (⟨S524288x1, .i32⟩ : BufTy).Contents (Elt F)) (x1 : (⟨S6x128x256, .f32⟩ : BufTy).Contents (Elt F)) : (⟨S_, .f32⟩ : BufTy).Contents (Elt F) :=
  ((fun x v => Host.reduceAdd x v reducesTo_S6x128x256_S_d0_1_2 h_S_) : (⟨S6x128x256, .f32⟩ : BufTy).Contents (Elt F) → (⟨S_, .f32⟩ : BufTy).Contents (Elt F) → (⟨S_, .f32⟩ : BufTy).Contents (Elt F)) (kv_main_v68 (F := F) p3 sg x1) (kv_main_cst_19 (F := F))

def kv_main_cst_20 : (⟨S_, .f32⟩ : BufTy).Contents (Elt F) :=
  (constant S_ .f32 0x48400000#32)

def kv_main_v70 (p3 : (⟨S2x768x256, .f32⟩ : BufTy).Contents (Elt F)) (sg : (⟨S524288x1, .i32⟩ : BufTy).Contents (Elt F)) (x1 : (⟨S6x128x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kv_main_v69 (F := F) p3 sg x1) (kv_main_cst_20 (F := F))

def kv_main_cst_21 : (⟨S_, .f32⟩ : BufTy).Contents (Elt F) :=
  (constant S_ .f32 0x00000000#32)

def kv_main_v71 (p3 : (⟨S2x768x256, .f32⟩ : BufTy).Contents (Elt F)) (sg : (⟨S524288x1, .i32⟩ : BufTy).Contents (Elt F)) (x1 : (⟨S6x128x256, .f32⟩ : BufTy).Contents (Elt F)) : (⟨S128x256, .f32⟩ : BufTy).Contents (Elt F) :=
  ((fun x v => Host.reduceAdd x v reducesTo_S6x128x256_S128x256_d0 h_S_) : (⟨S6x128x256, .f32⟩ : BufTy).Contents (Elt F) → (⟨S_, .f32⟩ : BufTy).Contents (Elt F) → (⟨S128x256, .f32⟩ : BufTy).Contents (Elt F)) (kv_main_v28 (F := F) p3 sg x1) (kv_main_cst_21 (F := F))

def kv_main_cst_22 : (⟨S_, .f32⟩ : BufTy).Contents (Elt F) :=
  (constant S_ .f32 0x40C00000#32)

def kv_main_v72 : (⟨S128x256, .f32⟩ : BufTy).Contents (Elt F) :=
  (broadcastInDim S128x256 ![] bcast_S_S128x256 : (⟨S_, .f32⟩ : BufTy).Contents (Elt F) → (⟨S128x256, .f32⟩ : BufTy).Contents (Elt F)) (kv_main_cst_22 (F := F))

def kv_main_v73 (p3 : (⟨S2x768x256, .f32⟩ : BufTy).Contents (Elt F)) (sg : (⟨S524288x1, .i32⟩ : BufTy).Contents (Elt F)) (x1 : (⟨S6x128x256, .f32⟩ : BufTy).Contents (Elt F)) : (⟨S128x256, .f32⟩ : BufTy).Contents (Elt F) :=
  (Host.divf : (⟨S128x256, .f32⟩ : BufTy).Contents (Elt F) → (⟨S128x256, .f32⟩ : BufTy).Contents (Elt F) → (⟨S128x256, .f32⟩ : BufTy).Contents (Elt F)) (kv_main_v71 (F := F) p3 sg x1) (kv_main_v72 (F := F))

def kv_main_v74 (p3 : (⟨S2x768x256, .f32⟩ : BufTy).Contents (Elt F)) (sg : (⟨S524288x1, .i32⟩ : BufTy).Contents (Elt F)) (x1 : (⟨S6x128x256, .f32⟩ : BufTy).Contents (Elt F)) : (⟨S128x256, .f32⟩ : BufTy).Contents (Elt F) :=
  (mulf : (⟨S128x256, .f32⟩ : BufTy).Contents (Elt F) → (⟨S128x256, .f32⟩ : BufTy).Contents (Elt F) → (⟨S128x256, .f32⟩ : BufTy).Contents (Elt F)) (kv_main_v73 (F := F) p3 sg x1) (kv_main_v73 (F := F) p3 sg x1)

def kv_main_cst_23 : (⟨S_, .f32⟩ : BufTy).Contents (Elt F) :=
  (constant S_ .f32 0x00000000#32)

def kv_main_v75 (p3 : (⟨S2x768x256, .f32⟩ : BufTy).Contents (Elt F)) (sg : (⟨S524288x1, .i32⟩ : BufTy).Contents (Elt F)) (x1 : (⟨S6x128x256, .f32⟩ : BufTy).Contents (Elt F)) : (⟨S128, .f32⟩ : BufTy).Contents (Elt F) :=
  ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)) (kv_main_v74 (F := F) p3 sg x1) (kv_main_cst_23 (F := F))

def kv_main_v76 (p3 : (⟨S2x768x256, .f32⟩ : BufTy).Contents (Elt F)) (sg : (⟨S524288x1, .i32⟩ : BufTy).Contents (Elt F)) (x1 : (⟨S6x128x256, .f32⟩ : BufTy).Contents (Elt F)) : (⟨S128x1, .f32⟩ : BufTy).Contents (Elt F) :=
  (broadcastInDim S128x1 ![0] bcast_S128_S128x1_0 : (⟨S128, .f32⟩ : BufTy).Contents (Elt F) → (⟨S128x1, .f32⟩ : BufTy).Contents (Elt F)) (kv_main_v75 (F := F) p3 sg x1)

def kv_main_v77 (p3 : (⟨S2x768x256, .f32⟩ : BufTy).Contents (Elt F)) (sg : (⟨S524288x1, .i32⟩ : BufTy).Contents (Elt F)) (x1 : (⟨S6x128x256, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) (kv_main_v75 (F := F) p3 sg x1)

def kv_main_v78 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (broadcastInDim S128x128 ![0, 1] bcast_S128x1_S128x128_0_1 : (⟨S128x1, .f32⟩ : BufTy).Contents (Elt F) → (⟨S128x128, .f32⟩ : BufTy).Contents (Elt F)) (kv_main_v76 (F := F) p3 sg x1)

def kv_main_v79 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (broadcastInDim S128x128 ![0, 1] bcast_S1x128_S128x128_0_1 : (⟨S1x128, .f32⟩ : BufTy).Contents (Elt F) → (⟨S128x128, .f32⟩ : BufTy).Contents (Elt F)) (kv_main_v77 (F := F) p3 sg x1)

def kv_main_v80 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (addf : (⟨S128x128, .f32⟩ : BufTy).Contents (Elt F) → (⟨S128x128, .f32⟩ : BufTy).Contents (Elt F) → (⟨S128x128, .f32⟩ : BufTy).Contents (Elt F)) (kv_main_v78 (F := F) p3 sg x1) (kv_main_v79 (F := F) p3 sg x1)

def kv_main_v81 (p3 : (⟨S2x768x256, .f32⟩ : BufTy).Contents (Elt F)) (sg : (⟨S524288x1, .i32⟩ : BufTy).Contents (Elt F)) (x1 : (⟨S6x128x256, .f32⟩ : BufTy).Contents (Elt F)) : (⟨S256x128, .f32⟩ : BufTy).Contents (Elt F) :=
  ((transpose S256x128 [1, 0] · transposes_S128x256_S256x128_1_0) : (⟨S128x256, .f32⟩ : BufTy).Contents (Elt F) → (⟨S256x128, .f32⟩ : BufTy).Contents (Elt F)) (kv_main_v73 (F := F) p3 sg x1)

def kv_main_v82 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)) (kv_main_v73 (F := F) p3 sg x1) (kv_main_v81 (F := F) p3 sg x1)

def kv_main_cst_24 : (⟨S_, .f32⟩ : BufTy).Contents (Elt F) :=
  (constant S_ .f32 0x40000000#32)

def kv_main_v83 : (⟨S128x128, .f32⟩ : BufTy).Contents (Elt F) :=
  (broadcastInDim S128x128 ![] bcast_S_S128x128 : (⟨S_, .f32⟩ : BufTy).Contents (Elt F) → (⟨S128x128, .f32⟩ : BufTy).Contents (Elt F)) (kv_main_cst_24 (F := F))

def kv_main_v84 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (mulf : (⟨S128x128, .f32⟩ : BufTy).Contents (Elt F) → (⟨S128x128, .f32⟩ : BufTy).Contents (Elt F) → (⟨S128x128, .f32⟩ : BufTy).Contents (Elt F)) (kv_main_v83 (F := F)) (kv_main_v82 (F := F) p3 sg x1)

def kv_main_v85 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (subf : (⟨S128x128, .f32⟩ : BufTy).Contents (Elt F) → (⟨S128x128, .f32⟩ : BufTy).Contents (Elt F) → (⟨S128x128, .f32⟩ : BufTy).Contents (Elt F)) (kv_main_v80 (F := F) p3 sg x1) (kv_main_v84 (F := F) p3 sg x1)

def kv_main_v86 : (⟨S128x128, .i32⟩ : BufTy).Contents (Elt F) :=
  (iotaInDim S128x128 32 0)

def kv_main_v87 : (⟨S128x128, .i32⟩ : BufTy).Contents (Elt F) :=
  (iotaInDim S128x128 32 1)

def kv_main_c_25 : (⟨S_, .i32⟩ : BufTy).Contents (Elt F) :=
  (constantI S_ 32 0#32)

def kv_main_v88 : (⟨S128x128, .i32⟩ : BufTy).Contents (Elt F) :=
  (broadcastInDim S128x128 ![] bcast_S_S128x128 : (⟨S_, .i32⟩ : BufTy).Contents (Elt F) → (⟨S128x128, .i32⟩ : BufTy).Contents (Elt F)) (kv_main_c_25 (F := F))

def kv_main_v89 : (⟨S128x128, .i32⟩ : BufTy).Contents (Elt F) :=
  (addi : (⟨S128x128, .i32⟩ : BufTy).Contents (Elt F) → (⟨S128x128, .i32⟩ : BufTy).Contents (Elt F) → (⟨S128x128, .i32⟩ : BufTy).Contents (Elt F)) (kv_main_v86 (F := F)) (kv_main_v88 (F := F))

def kv_main_v90 : (⟨S128x128, .i1⟩ : BufTy).Contents (Elt F) :=
  (cmpi .eq : (⟨S128x128, .i32⟩ : BufTy).Contents (Elt F) → (⟨S128x128, .i32⟩ : BufTy).Contents (Elt F) → (⟨S128x128, .i1⟩ : BufTy).Contents (Elt F)) (kv_main_v89 (F := F)) (kv_main_v87 (F := F))

def kv_main_v91 : (⟨S128x128, .i1⟩ : BufTy).Contents (Elt F) :=
  (noti : (⟨S128x128, .i1⟩ : BufTy).Contents (Elt F) → (⟨S128x128, .i1⟩ : BufTy).Contents (Elt F)) (kv_main_v90 (F := F))

def kv_main_cst_26 : (⟨S_, .f32⟩ : BufTy).Contents (Elt F) :=
  (constant S_ .f32 0x2B8CBCCC#32)

def kv_main_v92 : (⟨S128x128, .f32⟩ : BufTy).Contents (Elt F) :=
  (broadcastInDim S128x128 ![] bcast_S_S128x128 : (⟨S_, .f32⟩ : BufTy).Contents (Elt F) → (⟨S128x128, .f32⟩ : BufTy).Contents (Elt F)) (kv_main_cst_26 (F := F))

def kv_main_v93 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (maximumf : (⟨S128x128, .f32⟩ : BufTy).Contents (Elt F) → (⟨S128x128, .f32⟩ : BufTy).Contents (Elt F) → (⟨S128x128, .f32⟩ : BufTy).Contents (Elt F)) (kv_main_v85 (F := F) p3 sg x1) (kv_main_v92 (F := F))

def kv_main_cst_27 : (⟨S_, .f32⟩ : BufTy).Contents (Elt F) :=
  (constant S_ .f32 0x3F800000#32)

def kv_main_call3_v0 : (⟨S_, .f32⟩ : BufTy).Contents (Elt F) :=
  id (kv_main_cst_27 (F := F))

def kv_main_call3_v1 : (⟨S128x128, .f32⟩ : BufTy).Contents (Elt F) :=
  (broadcastInDim S128x128 ![] bcast_S_S128x128) (kv_main_call3_v0 (F := F))

def kv_main_v94 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  select (kv_main_v91 (F := F)) (kv_main_v93 (F := F) p3 sg x1) (kv_main_call3_v1 (F := F))

def kv_main_v95 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (Host.sqrt : (⟨S128x128, .f32⟩ : BufTy).Contents (Elt F) → (⟨S128x128, .f32⟩ : BufTy).Contents (Elt F)) (kv_main_v94 (F := F) p3 sg x1)

def kv_main_cst_28 : (⟨S_, .f32⟩ : BufTy).Contents (Elt F) :=
  (constant S_ .f32 0x3F800000#32)

def kv_main_v96 : (⟨S128x128, .f32⟩ : BufTy).Contents (Elt F) :=
  (broadcastInDim S128x128 ![] bcast_S_S128x128 : (⟨S_, .f32⟩ : BufTy).Contents (Elt F) → (⟨S128x128, .f32⟩ : BufTy).Contents (Elt F)) (kv_main_cst_28 (F := F))

def kv_main_v97 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  (subf : (⟨S128x128, .f32⟩ : BufTy).Contents (Elt F) → (⟨S128x128, .f32⟩ : BufTy).Contents (Elt F) → (⟨S128x128, .f32⟩ : BufTy).Contents (Elt F)) (kv_main_v96 (F := F)) (kv_main_v95 (F := F) p3 sg x1)

def kv_main_call4_cst : (⟨S_, .f32⟩ : BufTy).Contents (Elt F) :=
  (constant S_ .f32 0x00000000#32)

def kv_main_call4_v0 : (⟨S128x128, .f32⟩ : BufTy).Contents (Elt F) :=
  (broadcastInDim S128x128 ![] bcast_S_S128x128) (kv_main_call4_cst (F := F))

def kv_main_v98 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  maximumf (kv_main_v97 (F := F) p3 sg x1) (kv_main_call4_v0 (F := F))

def kv_main_cst_29 : (⟨S_, .f32⟩ : BufTy).Contents (Elt F) :=
  (constant S_ .f32 0x00000000#32)

def kv_main_call5_v0 : (⟨S_, .f32⟩ : BufTy).Contents (Elt F) :=
  id (kv_main_cst_29 (F := F))

def kv_main_call5_v1 : (⟨S128x128, .f32⟩ : BufTy).Contents (Elt F) :=
  (broadcastInDim S128x128 ![] bcast_S_S128x128) (kv_main_call5_v0 (F := F))

def kv_main_v99 (p3 : (⟨S2x768x256, .f32⟩ : BufTy).Contents (Elt F)) (sg : (⟨S524288x1, .i32⟩ : BufTy).Contents (Elt F)) (x1 : (⟨S6x128x256, .f32⟩ : BufTy).Contents (Elt F)) : (⟨S128x128, .f32⟩ : BufTy).Contents (Elt F) :=
  select (kv_main_v91 (F := F)) (kv_main_v98 (F := F) p3 sg x1) (kv_main_call5_v1 (F := F))

def kv_main_cst_30 : (⟨S_, .f32⟩ : BufTy).Contents (Elt F) :=
  (constant S_ .f32 0x00000000#32)

def kv_main_v100 (p3 : (⟨S2x768x256, .f32⟩ : BufTy).Contents (Elt F)) (sg : (⟨S524288x1, .i32⟩ : BufTy).Contents (Elt F)) (x1 : (⟨S6x128x256, .f32⟩ : BufTy).Contents (Elt F)) : (⟨S_, .f32⟩ : BufTy).Contents (Elt F) :=
  ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)) (kv_main_v99 (F := F) p3 sg x1) (kv_main_cst_30 (F := F))

def kv_main_cst_31 : (⟨S_, .f32⟩ : BufTy).Contents (Elt F) :=
  (constant S_ .f32 0x467E0000#32)

def kv_main_v101 (p3 : (⟨S2x768x256, .f32⟩ : BufTy).Contents (Elt F)) (sg : (⟨S524288x1, .i32⟩ : BufTy).Contents (Elt F)) (x1 : (⟨S6x128x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kv_main_v100 (F := F) p3 sg x1) (kv_main_cst_31 (F := F))

def kv_main_v102 (p3 : (⟨S2x768x256, .f32⟩ : BufTy).Contents (Elt F)) (sg : (⟨S524288x1, .i32⟩ : BufTy).Contents (Elt F)) (x1 : (⟨S6x128x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kv_main_v70 (F := F) p3 sg x1) (kv_main_v101 (F := F) p3 sg x1)

def kv_main_cst_32 : (⟨S_, .f32⟩ : BufTy).Contents (Elt F) :=
  (constant S_ .f32 0x00000000#32)

def kv_main_v103 (p3 : (⟨S2x768x256, .f32⟩ : BufTy).Contents (Elt F)) (sg : (⟨S524288x1, .i32⟩ : BufTy).Contents (Elt F)) (x2 : (⟨S6x256, .f32⟩ : BufTy).Contents (Elt F)) : (⟨S256, .f32⟩ : BufTy).Contents (Elt F) :=
  ((fun x v => Host.reduceAdd x v reducesTo_S6x256_S256_d0 h_S_) : (⟨S6x256, .f32⟩ : BufTy).Contents (Elt F) → (⟨S_, .f32⟩ : BufTy).Contents (Elt F) → (⟨S256, .f32⟩ : BufTy).Contents (Elt F)) (kv_main_v55 (F := F) p3 sg x2) (kv_main_cst_32 (F := F))

def kv_main_cst_33 : (⟨S_, .f32⟩ : BufTy).Contents (Elt F) :=
  (constant S_ .f32 0x40C00000#32)

def kv_main_v104 : (⟨S256, .f32⟩ : BufTy).Contents (Elt F) :=
  (broadcastInDim S256 ![] bcast_S_S256 : (⟨S_, .f32⟩ : BufTy).Contents (Elt F) → (⟨S256, .f32⟩ : BufTy).Contents (Elt F)) (kv_main_cst_33 (F := F))

def kv_main_v105 (p3 : (⟨S2x768x256, .f32⟩ : BufTy).Contents (Elt F)) (sg : (⟨S524288x1, .i32⟩ : BufTy).Contents (Elt F)) (x2 : (⟨S6x256, .f32⟩ : BufTy).Contents (Elt F)) : (⟨S256, .f32⟩ : BufTy).Contents (Elt F) :=
  (Host.divf : (⟨S256, .f32⟩ : BufTy).Contents (Elt F) → (⟨S256, .f32⟩ : BufTy).Contents (Elt F) → (⟨S256, .f32⟩ : BufTy).Contents (Elt F)) (kv_main_v103 (F := F) p3 sg x2) (kv_main_v104 (F := F))

def kv_main_cst_34 : (⟨S_, .f32⟩ : BufTy).Contents (Elt F) :=
  (constant S_ .f32 0x00000000#32)

def kv_main_v106 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S256, .f32⟩ : BufTy).Contents (Elt F) :=
  ((fun x v => Host.reduceAdd x v reducesTo_S6x256_S256_d0 h_S_) : (⟨S6x256, .f32⟩ : BufTy).Contents (Elt F) → (⟨S_, .f32⟩ : BufTy).Contents (Elt F) → (⟨S256, .f32⟩ : BufTy).Contents (Elt F)) (kv_main_v61 (F := F) p3 p4 sg x3) (kv_main_cst_34 (F := F))

def kv_main_cst_35 : (⟨S_, .f32⟩ : BufTy).Contents (Elt F) :=
  (constant S_ .f32 0x40C00000#32)

def kv_main_v107 : (⟨S256, .f32⟩ : BufTy).Contents (Elt F) :=
  (broadcastInDim S256 ![] bcast_S_S256 : (⟨S_, .f32⟩ : BufTy).Contents (Elt F) → (⟨S256, .f32⟩ : BufTy).Contents (Elt F)) (kv_main_cst_35 (F := F))

def kv_main_v108 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S256, .f32⟩ : BufTy).Contents (Elt F) :=
  (Host.divf : (⟨S256, .f32⟩ : BufTy).Contents (Elt F) → (⟨S256, .f32⟩ : BufTy).Contents (Elt F) → (⟨S256, .f32⟩ : BufTy).Contents (Elt F)) (kv_main_v106 (F := F) p3 p4 sg x3) (kv_main_v107 (F := F))

def kv_main_v109 (p3 : (⟨S2x768x256, .f32⟩ : BufTy).Contents (Elt F)) (sg : (⟨S524288x1, .i32⟩ : BufTy).Contents (Elt F)) (x2 : (⟨S6x256, .f32⟩ : BufTy).Contents (Elt F)) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) (kv_main_v105 (F := F) p3 sg x2)

def kv_main_v110 (p3 : (⟨S2x768x256, .f32⟩ : BufTy).Contents (Elt F)) (sg : (⟨S524288x1, .i32⟩ : BufTy).Contents (Elt F)) (x2 : (⟨S6x256, .f32⟩ : BufTy).Contents (Elt F)) : (⟨S6x256, .f32⟩ : BufTy).Contents (Elt F) :=
  (broadcastInDim S6x256 ![0, 1] bcast_S1x256_S6x256_0_1 : (⟨S1x256, .f32⟩ : BufTy).Contents (Elt F) → (⟨S6x256, .f32⟩ : BufTy).Contents (Elt F)) (kv_main_v109 (F := F) p3 sg x2)

def kv_main_v111 (p3 : (⟨S2x768x256, .f32⟩ : BufTy).Contents (Elt F)) (sg : (⟨S524288x1, .i32⟩ : BufTy).Contents (Elt F)) (x2 : (⟨S6x256, .f32⟩ : BufTy).Contents (Elt F)) : (⟨S6x256, .f32⟩ : BufTy).Contents (Elt F) :=
  (subf : (⟨S6x256, .f32⟩ : BufTy).Contents (Elt F) → (⟨S6x256, .f32⟩ : BufTy).Contents (Elt F) → (⟨S6x256, .f32⟩ : BufTy).Contents (Elt F)) (kv_main_v55 (F := F) p3 sg x2) (kv_main_v110 (F := F) p3 sg x2)

def kv_main_v112 (p3 : (⟨S2x768x256, .f32⟩ : BufTy).Contents (Elt F)) (sg : (⟨S524288x1, .i32⟩ : BufTy).Contents (Elt F)) (x2 : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v111 (F := F) p3 sg x2) (kv_main_v111 (F := F) p3 sg x2)

def kv_main_cst_36 : (⟨S_, .f32⟩ : BufTy).Contents (Elt F) :=
  (constant S_ .f32 0x00000000#32)

def kv_main_v113 (p3 : (⟨S2x768x256, .f32⟩ : BufTy).Contents (Elt F)) (sg : (⟨S524288x1, .i32⟩ : BufTy).Contents (Elt F)) (x2 : (⟨S6x256, .f32⟩ : BufTy).Contents (Elt F)) : (⟨S_, .f32⟩ : BufTy).Contents (Elt F) :=
  ((fun x v => Host.reduceAdd x v reducesTo_S6x256_S_d0_1 h_S_) : (⟨S6x256, .f32⟩ : BufTy).Contents (Elt F) → (⟨S_, .f32⟩ : BufTy).Contents (Elt F) → (⟨S_, .f32⟩ : BufTy).Contents (Elt F)) (kv_main_v112 (F := F) p3 sg x2) (kv_main_cst_36 (F := F))

def kv_main_cst_37 : (⟨S_, .f32⟩ : BufTy).Contents (Elt F) :=
  (constant S_ .f32 0x44C00000#32)

def kv_main_v114 (p3 : (⟨S2x768x256, .f32⟩ : BufTy).Contents (Elt F)) (sg : (⟨S524288x1, .i32⟩ : BufTy).Contents (Elt F)) (x2 : (⟨S6x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kv_main_v113 (F := F) p3 sg x2) (kv_main_cst_37 (F := F))

def kv_main_v115 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) (kv_main_v108 (F := F) p3 p4 sg x3)

def kv_main_v116 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S6x256, .f32⟩ : BufTy).Contents (Elt F) :=
  (broadcastInDim S6x256 ![0, 1] bcast_S1x256_S6x256_0_1 : (⟨S1x256, .f32⟩ : BufTy).Contents (Elt F) → (⟨S6x256, .f32⟩ : BufTy).Contents (Elt F)) (kv_main_v115 (F := F) p3 p4 sg x3)

def kv_main_v117 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S6x256, .f32⟩ : BufTy).Contents (Elt F) :=
  (subf : (⟨S6x256, .f32⟩ : BufTy).Contents (Elt F) → (⟨S6x256, .f32⟩ : BufTy).Contents (Elt F) → (⟨S6x256, .f32⟩ : BufTy).Contents (Elt F)) (kv_main_v61 (F := F) p3 p4 sg x3) (kv_main_v116 (F := F) p3 p4 sg x3)

def kv_main_v118 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (kv_main_v117 (F := F) p3 p4 sg x3) (kv_main_v117 (F := F) p3 p4 sg x3)

def kv_main_cst_38 : (⟨S_, .f32⟩ : BufTy).Contents (Elt F) :=
  (constant S_ .f32 0x00000000#32)

def kv_main_v119 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S_, .f32⟩ : BufTy).Contents (Elt F) :=
  ((fun x v => Host.reduceAdd x v reducesTo_S6x256_S_d0_1 h_S_) : (⟨S6x256, .f32⟩ : BufTy).Contents (Elt F) → (⟨S_, .f32⟩ : BufTy).Contents (Elt F) → (⟨S_, .f32⟩ : BufTy).Contents (Elt F)) (kv_main_v118 (F := F) p3 p4 sg x3) (kv_main_cst_38 (F := F))

def kv_main_cst_39 : (⟨S_, .f32⟩ : BufTy).Contents (Elt F) :=
  (constant S_ .f32 0x44C00000#32)

def kv_main_v120 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kv_main_v119 (F := F) p3 p4 sg x3) (kv_main_cst_39 (F := F))

def kv_main_cst_40 : (⟨S_, .f32⟩ : BufTy).Contents (Elt F) :=
  (constant S_ .f32 0x00000000#32)

def kv_main_v121 (p3 : (⟨S2x768x256, .f32⟩ : BufTy).Contents (Elt F)) : (⟨S256, .f32⟩ : BufTy).Contents (Elt F) :=
  ((fun x v => Host.reduceAdd x v reducesTo_S768x256_S256_d0 h_S_) : (⟨S768x256, .f32⟩ : BufTy).Contents (Elt F) → (⟨S_, .f32⟩ : BufTy).Contents (Elt F) → (⟨S256, .f32⟩ : BufTy).Contents (Elt F)) (kv_main_v6 (F := F) p3) (kv_main_cst_40 (F := F))

def kv_main_cst_41 : (⟨S_, .f32⟩ : BufTy).Contents (Elt F) :=
  (constant S_ .f32 0x00000000#32)

def kv_main_v122 (p4 : (⟨S2x8x256, .f32⟩ : BufTy).Contents (Elt F)) : (⟨S256, .f32⟩ : BufTy).Contents (Elt F) :=
  ((fun x v => Host.reduceAdd x v reducesTo_S6x256_S256_d0 h_S_) : (⟨S6x256, .f32⟩ : BufTy).Contents (Elt F) → (⟨S_, .f32⟩ : BufTy).Contents (Elt F) → (⟨S256, .f32⟩ : BufTy).Contents (Elt F)) (kv_main_v8 (F := F) p4) (kv_main_cst_41 (F := F))

def kv_main_cst_42 : (⟨S_, .f32⟩ : BufTy).Contents (Elt F) :=
  (constant S_ .f32 0x49000000#32)

def kv_main_v123 : (⟨S256, .f32⟩ : BufTy).Contents (Elt F) :=
  (broadcastInDim S256 ![] bcast_S_S256 : (⟨S_, .f32⟩ : BufTy).Contents (Elt F) → (⟨S256, .f32⟩ : BufTy).Contents (Elt F)) (kv_main_cst_42 (F := F))

def kv_main_v124 (p3 : (⟨S2x768x256, .f32⟩ : BufTy).Contents (Elt F)) : (⟨S256, .f32⟩ : BufTy).Contents (Elt F) :=
  (Host.divf : (⟨S256, .f32⟩ : BufTy).Contents (Elt F) → (⟨S256, .f32⟩ : BufTy).Contents (Elt F) → (⟨S256, .f32⟩ : BufTy).Contents (Elt F)) (kv_main_v121 (F := F) p3) (kv_main_v123 (F := F))

def kv_main_cst_43 : (⟨S_, .f32⟩ : BufTy).Contents (Elt F) :=
  (constant S_ .f32 0x49000000#32)

def kv_main_v125 : (⟨S256, .f32⟩ : BufTy).Contents (Elt F) :=
  (broadcastInDim S256 ![] bcast_S_S256 : (⟨S_, .f32⟩ : BufTy).Contents (Elt F) → (⟨S256, .f32⟩ : BufTy).Contents (Elt F)) (kv_main_cst_43 (F := F))

def kv_main_v126 (p4 : (⟨S2x8x256, .f32⟩ : BufTy).Contents (Elt F)) : (⟨S256, .f32⟩ : BufTy).Contents (Elt F) :=
  (Host.divf : (⟨S256, .f32⟩ : BufTy).Contents (Elt F) → (⟨S256, .f32⟩ : BufTy).Contents (Elt F) → (⟨S256, .f32⟩ : BufTy).Contents (Elt F)) (kv_main_v122 (F := F) p4) (kv_main_v125 (F := F))

def kv_main_v127 (p3 : (⟨S2x768x256, .f32⟩ : BufTy).Contents (Elt F)) : (⟨S256, .f32⟩ : BufTy).Contents (Elt F) :=
  (mulf : (⟨S256, .f32⟩ : BufTy).Contents (Elt F) → (⟨S256, .f32⟩ : BufTy).Contents (Elt F) → (⟨S256, .f32⟩ : BufTy).Contents (Elt F)) (kv_main_v124 (F := F) p3) (kv_main_v124 (F := F) p3)

def kv_main_v128 (p3 : (⟨S2x768x256, .f32⟩ : BufTy).Contents (Elt F)) (p4 : (⟨S2x8x256, .f32⟩ : BufTy).Contents (Elt F)) : (⟨S256, .f32⟩ : BufTy).Contents (Elt F) :=
  (subf : (⟨S256, .f32⟩ : BufTy).Contents (Elt F) → (⟨S256, .f32⟩ : BufTy).Contents (Elt F) → (⟨S256, .f32⟩ : BufTy).Contents (Elt F)) (kv_main_v126 (F := F) p4) (kv_main_v127 (F := F) p3)

def kv_main_v129 (p3 : (⟨S2x768x256, .f32⟩ : BufTy).Contents (Elt F)) (sg : (⟨S524288x1, .i32⟩ : BufTy).Contents (Elt F)) (x2 : (⟨S6x256, .f32⟩ : BufTy).Contents (Elt F)) : (⟨S256, .f32⟩ : BufTy).Contents (Elt F) :=
  (subf : (⟨S256, .f32⟩ : BufTy).Contents (Elt F) → (⟨S256, .f32⟩ : BufTy).Contents (Elt F) → (⟨S256, .f32⟩ : BufTy).Contents (Elt F)) (kv_main_v124 (F := F) p3) (kv_main_v105 (F := F) p3 sg x2)

def kv_main_v130 (p3 : (⟨S2x768x256, .f32⟩ : BufTy).Contents (Elt F)) (sg : (⟨S524288x1, .i32⟩ : BufTy).Contents (Elt F)) (x2 : (⟨S6x256, .f32⟩ : BufTy).Contents (Elt F)) : (⟨S256, .f32⟩ : BufTy).Contents (Elt F) :=
  (mulf : (⟨S256, .f32⟩ : BufTy).Contents (Elt F) → (⟨S256, .f32⟩ : BufTy).Contents (Elt F) → (⟨S256, .f32⟩ : BufTy).Contents (Elt F)) (kv_main_v129 (F := F) p3 sg x2) (kv_main_v129 (F := F) p3 sg x2)

def kv_main_cst_44 : (⟨S_, .f32⟩ : BufTy).Contents (Elt F) :=
  (constant S_ .f32 0x00000000#32)

def kv_main_v131 (p3 : (⟨S2x768x256, .f32⟩ : BufTy).Contents (Elt F)) (sg : (⟨S524288x1, .i32⟩ : BufTy).Contents (Elt F)) (x2 : (⟨S6x256, .f32⟩ : BufTy).Contents (Elt F)) : (⟨S_, .f32⟩ : BufTy).Contents (Elt F) :=
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)) (kv_main_v130 (F := F) p3 sg x2) (kv_main_cst_44 (F := F))

def kv_main_cst_45 : (⟨S_, .f32⟩ : BufTy).Contents (Elt F) :=
  (constant S_ .f32 0x43800000#32)

def kv_main_v132 (p3 : (⟨S2x768x256, .f32⟩ : BufTy).Contents (Elt F)) (sg : (⟨S524288x1, .i32⟩ : BufTy).Contents (Elt F)) (x2 : (⟨S6x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kv_main_v131 (F := F) p3 sg x2) (kv_main_cst_45 (F := F))

def kv_main_v133 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S256, .f32⟩ : BufTy).Contents (Elt F) :=
  (subf : (⟨S256, .f32⟩ : BufTy).Contents (Elt F) → (⟨S256, .f32⟩ : BufTy).Contents (Elt F) → (⟨S256, .f32⟩ : BufTy).Contents (Elt F)) (kv_main_v128 (F := F) p3 p4) (kv_main_v108 (F := F) p3 p4 sg x3)

def kv_main_v134 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S256, .f32⟩ : BufTy).Contents (Elt F) :=
  (mulf : (⟨S256, .f32⟩ : BufTy).Contents (Elt F) → (⟨S256, .f32⟩ : BufTy).Contents (Elt F) → (⟨S256, .f32⟩ : BufTy).Contents (Elt F)) (kv_main_v133 (F := F) p3 p4 sg x3) (kv_main_v133 (F := F) p3 p4 sg x3)

def kv_main_cst_46 : (⟨S_, .f32⟩ : BufTy).Contents (Elt F) :=
  (constant S_ .f32 0x00000000#32)

def kv_main_v135 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S_, .f32⟩ : BufTy).Contents (Elt F) :=
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)) (kv_main_v134 (F := F) p3 p4 sg x3) (kv_main_cst_46 (F := F))

def kv_main_cst_47 : (⟨S_, .f32⟩ : BufTy).Contents (Elt F) :=
  (constant S_ .f32 0x43800000#32)

def kv_main_v136 (p3 : (⟨S2x768x256, .f32⟩ : BufTy).Contents (Elt F)) (p4 : (⟨S2x8x256, .f32⟩ : BufTy).Contents (Elt F)) (sg : (⟨S524288x1, .i32⟩ : BufTy).Contents (Elt F)) (x3 : (⟨S6x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (kv_main_v135 (F := F) p3 p4 sg x3) (kv_main_cst_47 (F := F))

def kv_main_v137 (p3 : (⟨S2x768x256, .f32⟩ : BufTy).Contents (Elt F)) (p4 : (⟨S2x8x256, .f32⟩ : BufTy).Contents (Elt F)) (sg : (⟨S524288x1, .i32⟩ : BufTy).Contents (Elt F)) (x2 : (⟨S6x256, .f32⟩ : BufTy).Contents (Elt F)) (x3 : (⟨S6x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kv_main_v114 (F := F) p3 sg x2) (kv_main_v120 (F := F) p3 p4 sg x3)

def kv_main_v138 (p3 : (⟨S2x768x256, .f32⟩ : BufTy).Contents (Elt F)) (p4 : (⟨S2x8x256, .f32⟩ : BufTy).Contents (Elt F)) (sg : (⟨S524288x1, .i32⟩ : BufTy).Contents (Elt F)) (x2 : (⟨S6x256, .f32⟩ : BufTy).Contents (Elt F)) (x3 : (⟨S6x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kv_main_v137 (F := F) p3 p4 sg x2 x3) (kv_main_v132 (F := F) p3 sg x2)

def kv_main_v139 (p3 : (⟨S2x768x256, .f32⟩ : BufTy).Contents (Elt F)) (p4 : (⟨S2x8x256, .f32⟩ : BufTy).Contents (Elt F)) (sg : (⟨S524288x1, .i32⟩ : BufTy).Contents (Elt F)) (x2 : (⟨S6x256, .f32⟩ : BufTy).Contents (Elt F)) (x3 : (⟨S6x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kv_main_v138 (F := F) p3 p4 sg x2 x3) (kv_main_v136 (F := F) p3 p4 sg x3)

def kv_main_v140 (p3 : (⟨S2x768x256, .f32⟩ : BufTy).Contents (Elt F)) (p4 : (⟨S2x8x256, .f32⟩ : BufTy).Contents (Elt F)) (sg : (⟨S524288x1, .i32⟩ : BufTy).Contents (Elt F)) (x1 : (⟨S6x128x256, .f32⟩ : BufTy).Contents (Elt F)) (x2 : (⟨S6x256, .f32⟩ : BufTy).Contents (Elt F)) (x3 : (⟨S6x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (kv_main_v102 (F := F) p3 sg x1) (kv_main_v139 (F := F) p3 p4 sg x2 x3)

/-! ## The updated anchors from the segment sums, the clamped counts and the count test -/

def fa_main_v17 (sc : (⟨S768x1, .f32⟩ : BufTy).Contents (Elt F)) : (⟨S768x256, .f32⟩ : BufTy).Contents (Elt F) :=
  (broadcastInDim S768x256 ![0, 1] bcast_S768x1_S768x256_0_1 : (⟨S768x1, .f32⟩ : BufTy).Contents (Elt F) → (⟨S768x256, .f32⟩ : BufTy).Contents (Elt F)) sc

def fa_main_v18 (ss : (⟨S768x256, .f32⟩ : BufTy).Contents (Elt F)) (sc : (⟨S768x1, .f32⟩ : BufTy).Contents (Elt F)) : (⟨S768x256, .f32⟩ : BufTy).Contents (Elt F) :=
  (Host.divf : (⟨S768x256, .f32⟩ : BufTy).Contents (Elt F) → (⟨S768x256, .f32⟩ : BufTy).Contents (Elt F) → (⟨S768x256, .f32⟩ : BufTy).Contents (Elt F)) ss (fa_main_v17 (F := F) sc)

def fa_main_v22 (ss : (⟨S768x256, .f32⟩ : BufTy).Contents (Elt F)) (sc : (⟨S768x1, .f32⟩ : BufTy).Contents (Elt F)) : (⟨S6x128x256, .f32⟩ : BufTy).Contents (Elt F) :=
  shapeCast S6x128x256 (fa_main_v18 (F := F) ss sc) shapeCasts_S768x256_S6x128x256

def fa_main_cst_5 : (⟨S_, .f32⟩ : BufTy).Contents (Elt F) :=
  (constant S_ .f32 0x3F666666#32)

def fa_main_v23 : (⟨S6x128x256, .f32⟩ : BufTy).Contents (Elt F) :=
  (broadcastInDim S6x128x256 ![] bcast_S_S6x128x256 : (⟨S_, .f32⟩ : BufTy).Contents (Elt F) → (⟨S6x128x256, .f32⟩ : BufTy).Contents (Elt F)) (fa_main_cst_5 (F := F))

def fa_main_v24 (x1 : (⟨S6x128x256, .f32⟩ : BufTy).Contents (Elt F)) : (⟨S6x128x256, .f32⟩ : BufTy).Contents (Elt F) :=
  (mulf : (⟨S6x128x256, .f32⟩ : BufTy).Contents (Elt F) → (⟨S6x128x256, .f32⟩ : BufTy).Contents (Elt F) → (⟨S6x128x256, .f32⟩ : BufTy).Contents (Elt F)) (fa_main_v23 (F := F)) x1

def fa_main_cst_6 : (⟨S_, .f32⟩ : BufTy).Contents (Elt F) :=
  (constant S_ .f32 0x3DCCCCCD#32)

def fa_main_v25 : (⟨S6x128x256, .f32⟩ : BufTy).Contents (Elt F) :=
  (broadcastInDim S6x128x256 ![] bcast_S_S6x128x256 : (⟨S_, .f32⟩ : BufTy).Contents (Elt F) → (⟨S6x128x256, .f32⟩ : BufTy).Contents (Elt F)) (fa_main_cst_6 (F := F))

def fa_main_v26 (ss : (⟨S768x256, .f32⟩ : BufTy).Contents (Elt F)) (sc : (⟨S768x1, .f32⟩ : BufTy).Contents (Elt F)) : (⟨S6x128x256, .f32⟩ : BufTy).Contents (Elt F) :=
  (mulf : (⟨S6x128x256, .f32⟩ : BufTy).Contents (Elt F) → (⟨S6x128x256, .f32⟩ : BufTy).Contents (Elt F) → (⟨S6x128x256, .f32⟩ : BufTy).Contents (Elt F)) (fa_main_v25 (F := F)) (fa_main_v22 (F := F) ss sc)

def fa_main_v27 (ss : (⟨S768x256, .f32⟩ : BufTy).Contents (Elt F)) (sc : (⟨S768x1, .f32⟩ : BufTy).Contents (Elt F)) (x1 : (⟨S6x128x256, .f32⟩ : BufTy).Contents (Elt F)) : (⟨S6x128x256, .f32⟩ : BufTy).Contents (Elt F) :=
  (addf : (⟨S6x128x256, .f32⟩ : BufTy).Contents (Elt F) → (⟨S6x128x256, .f32⟩ : BufTy).Contents (Elt F) → (⟨S6x128x256, .f32⟩ : BufTy).Contents (Elt F)) (fa_main_v24 (F := F) x1) (fa_main_v26 (F := F) ss sc)

def fa_main_call0_v0 (hs : (⟨S6x128x1, .i1⟩ : BufTy).Contents (Elt F)) : (⟨S6x128x256, .i1⟩ : BufTy).Contents (Elt F) :=
  (broadcastInDim S6x128x256 ![0, 1, 2] bcast_S6x128x1_S6x128x256_0_1_2) hs

def fa_main_v28 (ss : (⟨S768x256, .f32⟩ : BufTy).Contents (Elt F)) (sc : (⟨S768x1, .f32⟩ : BufTy).Contents (Elt F)) (hs : (⟨S6x128x1, .i1⟩ : BufTy).Contents (Elt F)) (x1 : (⟨S6x128x256, .f32⟩ : BufTy).Contents (Elt F)) : (⟨S6x128x256, .f32⟩ : BufTy).Contents (Elt F) :=
  select (fa_main_call0_v0 (F := F) hs) (fa_main_v27 (F := F) ss sc x1) x1

/-! ## The updated means from the domain sums, the clamped domain counts and the domain count test -/

def fm_main_v36 (dc : (⟨S6x1, .f32⟩ : BufTy).Contents (Elt F)) : (⟨S6x256, .f32⟩ : BufTy).Contents (Elt F) :=
  (broadcastInDim S6x256 ![0, 1] bcast_S6x1_S6x256_0_1 : (⟨S6x1, .f32⟩ : BufTy).Contents (Elt F) → (⟨S6x256, .f32⟩ : BufTy).Contents (Elt F)) dc

def fm_main_v37 (ds : (⟨S6x256, .f32⟩ : BufTy).Contents (Elt F)) (dc : (⟨S6x1, .f32⟩ : BufTy).Contents (Elt F)) : (⟨S6x256, .f32⟩ : BufTy).Contents (Elt F) :=
  (Host.divf : (⟨S6x256, .f32⟩ : BufTy).Contents (Elt F) → (⟨S6x256, .f32⟩ : BufTy).Contents (Elt F) → (⟨S6x256, .f32⟩ : BufTy).Contents (Elt F)) ds (fm_main_v36 (F := F) dc)

def fm_main_cst_13 : (⟨S_, .f32⟩ : BufTy).Contents (Elt F) :=
  (constant S_ .f32 0x3F666666#32)

def fm_main_v50 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (fm_main_cst_13 (F := F))

def fm_main_v51 (x2 : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fm_main_v50 (F := F)) x2

def fm_main_cst_14 : (⟨S_, .f32⟩ : BufTy).Contents (Elt F) :=
  (constant S_ .f32 0x3DCCCCCD#32)

def fm_main_v52 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (fm_main_cst_14 (F := F))

def fm_main_v53 (ds : (⟨S6x256, .f32⟩ : BufTy).Contents (Elt F)) (dc : (⟨S6x1, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fm_main_v52 (F := F)) (fm_main_v37 (F := F) ds dc)

def fm_main_v54 (ds : (⟨S6x256, .f32⟩ : BufTy).Contents (Elt F)) (dc : (⟨S6x1, .f32⟩ : BufTy).Contents (Elt F)) (x2 : (⟨S6x256, .f32⟩ : BufTy).Contents (Elt F)) : (⟨S6x256, .f32⟩ : BufTy).Contents (Elt F) :=
  (addf : (⟨S6x256, .f32⟩ : BufTy).Contents (Elt F) → (⟨S6x256, .f32⟩ : BufTy).Contents (Elt F) → (⟨S6x256, .f32⟩ : BufTy).Contents (Elt F)) (fm_main_v51 (F := F) x2) (fm_main_v53 (F := F) ds dc)

def fm_main_call1_v0 (dg : (⟨S6x1, .i1⟩ : BufTy).Contents (Elt F)) : (⟨S6x256, .i1⟩ : BufTy).Contents (Elt F) :=
  (broadcastInDim S6x256 ![0, 1] bcast_S6x1_S6x256_0_1) dg

def fm_main_v55 (ds : (⟨S6x256, .f32⟩ : BufTy).Contents (Elt F)) (dc : (⟨S6x1, .f32⟩ : BufTy).Contents (Elt F)) (dg : (⟨S6x1, .i1⟩ : BufTy).Contents (Elt F)) (x2 : (⟨S6x256, .f32⟩ : BufTy).Contents (Elt F)) : (⟨S6x256, .f32⟩ : BufTy).Contents (Elt F) :=
  select (fm_main_call1_v0 (F := F) dg) (fm_main_v54 (F := F) ds dc x2) x2

/-! ## The updated variances -/

def fv_main_v36 (dc : (⟨S6x1, .f32⟩ : BufTy).Contents (Elt F)) : (⟨S6x256, .f32⟩ : BufTy).Contents (Elt F) :=
  (broadcastInDim S6x256 ![0, 1] bcast_S6x1_S6x256_0_1 : (⟨S6x1, .f32⟩ : BufTy).Contents (Elt F) → (⟨S6x256, .f32⟩ : BufTy).Contents (Elt F)) dc

def fv_main_v37 (ds : (⟨S6x256, .f32⟩ : BufTy).Contents (Elt F)) (dc : (⟨S6x1, .f32⟩ : BufTy).Contents (Elt F)) : (⟨S6x256, .f32⟩ : BufTy).Contents (Elt F) :=
  (Host.divf : (⟨S6x256, .f32⟩ : BufTy).Contents (Elt F) → (⟨S6x256, .f32⟩ : BufTy).Contents (Elt F) → (⟨S6x256, .f32⟩ : BufTy).Contents (Elt F)) ds (fv_main_v36 (F := F) dc)

def fv_main_v38 (dc : (⟨S6x1, .f32⟩ : BufTy).Contents (Elt F)) : (⟨S6x256, .f32⟩ : BufTy).Contents (Elt F) :=
  (broadcastInDim S6x256 ![0, 1] bcast_S6x1_S6x256_0_1 : (⟨S6x1, .f32⟩ : BufTy).Contents (Elt F) → (⟨S6x256, .f32⟩ : BufTy).Contents (Elt F)) dc

def fv_main_v39 (ds : (⟨S6x256, .f32⟩ : BufTy).Contents (Elt F)) (dc : (⟨S6x1, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fv_main_v38 (F := F) dc) (fv_main_v37 (F := F) ds dc)

def fv_main_v40 (ds : (⟨S6x256, .f32⟩ : BufTy).Contents (Elt F)) (dc : (⟨S6x1, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fv_main_v39 (F := F) ds dc) (fv_main_v37 (F := F) ds dc)

def fv_main_v41 (ds : (⟨S6x256, .f32⟩ : BufTy).Contents (Elt F)) (dq : (⟨S6x256, .f32⟩ : BufTy).Contents (Elt F)) (dc : (⟨S6x1, .f32⟩ : BufTy).Contents (Elt F)) : (⟨S6x256, .f32⟩ : BufTy).Contents (Elt F) :=
  (subf : (⟨S6x256, .f32⟩ : BufTy).Contents (Elt F) → (⟨S6x256, .f32⟩ : BufTy).Contents (Elt F) → (⟨S6x256, .f32⟩ : BufTy).Contents (Elt F)) dq (fv_main_v40 (F := F) ds dc)

def fv_main_v46 (dd : (⟨S6x1, .f32⟩ : BufTy).Contents (Elt F)) : (⟨S6x256, .f32⟩ : BufTy).Contents (Elt F) :=
  (broadcastInDim S6x256 ![0, 1] bcast_S6x1_S6x256_0_1 : (⟨S6x1, .f32⟩ : BufTy).Contents (Elt F) → (⟨S6x256, .f32⟩ : BufTy).Contents (Elt F)) dd

def fv_main_v47 (ds : (⟨S6x256, .f32⟩ : BufTy).Contents (Elt F)) (dq : (⟨S6x256, .f32⟩ : BufTy).Contents (Elt F)) (dc : (⟨S6x1, .f32⟩ : BufTy).Contents (Elt F)) (dd : (⟨S6x1, .f32⟩ : BufTy).Contents (Elt F)) : (⟨S6x256, .f32⟩ : BufTy).Contents (Elt F) :=
  (Host.divf : (⟨S6x256, .f32⟩ : BufTy).Contents (Elt F) → (⟨S6x256, .f32⟩ : BufTy).Contents (Elt F) → (⟨S6x256, .f32⟩ : BufTy).Contents (Elt F)) (fv_main_v41 (F := F) ds dq dc) (fv_main_v46 (F := F) dd)

def fv_main_cst_15 : (⟨S_, .f32⟩ : BufTy).Contents (Elt F) :=
  (constant S_ .f32 0x3F666666#32)

def fv_main_v56 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (fv_main_cst_15 (F := F))

def fv_main_v57 (x3 : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fv_main_v56 (F := F)) x3

def fv_main_cst_16 : (⟨S_, .f32⟩ : BufTy).Contents (Elt F) :=
  (constant S_ .f32 0x3DCCCCCD#32)

def fv_main_v58 : (⟨S6x256, .f32⟩ : BufTy).Contents (Elt F) :=
  (broadcastInDim S6x256 ![] bcast_S_S6x256 : (⟨S_, .f32⟩ : BufTy).Contents (Elt F) → (⟨S6x256, .f32⟩ : BufTy).Contents (Elt F)) (fv_main_cst_16 (F := F))

def fv_main_v59 (ds : (⟨S6x256, .f32⟩ : BufTy).Contents (Elt F)) (dq : (⟨S6x256, .f32⟩ : BufTy).Contents (Elt F)) (dc : (⟨S6x1, .f32⟩ : BufTy).Contents (Elt F)) (dd : (⟨S6x1, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fv_main_v58 (F := F)) (fv_main_v47 (F := F) ds dq dc dd)

def fv_main_v60 (ds : (⟨S6x256, .f32⟩ : BufTy).Contents (Elt F)) (dq : (⟨S6x256, .f32⟩ : BufTy).Contents (Elt F)) (dc : (⟨S6x1, .f32⟩ : BufTy).Contents (Elt F)) (dd : (⟨S6x1, .f32⟩ : BufTy).Contents (Elt F)) (x3 : (⟨S6x256, .f32⟩ : BufTy).Contents (Elt F)) : (⟨S6x256, .f32⟩ : BufTy).Contents (Elt F) :=
  (addf : (⟨S6x256, .f32⟩ : BufTy).Contents (Elt F) → (⟨S6x256, .f32⟩ : BufTy).Contents (Elt F) → (⟨S6x256, .f32⟩ : BufTy).Contents (Elt F)) (fv_main_v57 (F := F) x3) (fv_main_v59 (F := F) ds dq dc dd)

def fv_main_call2_v0 (dg : (⟨S6x1, .i1⟩ : BufTy).Contents (Elt F)) : (⟨S6x256, .i1⟩ : BufTy).Contents (Elt F) :=
  (broadcastInDim S6x256 ![0, 1] bcast_S6x1_S6x256_0_1) dg

def fv_main_v61 (ds : (⟨S6x256, .f32⟩ : BufTy).Contents (Elt F)) (dq : (⟨S6x256, .f32⟩ : BufTy).Contents (Elt F)) (dc : (⟨S6x1, .f32⟩ : BufTy).Contents (Elt F)) (dd : (⟨S6x1, .f32⟩ : BufTy).Contents (Elt F)) (dg : (⟨S6x1, .i1⟩ : BufTy).Contents (Elt F)) (x3 : (⟨S6x256, .f32⟩ : BufTy).Contents (Elt F)) : (⟨S6x256, .f32⟩ : BufTy).Contents (Elt F) :=
  select (fv_main_call2_v0 (F := F) dg) (fv_main_v60 (F := F) ds dq dc dd x3) x3

/-! ## The loss from the three updated arrays and the two feature means -/

def fl_main_cst_17 : (⟨S_, .f32⟩ : BufTy).Contents (Elt F) :=
  (constant S_ .f32 0x00000000#32)

def fl_main_v62 (na : (⟨S6x128x256, .f32⟩ : BufTy).Contents (Elt F)) : (⟨S128x256, .f32⟩ : BufTy).Contents (Elt F) :=
  ((fun x v => Host.reduceAdd x v reducesTo_S6x128x256_S128x256_d0 h_S_) : (⟨S6x128x256, .f32⟩ : BufTy).Contents (Elt F) → (⟨S_, .f32⟩ : BufTy).Contents (Elt F) → (⟨S128x256, .f32⟩ : BufTy).Contents (Elt F)) na (fl_main_cst_17 (F := F))

def fl_main_v63 (na : (⟨S6x128x256, .f32⟩ : BufTy).Contents (Elt F)) : (⟨S1x128x256, .f32⟩ : BufTy).Contents (Elt F) :=
  (broadcastInDim S1x128x256 ![1, 2] bcast_S128x256_S1x128x256_1_2 : (⟨S128x256, .f32⟩ : BufTy).Contents (Elt F) → (⟨S1x128x256, .f32⟩ : BufTy).Contents (Elt F)) (fl_main_v62 (F := F) na)

def fl_main_cst_18 : (⟨S_, .f32⟩ : BufTy).Contents (Elt F) :=
  (constant S_ .f32 0x40C00000#32)

def fl_main_v64 : (⟨S1x128x256, .f32⟩ : BufTy).Contents (Elt F) :=
  (broadcastInDim S1x128x256 ![] bcast_S_S1x128x256 : (⟨S_, .f32⟩ : BufTy).Contents (Elt F) → (⟨S1x128x256, .f32⟩ : BufTy).Contents (Elt F)) (fl_main_cst_18 (F := F))

def fl_main_v65 (na : (⟨S6x128x256, .f32⟩ : BufTy).Contents (Elt F)) : (⟨S1x128x256, .f32⟩ : BufTy).Contents (Elt F) :=
  (Host.divf : (⟨S1x128x256, .f32⟩ : BufTy).Contents (Elt F) → (⟨S1x128x256, .f32⟩ : BufTy).Contents (Elt F) → (⟨S1x128x256, .f32⟩ : BufTy).Contents (Elt F)) (fl_main_v63 (F := F) na) (fl_main_v64 (F := F))

def fl_main_v66 (na : (⟨S6x128x256, .f32⟩ : BufTy).Contents (Elt F)) : (⟨S6x128x256, .f32⟩ : BufTy).Contents (Elt F) :=
  (broadcastInDim S6x128x256 ![0, 1, 2] bcast_S1x128x256_S6x128x256_0_1_2 : (⟨S1x128x256, .f32⟩ : BufTy).Contents (Elt F) → (⟨S6x128x256, .f32⟩ : BufTy).Contents (Elt F)) (fl_main_v65 (F := F) na)

def fl_main_v67 (na : (⟨S6x128x256, .f32⟩ : BufTy).Contents (Elt F)) : (⟨S6x128x256, .f32⟩ : BufTy).Contents (Elt F) :=
  (subf : (⟨S6x128x256, .f32⟩ : BufTy).Contents (Elt F) → (⟨S6x128x256, .f32⟩ : BufTy).Contents (Elt F) → (⟨S6x128x256, .f32⟩ : BufTy).Contents (Elt F)) na (fl_main_v66 (F := F) na)

def fl_main_v68 (na : (⟨S6x128x256, .f32⟩ : BufTy).Contents (Elt F)) : (⟨S6x128x256, .f32⟩ : BufTy).Contents (Elt F) :=
  (mulf : (⟨S6x128x256, .f32⟩ : BufTy).Contents (Elt F) → (⟨S6x128x256, .f32⟩ : BufTy).Contents (Elt F) → (⟨S6x128x256, .f32⟩ : BufTy).Contents (Elt F)) (fl_main_v67 (F := F) na) (fl_main_v67 (F := F) na)

def fl_main_cst_19 : (⟨S_, .f32⟩ : BufTy).Contents (Elt F) :=
  (constant S_ .f32 0x00000000#32)

def fl_main_v69 (na : (⟨S6x128x256, .f32⟩ : BufTy).Contents (Elt F)) : (⟨S_, .f32⟩ : BufTy).Contents (Elt F) :=
  ((fun x v => Host.reduceAdd x v reducesTo_S6x128x256_S_d0_1_2 h_S_) : (⟨S6x128x256, .f32⟩ : BufTy).Contents (Elt F) → (⟨S_, .f32⟩ : BufTy).Contents (Elt F) → (⟨S_, .f32⟩ : BufTy).Contents (Elt F)) (fl_main_v68 (F := F) na) (fl_main_cst_19 (F := F))

def fl_main_cst_20 : (⟨S_, .f32⟩ : BufTy).Contents (Elt F) :=
  (constant S_ .f32 0x48400000#32)

def fl_main_v70 (na : (⟨S6x128x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (fl_main_v69 (F := F) na) (fl_main_cst_20 (F := F))

def fl_main_cst_21 : (⟨S_, .f32⟩ : BufTy).Contents (Elt F) :=
  (constant S_ .f32 0x00000000#32)

def fl_main_v71 (na : (⟨S6x128x256, .f32⟩ : BufTy).Contents (Elt F)) : (⟨S128x256, .f32⟩ : BufTy).Contents (Elt F) :=
  ((fun x v => Host.reduceAdd x v reducesTo_S6x128x256_S128x256_d0 h_S_) : (⟨S6x128x256, .f32⟩ : BufTy).Contents (Elt F) → (⟨S_, .f32⟩ : BufTy).Contents (Elt F) → (⟨S128x256, .f32⟩ : BufTy).Contents (Elt F)) na (fl_main_cst_21 (F := F))

def fl_main_cst_22 : (⟨S_, .f32⟩ : BufTy).Contents (Elt F) :=
  (constant S_ .f32 0x40C00000#32)

def fl_main_v72 : (⟨S128x256, .f32⟩ : BufTy).Contents (Elt F) :=
  (broadcastInDim S128x256 ![] bcast_S_S128x256 : (⟨S_, .f32⟩ : BufTy).Contents (Elt F) → (⟨S128x256, .f32⟩ : BufTy).Contents (Elt F)) (fl_main_cst_22 (F := F))

def fl_main_v73 (na : (⟨S6x128x256, .f32⟩ : BufTy).Contents (Elt F)) : (⟨S128x256, .f32⟩ : BufTy).Contents (Elt F) :=
  (Host.divf : (⟨S128x256, .f32⟩ : BufTy).Contents (Elt F) → (⟨S128x256, .f32⟩ : BufTy).Contents (Elt F) → (⟨S128x256, .f32⟩ : BufTy).Contents (Elt F)) (fl_main_v71 (F := F) na) (fl_main_v72 (F := F))

def fl_main_v74 (na : (⟨S6x128x256, .f32⟩ : BufTy).Contents (Elt F)) : (⟨S128x256, .f32⟩ : BufTy).Contents (Elt F) :=
  (mulf : (⟨S128x256, .f32⟩ : BufTy).Contents (Elt F) → (⟨S128x256, .f32⟩ : BufTy).Contents (Elt F) → (⟨S128x256, .f32⟩ : BufTy).Contents (Elt F)) (fl_main_v73 (F := F) na) (fl_main_v73 (F := F) na)

def fl_main_cst_23 : (⟨S_, .f32⟩ : BufTy).Contents (Elt F) :=
  (constant S_ .f32 0x00000000#32)

def fl_main_v75 (na : (⟨S6x128x256, .f32⟩ : BufTy).Contents (Elt F)) : (⟨S128, .f32⟩ : BufTy).Contents (Elt F) :=
  ((fun x v => Host.reduceAdd x v reducesTo_S128x256_S128_d1 h_S_) : (⟨S128x256, .f32⟩ : BufTy).Contents (Elt F) → (⟨S_, .f32⟩ : BufTy).Contents (Elt F) → (⟨S128, .f32⟩ : BufTy).Contents (Elt F)) (fl_main_v74 (F := F) na) (fl_main_cst_23 (F := F))

def fl_main_v76 (na : (⟨S6x128x256, .f32⟩ : BufTy).Contents (Elt F)) : (⟨S128x1, .f32⟩ : BufTy).Contents (Elt F) :=
  (broadcastInDim S128x1 ![0] bcast_S128_S128x1_0 : (⟨S128, .f32⟩ : BufTy).Contents (Elt F) → (⟨S128x1, .f32⟩ : BufTy).Contents (Elt F)) (fl_main_v75 (F := F) na)

def fl_main_v77 (na : (⟨S6x128x256, .f32⟩ : BufTy).Contents (Elt F)) : (⟨S1x128, .f32⟩ : BufTy).Contents (Elt F) :=
  (broadcastInDim S1x128 ![1] bcast_S128_S1x128_1 : (⟨S128, .f32⟩ : BufTy).Contents (Elt F) → (⟨S1x128, .f32⟩ : BufTy).Contents (Elt F)) (fl_main_v75 (F := F) na)

def fl_main_v78 (na : (⟨S6x128x256, .f32⟩ : BufTy).Contents (Elt F)) : (⟨S128x128, .f32⟩ : BufTy).Contents (Elt F) :=
  (broadcastInDim S128x128 ![0, 1] bcast_S128x1_S128x128_0_1 : (⟨S128x1, .f32⟩ : BufTy).Contents (Elt F) → (⟨S128x128, .f32⟩ : BufTy).Contents (Elt F)) (fl_main_v76 (F := F) na)

def fl_main_v79 (na : (⟨S6x128x256, .f32⟩ : BufTy).Contents (Elt F)) : (⟨S128x128, .f32⟩ : BufTy).Contents (Elt F) :=
  (broadcastInDim S128x128 ![0, 1] bcast_S1x128_S128x128_0_1 : (⟨S1x128, .f32⟩ : BufTy).Contents (Elt F) → (⟨S128x128, .f32⟩ : BufTy).Contents (Elt F)) (fl_main_v77 (F := F) na)

def fl_main_v80 (na : (⟨S6x128x256, .f32⟩ : BufTy).Contents (Elt F)) : (⟨S128x128, .f32⟩ : BufTy).Contents (Elt F) :=
  (addf : (⟨S128x128, .f32⟩ : BufTy).Contents (Elt F) → (⟨S128x128, .f32⟩ : BufTy).Contents (Elt F) → (⟨S128x128, .f32⟩ : BufTy).Contents (Elt F)) (fl_main_v78 (F := F) na) (fl_main_v79 (F := F) na)

def fl_main_v81 (na : (⟨S6x128x256, .f32⟩ : BufTy).Contents (Elt F)) : (⟨S256x128, .f32⟩ : BufTy).Contents (Elt F) :=
  ((transpose S256x128 [1, 0] · transposes_S128x256_S256x128_1_0) : (⟨S128x256, .f32⟩ : BufTy).Contents (Elt F) → (⟨S256x128, .f32⟩ : BufTy).Contents (Elt F)) (fl_main_v73 (F := F) na)

def fl_main_v82 (na : (⟨S6x128x256, .f32⟩ : BufTy).Contents (Elt F)) : (⟨S128x128, .f32⟩ : BufTy).Contents (Elt F) :=
  ((fun l r => Host.dotGeneral dot_S128x256_S256x128_S128x128_1_0_0_1_n_n none l r) : (⟨S128x256, .f32⟩ : BufTy).Contents (Elt F) → (⟨S256x128, .f32⟩ : BufTy).Contents (Elt F) → (⟨S128x128, .f32⟩ : BufTy).Contents (Elt F)) (fl_main_v73 (F := F) na) (fl_main_v81 (F := F) na)

def fl_main_cst_24 : (⟨S_, .f32⟩ : BufTy).Contents (Elt F) :=
  (constant S_ .f32 0x40000000#32)

def fl_main_v83 : (⟨S128x128, .f32⟩ : BufTy).Contents (Elt F) :=
  (broadcastInDim S128x128 ![] bcast_S_S128x128 : (⟨S_, .f32⟩ : BufTy).Contents (Elt F) → (⟨S128x128, .f32⟩ : BufTy).Contents (Elt F)) (fl_main_cst_24 (F := F))

def fl_main_v84 (na : (⟨S6x128x256, .f32⟩ : BufTy).Contents (Elt F)) : (⟨S128x128, .f32⟩ : BufTy).Contents (Elt F) :=
  (mulf : (⟨S128x128, .f32⟩ : BufTy).Contents (Elt F) → (⟨S128x128, .f32⟩ : BufTy).Contents (Elt F) → (⟨S128x128, .f32⟩ : BufTy).Contents (Elt F)) (fl_main_v83 (F := F)) (fl_main_v82 (F := F) na)

def fl_main_v85 (na : (⟨S6x128x256, .f32⟩ : BufTy).Contents (Elt F)) : (⟨S128x128, .f32⟩ : BufTy).Contents (Elt F) :=
  (subf : (⟨S128x128, .f32⟩ : BufTy).Contents (Elt F) → (⟨S128x128, .f32⟩ : BufTy).Contents (Elt F) → (⟨S128x128, .f32⟩ : BufTy).Contents (Elt F)) (fl_main_v80 (F := F) na) (fl_main_v84 (F := F) na)

def fl_main_v86 : (⟨S128x128, .i32⟩ : BufTy).Contents (Elt F) :=
  (iotaInDim S128x128 32 0)

def fl_main_v87 : (⟨S128x128, .i32⟩ : BufTy).Contents (Elt F) :=
  (iotaInDim S128x128 32 1)

def fl_main_c_25 : (⟨S_, .i32⟩ : BufTy).Contents (Elt F) :=
  (constantI S_ 32 0#32)

def fl_main_v88 : (⟨S128x128, .i32⟩ : BufTy).Contents (Elt F) :=
  (broadcastInDim S128x128 ![] bcast_S_S128x128 : (⟨S_, .i32⟩ : BufTy).Contents (Elt F) → (⟨S128x128, .i32⟩ : BufTy).Contents (Elt F)) (fl_main_c_25 (F := F))

def fl_main_v89 : (⟨S128x128, .i32⟩ : BufTy).Contents (Elt F) :=
  (addi : (⟨S128x128, .i32⟩ : BufTy).Contents (Elt F) → (⟨S128x128, .i32⟩ : BufTy).Contents (Elt F) → (⟨S128x128, .i32⟩ : BufTy).Contents (Elt F)) (fl_main_v86 (F := F)) (fl_main_v88 (F := F))

def fl_main_v90 : (⟨S128x128, .i1⟩ : BufTy).Contents (Elt F) :=
  (cmpi .eq : (⟨S128x128, .i32⟩ : BufTy).Contents (Elt F) → (⟨S128x128, .i32⟩ : BufTy).Contents (Elt F) → (⟨S128x128, .i1⟩ : BufTy).Contents (Elt F)) (fl_main_v89 (F := F)) (fl_main_v87 (F := F))

def fl_main_v91 : (⟨S128x128, .i1⟩ : BufTy).Contents (Elt F) :=
  (noti : (⟨S128x128, .i1⟩ : BufTy).Contents (Elt F) → (⟨S128x128, .i1⟩ : BufTy).Contents (Elt F)) (fl_main_v90 (F := F))

def fl_main_cst_26 : (⟨S_, .f32⟩ : BufTy).Contents (Elt F) :=
  (constant S_ .f32 0x2B8CBCCC#32)

def fl_main_v92 : (⟨S128x128, .f32⟩ : BufTy).Contents (Elt F) :=
  (broadcastInDim S128x128 ![] bcast_S_S128x128 : (⟨S_, .f32⟩ : BufTy).Contents (Elt F) → (⟨S128x128, .f32⟩ : BufTy).Contents (Elt F)) (fl_main_cst_26 (F := F))

def fl_main_v93 (na : (⟨S6x128x256, .f32⟩ : BufTy).Contents (Elt F)) : (⟨S128x128, .f32⟩ : BufTy).Contents (Elt F) :=
  (maximumf : (⟨S128x128, .f32⟩ : BufTy).Contents (Elt F) → (⟨S128x128, .f32⟩ : BufTy).Contents (Elt F) → (⟨S128x128, .f32⟩ : BufTy).Contents (Elt F)) (fl_main_v85 (F := F) na) (fl_main_v92 (F := F))

def fl_main_cst_27 : (⟨S_, .f32⟩ : BufTy).Contents (Elt F) :=
  (constant S_ .f32 0x3F800000#32)

def fl_main_call3_v0 : (⟨S_, .f32⟩ : BufTy).Contents (Elt F) :=
  id (fl_main_cst_27 (F := F))

def fl_main_call3_v1 : (⟨S128x128, .f32⟩ : BufTy).Contents (Elt F) :=
  (broadcastInDim S128x128 ![] bcast_S_S128x128) (fl_main_call3_v0 (F := F))

def fl_main_v94 (na : (⟨S6x128x256, .f32⟩ : BufTy).Contents (Elt F)) : (⟨S128x128, .f32⟩ : BufTy).Contents (Elt F) :=
  select (fl_main_v91 (F := F)) (fl_main_v93 (F := F) na) (fl_main_call3_v1 (F := F))

def fl_main_v95 (na : (⟨S6x128x256, .f32⟩ : BufTy).Contents (Elt F)) : (⟨S128x128, .f32⟩ : BufTy).Contents (Elt F) :=
  (Host.sqrt : (⟨S128x128, .f32⟩ : BufTy).Contents (Elt F) → (⟨S128x128, .f32⟩ : BufTy).Contents (Elt F)) (fl_main_v94 (F := F) na)

def fl_main_cst_28 : (⟨S_, .f32⟩ : BufTy).Contents (Elt F) :=
  (constant S_ .f32 0x3F800000#32)

def fl_main_v96 : (⟨S128x128, .f32⟩ : BufTy).Contents (Elt F) :=
  (broadcastInDim S128x128 ![] bcast_S_S128x128 : (⟨S_, .f32⟩ : BufTy).Contents (Elt F) → (⟨S128x128, .f32⟩ : BufTy).Contents (Elt F)) (fl_main_cst_28 (F := F))

def fl_main_v97 (na : (⟨S6x128x256, .f32⟩ : BufTy).Contents (Elt F)) : (⟨S128x128, .f32⟩ : BufTy).Contents (Elt F) :=
  (subf : (⟨S128x128, .f32⟩ : BufTy).Contents (Elt F) → (⟨S128x128, .f32⟩ : BufTy).Contents (Elt F) → (⟨S128x128, .f32⟩ : BufTy).Contents (Elt F)) (fl_main_v96 (F := F)) (fl_main_v95 (F := F) na)

def fl_main_call4_cst : (⟨S_, .f32⟩ : BufTy).Contents (Elt F) :=
  (constant S_ .f32 0x00000000#32)

def fl_main_call4_v0 : (⟨S128x128, .f32⟩ : BufTy).Contents (Elt F) :=
  (broadcastInDim S128x128 ![] bcast_S_S128x128) (fl_main_call4_cst (F := F))

def fl_main_v98 (na : (⟨S6x128x256, .f32⟩ : BufTy).Contents (Elt F)) : (⟨S128x128, .f32⟩ : BufTy).Contents (Elt F) :=
  maximumf (fl_main_v97 (F := F) na) (fl_main_call4_v0 (F := F))

def fl_main_cst_29 : (⟨S_, .f32⟩ : BufTy).Contents (Elt F) :=
  (constant S_ .f32 0x00000000#32)

def fl_main_call5_v0 : (⟨S_, .f32⟩ : BufTy).Contents (Elt F) :=
  id (fl_main_cst_29 (F := F))

def fl_main_call5_v1 : (⟨S128x128, .f32⟩ : BufTy).Contents (Elt F) :=
  (broadcastInDim S128x128 ![] bcast_S_S128x128) (fl_main_call5_v0 (F := F))

def fl_main_v99 (na : (⟨S6x128x256, .f32⟩ : BufTy).Contents (Elt F)) : (⟨S128x128, .f32⟩ : BufTy).Contents (Elt F) :=
  select (fl_main_v91 (F := F)) (fl_main_v98 (F := F) na) (fl_main_call5_v1 (F := F))

def fl_main_cst_30 : (⟨S_, .f32⟩ : BufTy).Contents (Elt F) :=
  (constant S_ .f32 0x00000000#32)

def fl_main_v100 (na : (⟨S6x128x256, .f32⟩ : BufTy).Contents (Elt F)) : (⟨S_, .f32⟩ : BufTy).Contents (Elt F) :=
  ((fun x v => Host.reduceAdd x v reducesTo_S128x128_S_d0_1 h_S_) : (⟨S128x128, .f32⟩ : BufTy).Contents (Elt F) → (⟨S_, .f32⟩ : BufTy).Contents (Elt F) → (⟨S_, .f32⟩ : BufTy).Contents (Elt F)) (fl_main_v99 (F := F) na) (fl_main_cst_30 (F := F))

def fl_main_cst_31 : (⟨S_, .f32⟩ : BufTy).Contents (Elt F) :=
  (constant S_ .f32 0x467E0000#32)

def fl_main_v101 (na : (⟨S6x128x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (fl_main_v100 (F := F) na) (fl_main_cst_31 (F := F))

def fl_main_v102 (na : (⟨S6x128x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (fl_main_v70 (F := F) na) (fl_main_v101 (F := F) na)

def fl_main_cst_32 : (⟨S_, .f32⟩ : BufTy).Contents (Elt F) :=
  (constant S_ .f32 0x00000000#32)

def fl_main_v103 (nm : (⟨S6x256, .f32⟩ : BufTy).Contents (Elt F)) : (⟨S256, .f32⟩ : BufTy).Contents (Elt F) :=
  ((fun x v => Host.reduceAdd x v reducesTo_S6x256_S256_d0 h_S_) : (⟨S6x256, .f32⟩ : BufTy).Contents (Elt F) → (⟨S_, .f32⟩ : BufTy).Contents (Elt F) → (⟨S256, .f32⟩ : BufTy).Contents (Elt F)) nm (fl_main_cst_32 (F := F))

def fl_main_cst_33 : (⟨S_, .f32⟩ : BufTy).Contents (Elt F) :=
  (constant S_ .f32 0x40C00000#32)

def fl_main_v104 : (⟨S256, .f32⟩ : BufTy).Contents (Elt F) :=
  (broadcastInDim S256 ![] bcast_S_S256 : (⟨S_, .f32⟩ : BufTy).Contents (Elt F) → (⟨S256, .f32⟩ : BufTy).Contents (Elt F)) (fl_main_cst_33 (F := F))

def fl_main_v105 (nm : (⟨S6x256, .f32⟩ : BufTy).Contents (Elt F)) : (⟨S256, .f32⟩ : BufTy).Contents (Elt F) :=
  (Host.divf : (⟨S256, .f32⟩ : BufTy).Contents (Elt F) → (⟨S256, .f32⟩ : BufTy).Contents (Elt F) → (⟨S256, .f32⟩ : BufTy).Contents (Elt F)) (fl_main_v103 (F := F) nm) (fl_main_v104 (F := F))

def fl_main_cst_34 : (⟨S_, .f32⟩ : BufTy).Contents (Elt F) :=
  (constant S_ .f32 0x00000000#32)

def fl_main_v106 (nv : (⟨S6x256, .f32⟩ : BufTy).Contents (Elt F)) : (⟨S256, .f32⟩ : BufTy).Contents (Elt F) :=
  ((fun x v => Host.reduceAdd x v reducesTo_S6x256_S256_d0 h_S_) : (⟨S6x256, .f32⟩ : BufTy).Contents (Elt F) → (⟨S_, .f32⟩ : BufTy).Contents (Elt F) → (⟨S256, .f32⟩ : BufTy).Contents (Elt F)) nv (fl_main_cst_34 (F := F))

def fl_main_cst_35 : (⟨S_, .f32⟩ : BufTy).Contents (Elt F) :=
  (constant S_ .f32 0x40C00000#32)

def fl_main_v107 : (⟨S256, .f32⟩ : BufTy).Contents (Elt F) :=
  (broadcastInDim S256 ![] bcast_S_S256 : (⟨S_, .f32⟩ : BufTy).Contents (Elt F) → (⟨S256, .f32⟩ : BufTy).Contents (Elt F)) (fl_main_cst_35 (F := F))

def fl_main_v108 (nv : (⟨S6x256, .f32⟩ : BufTy).Contents (Elt F)) : (⟨S256, .f32⟩ : BufTy).Contents (Elt F) :=
  (Host.divf : (⟨S256, .f32⟩ : BufTy).Contents (Elt F) → (⟨S256, .f32⟩ : BufTy).Contents (Elt F) → (⟨S256, .f32⟩ : BufTy).Contents (Elt F)) (fl_main_v106 (F := F) nv) (fl_main_v107 (F := F))

def fl_main_v109 (nm : (⟨S6x256, .f32⟩ : BufTy).Contents (Elt F)) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) (fl_main_v105 (F := F) nm)

def fl_main_v110 (nm : (⟨S6x256, .f32⟩ : BufTy).Contents (Elt F)) : (⟨S6x256, .f32⟩ : BufTy).Contents (Elt F) :=
  (broadcastInDim S6x256 ![0, 1] bcast_S1x256_S6x256_0_1 : (⟨S1x256, .f32⟩ : BufTy).Contents (Elt F) → (⟨S6x256, .f32⟩ : BufTy).Contents (Elt F)) (fl_main_v109 (F := F) nm)

def fl_main_v111 (nm : (⟨S6x256, .f32⟩ : BufTy).Contents (Elt F)) : (⟨S6x256, .f32⟩ : BufTy).Contents (Elt F) :=
  (subf : (⟨S6x256, .f32⟩ : BufTy).Contents (Elt F) → (⟨S6x256, .f32⟩ : BufTy).Contents (Elt F) → (⟨S6x256, .f32⟩ : BufTy).Contents (Elt F)) nm (fl_main_v110 (F := F) nm)

def fl_main_v112 (nm : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fl_main_v111 (F := F) nm) (fl_main_v111 (F := F) nm)

def fl_main_cst_36 : (⟨S_, .f32⟩ : BufTy).Contents (Elt F) :=
  (constant S_ .f32 0x00000000#32)

def fl_main_v113 (nm : (⟨S6x256, .f32⟩ : BufTy).Contents (Elt F)) : (⟨S_, .f32⟩ : BufTy).Contents (Elt F) :=
  ((fun x v => Host.reduceAdd x v reducesTo_S6x256_S_d0_1 h_S_) : (⟨S6x256, .f32⟩ : BufTy).Contents (Elt F) → (⟨S_, .f32⟩ : BufTy).Contents (Elt F) → (⟨S_, .f32⟩ : BufTy).Contents (Elt F)) (fl_main_v112 (F := F) nm) (fl_main_cst_36 (F := F))

def fl_main_cst_37 : (⟨S_, .f32⟩ : BufTy).Contents (Elt F) :=
  (constant S_ .f32 0x44C00000#32)

def fl_main_v114 (nm : (⟨S6x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (fl_main_v113 (F := F) nm) (fl_main_cst_37 (F := F))

def fl_main_v115 (nv : (⟨S6x256, .f32⟩ : BufTy).Contents (Elt F)) : (⟨S1x256, .f32⟩ : BufTy).Contents (Elt F) :=
  (broadcastInDim S1x256 ![1] bcast_S256_S1x256_1 : (⟨S256, .f32⟩ : BufTy).Contents (Elt F) → (⟨S1x256, .f32⟩ : BufTy).Contents (Elt F)) (fl_main_v108 (F := F) nv)

def fl_main_v116 (nv : (⟨S6x256, .f32⟩ : BufTy).Contents (Elt F)) : (⟨S6x256, .f32⟩ : BufTy).Contents (Elt F) :=
  (broadcastInDim S6x256 ![0, 1] bcast_S1x256_S6x256_0_1 : (⟨S1x256, .f32⟩ : BufTy).Contents (Elt F) → (⟨S6x256, .f32⟩ : BufTy).Contents (Elt F)) (fl_main_v115 (F := F) nv)

def fl_main_v117 (nv : (⟨S6x256, .f32⟩ : BufTy).Contents (Elt F)) : (⟨S6x256, .f32⟩ : BufTy).Contents (Elt F) :=
  (subf : (⟨S6x256, .f32⟩ : BufTy).Contents (Elt F) → (⟨S6x256, .f32⟩ : BufTy).Contents (Elt F) → (⟨S6x256, .f32⟩ : BufTy).Contents (Elt F)) nv (fl_main_v116 (F := F) nv)

def fl_main_v118 (nv : (⟨S6x256, .f32⟩ : BufTy).Contents (Elt F)) : (⟨S6x256, .f32⟩ : BufTy).Contents (Elt F) :=
  (mulf : (⟨S6x256, .f32⟩ : BufTy).Contents (Elt F) → (⟨S6x256, .f32⟩ : BufTy).Contents (Elt F) → (⟨S6x256, .f32⟩ : BufTy).Contents (Elt F)) (fl_main_v117 (F := F) nv) (fl_main_v117 (F := F) nv)

def fl_main_cst_38 : (⟨S_, .f32⟩ : BufTy).Contents (Elt F) :=
  (constant S_ .f32 0x00000000#32)

def fl_main_v119 (nv : (⟨S6x256, .f32⟩ : BufTy).Contents (Elt F)) : (⟨S_, .f32⟩ : BufTy).Contents (Elt F) :=
  ((fun x v => Host.reduceAdd x v reducesTo_S6x256_S_d0_1 h_S_) : (⟨S6x256, .f32⟩ : BufTy).Contents (Elt F) → (⟨S_, .f32⟩ : BufTy).Contents (Elt F) → (⟨S_, .f32⟩ : BufTy).Contents (Elt F)) (fl_main_v118 (F := F) nv) (fl_main_cst_38 (F := F))

def fl_main_cst_39 : (⟨S_, .f32⟩ : BufTy).Contents (Elt F) :=
  (constant S_ .f32 0x44C00000#32)

def fl_main_v120 (nv : (⟨S6x256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (fl_main_v119 (F := F) nv) (fl_main_cst_39 (F := F))

def fl_main_v127 (mm : (⟨S256, .f32⟩ : BufTy).Contents (Elt F)) : (⟨S256, .f32⟩ : BufTy).Contents (Elt F) :=
  (mulf : (⟨S256, .f32⟩ : BufTy).Contents (Elt F) → (⟨S256, .f32⟩ : BufTy).Contents (Elt F) → (⟨S256, .f32⟩ : BufTy).Contents (Elt F)) mm mm

def fl_main_v128 (mm : (⟨S256, .f32⟩ : BufTy).Contents (Elt F)) (mq : (⟨S256, .f32⟩ : BufTy).Contents (Elt F)) : (⟨S256, .f32⟩ : BufTy).Contents (Elt F) :=
  (subf : (⟨S256, .f32⟩ : BufTy).Contents (Elt F) → (⟨S256, .f32⟩ : BufTy).Contents (Elt F) → (⟨S256, .f32⟩ : BufTy).Contents (Elt F)) mq (fl_main_v127 (F := F) mm)

def fl_main_v129 (nm : (⟨S6x256, .f32⟩ : BufTy).Contents (Elt F)) (mm : (⟨S256, .f32⟩ : BufTy).Contents (Elt F)) : (⟨S256, .f32⟩ : BufTy).Contents (Elt F) :=
  (subf : (⟨S256, .f32⟩ : BufTy).Contents (Elt F) → (⟨S256, .f32⟩ : BufTy).Contents (Elt F) → (⟨S256, .f32⟩ : BufTy).Contents (Elt F)) mm (fl_main_v105 (F := F) nm)

def fl_main_v130 (nm : (⟨S6x256, .f32⟩ : BufTy).Contents (Elt F)) (mm : (⟨S256, .f32⟩ : BufTy).Contents (Elt F)) : (⟨S256, .f32⟩ : BufTy).Contents (Elt F) :=
  (mulf : (⟨S256, .f32⟩ : BufTy).Contents (Elt F) → (⟨S256, .f32⟩ : BufTy).Contents (Elt F) → (⟨S256, .f32⟩ : BufTy).Contents (Elt F)) (fl_main_v129 (F := F) nm mm) (fl_main_v129 (F := F) nm mm)

def fl_main_cst_44 : (⟨S_, .f32⟩ : BufTy).Contents (Elt F) :=
  (constant S_ .f32 0x00000000#32)

def fl_main_v131 (nm : (⟨S6x256, .f32⟩ : BufTy).Contents (Elt F)) (mm : (⟨S256, .f32⟩ : BufTy).Contents (Elt F)) : (⟨S_, .f32⟩ : BufTy).Contents (Elt F) :=
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)) (fl_main_v130 (F := F) nm mm) (fl_main_cst_44 (F := F))

def fl_main_cst_45 : (⟨S_, .f32⟩ : BufTy).Contents (Elt F) :=
  (constant S_ .f32 0x43800000#32)

def fl_main_v132 (nm : (⟨S6x256, .f32⟩ : BufTy).Contents (Elt F)) (mm : (⟨S256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (fl_main_v131 (F := F) nm mm) (fl_main_cst_45 (F := F))

def fl_main_v133 (nv : (⟨S6x256, .f32⟩ : BufTy).Contents (Elt F)) (mm : (⟨S256, .f32⟩ : BufTy).Contents (Elt F)) (mq : (⟨S256, .f32⟩ : BufTy).Contents (Elt F)) : (⟨S256, .f32⟩ : BufTy).Contents (Elt F) :=
  (subf : (⟨S256, .f32⟩ : BufTy).Contents (Elt F) → (⟨S256, .f32⟩ : BufTy).Contents (Elt F) → (⟨S256, .f32⟩ : BufTy).Contents (Elt F)) (fl_main_v128 (F := F) mm mq) (fl_main_v108 (F := F) nv)

def fl_main_v134 (nv : (⟨S6x256, .f32⟩ : BufTy).Contents (Elt F)) (mm : (⟨S256, .f32⟩ : BufTy).Contents (Elt F)) (mq : (⟨S256, .f32⟩ : BufTy).Contents (Elt F)) : (⟨S256, .f32⟩ : BufTy).Contents (Elt F) :=
  (mulf : (⟨S256, .f32⟩ : BufTy).Contents (Elt F) → (⟨S256, .f32⟩ : BufTy).Contents (Elt F) → (⟨S256, .f32⟩ : BufTy).Contents (Elt F)) (fl_main_v133 (F := F) nv mm mq) (fl_main_v133 (F := F) nv mm mq)

def fl_main_cst_46 : (⟨S_, .f32⟩ : BufTy).Contents (Elt F) :=
  (constant S_ .f32 0x00000000#32)

def fl_main_v135 (nv : (⟨S6x256, .f32⟩ : BufTy).Contents (Elt F)) (mm : (⟨S256, .f32⟩ : BufTy).Contents (Elt F)) (mq : (⟨S256, .f32⟩ : BufTy).Contents (Elt F)) : (⟨S_, .f32⟩ : BufTy).Contents (Elt F) :=
  ((fun x v => Host.reduceAdd x v reducesTo_S256_S_d0 h_S_) : (⟨S256, .f32⟩ : BufTy).Contents (Elt F) → (⟨S_, .f32⟩ : BufTy).Contents (Elt F) → (⟨S_, .f32⟩ : BufTy).Contents (Elt F)) (fl_main_v134 (F := F) nv mm mq) (fl_main_cst_46 (F := F))

def fl_main_cst_47 : (⟨S_, .f32⟩ : BufTy).Contents (Elt F) :=
  (constant S_ .f32 0x43800000#32)

def fl_main_v136 (nv : (⟨S6x256, .f32⟩ : BufTy).Contents (Elt F)) (mm : (⟨S256, .f32⟩ : BufTy).Contents (Elt F)) (mq : (⟨S256, .f32⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (fl_main_v135 (F := F) nv mm mq) (fl_main_cst_47 (F := F))

def fl_main_v137 (nm : (⟨S6x256, .f32⟩ : BufTy).Contents (Elt F)) (nv : (⟨S6x256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (fl_main_v114 (F := F) nm) (fl_main_v120 (F := F) nv)

def fl_main_v138 (nm : (⟨S6x256, .f32⟩ : BufTy).Contents (Elt F)) (nv : (⟨S6x256, .f32⟩ : BufTy).Contents (Elt F)) (mm : (⟨S256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (fl_main_v137 (F := F) nm nv) (fl_main_v132 (F := F) nm mm)

def fl_main_v139 (nm : (⟨S6x256, .f32⟩ : BufTy).Contents (Elt F)) (nv : (⟨S6x256, .f32⟩ : BufTy).Contents (Elt F)) (mm : (⟨S256, .f32⟩ : BufTy).Contents (Elt F)) (mq : (⟨S256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (fl_main_v138 (F := F) nm nv mm) (fl_main_v136 (F := F) nv mm mq)

def fl_main_v140 (na : (⟨S6x128x256, .f32⟩ : BufTy).Contents (Elt F)) (nm : (⟨S6x256, .f32⟩ : BufTy).Contents (Elt F)) (nv : (⟨S6x256, .f32⟩ : BufTy).Contents (Elt F)) (mm : (⟨S256, .f32⟩ : BufTy).Contents (Elt F)) (mq : (⟨S256, .f32⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (fl_main_v102 (F := F) na) (fl_main_v139 (F := F) nm nv mm mq)

end Cert.KernelIdeal.TailFn

end
-- ==== Proof.Cut.TailK.lean ====
/-
  The host lines after the region, run from any contents W of the buffers: each of the four results is the staged
  function of what W holds at the two partial-sum arrays, the segment-id column and the three table arguments; and each
  staged function factors through the values at which the two programs meet.
-/
import proofs.«413714_j12455405158619_3_alg».proof.Proof.KI.Kit
import proofs.«413714_j12455405158619_3_alg».proof.Proof.TailFn
import Idealize.ShloMosaic.Lib.StableHlo.Run

noncomputable section

namespace Cert.KernelIdeal.TailK

open Cert.KernelIdeal Cert.KernelIdeal.Gen Cert.KernelIdeal.Fr Cert.KernelIdeal.TailFn
open Idealize.ShloMosaic Idealize.ShloMosaic.TcCoe Idealize.SL.Sem Idealize.ShloMosaic.StableHlo

variable {F : FTy → Type} [FloatOps F]

/-! ## The four results after the later lines -/

set_option maxRecDepth 8192 in
set_option maxHeartbeats 4000000 in
theorem after_v28 (W : Valuation τ sig (Elt F)) :
    StableHlo.after (tailOps (F := F)).flatten W (Proc.devRef .tc main_v28)
      = kv_main_v28 (F := F) (W (Proc.devRef .tc main_v5_0)) (W (Proc.devRef .tc main_v3)) (W (Proc.devRef .tc main_arg1)) := by
  simp only [tailOps, hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  after_results_simp
  rfl

set_option maxRecDepth 8192 in
set_option maxHeartbeats 8000000 in
theorem after_v55 (W : Valuation τ sig (Elt F)) :
    StableHlo.after (tailOps (F := F)).flatten W (Proc.devRef .tc main_v55)
      = kv_main_v55 (F := F) (W (Proc.devRef .tc main_v5_0)) (W (Proc.devRef .tc main_v3)) (W (Proc.devRef .tc main_arg2)) := by
  simp only [tailOps, hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  after_results_simp
  rfl

set_option maxRecDepth 8192 in
set_option maxHeartbeats 8000000 in
theorem after_v61 (W : Valuation τ sig (Elt F)) :
    StableHlo.after (tailOps (F := F)).flatten W (Proc.devRef .tc main_v61)
      = kv_main_v61 (F := F) (W (Proc.devRef .tc main_v5_0)) (W (Proc.devRef .tc main_v5_1)) (W (Proc.devRef .tc main_v3)) (W (Proc.devRef .tc main_arg3)) := by
  simp only [tailOps, hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  after_results_simp
  rfl

set_option maxRecDepth 8192 in
set_option maxHeartbeats 80000000 in
theorem after_v140 (W : Valuation τ sig (Elt F)) :
    StableHlo.after (tailOps (F := F)).flatten W (Proc.devRef .tc main_v140)
      = kv_main_v140 (F := F) (W (Proc.devRef .tc main_v5_0)) (W (Proc.devRef .tc main_v5_1)) (W (Proc.devRef .tc main_v3))
          (W (Proc.devRef .tc main_arg1)) (W (Proc.devRef .tc main_arg2)) (W (Proc.devRef .tc main_arg3)) := by
  simp only [tailOps, hostOps1, hostOps1_1, hostOps1_2, hostOps1_3, hostOps1_4, hostOps1_5, hostOps1_6, hostOps1_7, hostOps1_8, hostOps1_9, hostOps1_10, hostOps1_11, hostOps1_12, List.flatten_cons, List.flatten_nil, List.append_nil, List.cons_append, List.nil_append]
  after_results_simp
  rfl

/-! ## The staged functions through the meeting values -/

variable (p3 : (⟨S2x768x256, .f32⟩ : BufTy).Contents (Elt F)) (p4 : (⟨S2x8x256, .f32⟩ : BufTy).Contents (Elt F)) (sg : (⟨S524288x1, .i32⟩ : BufTy).Contents (Elt F))
  (x1 : (⟨S6x128x256, .f32⟩ : BufTy).Contents (Elt F)) (x2 x3 : (⟨S6x256, .f32⟩ : BufTy).Contents (Elt F))

theorem kv28_eq : kv_main_v28 (F := F) p3 sg x1
    = fa_main_v28 (F := F) (kv_main_v6 (F := F) p3) (kv_main_v16 (F := F) sg) (kv_main_v21 (F := F) sg) x1 := by
  rfl

theorem kv55_eq : kv_main_v55 (F := F) p3 sg x2
    = fm_main_v55 (F := F) (kv_main_v30 (F := F) p3) (kv_main_v35 (F := F) sg) (kv_main_v49 (F := F) sg) x2 := by
  rfl

theorem kv61_eq : kv_main_v61 (F := F) p3 p4 sg x3
    = fv_main_v61 (F := F) (kv_main_v30 (F := F) p3) (kv_main_v8 (F := F) p4) (kv_main_v35 (F := F) sg) (kv_main_v45 (F := F) sg) (kv_main_v49 (F := F) sg) x3 := by
  rfl

theorem kv140_eq : kv_main_v140 (F := F) p3 p4 sg x1 x2 x3
    = fl_main_v140 (F := F) (kv_main_v28 (F := F) p3 sg x1) (kv_main_v55 (F := F) p3 sg x2) (kv_main_v61 (F := F) p3 p4 sg x3)
        (kv_main_v124 (F := F) p3) (kv_main_v126 (F := F) p4) := by
  rfl

end Cert.KernelIdeal.TailK

end
-- ==== Proof.KI.Results.lean ====
/-
  The four results of the kernel's program as functions of what the region leaves. After the run every buffer the region
  does not stage holds what the later lines compute from the contents at the region's exit: the two partial-sum arrays at
  their final contents, the segment-id column and the arguments as the region found them. So each result is the staged
  function of those six values.
-/
import proofs.«413714_j12455405158619_3_alg».proof.Proof.KI.Frame
import proofs.«413714_j12455405158619_3_alg».proof.Proof.Cut.TailK

noncomputable section

namespace Cert.KernelIdeal.Fr

open Cert.KernelIdeal Cert.KernelIdeal.Gen Cert.KernelIdeal.TailFn Cert.KernelIdeal.TailK
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- The contents the later lines start from: the region's arrays at their final contents, the rest as the region found it. -/
abbrev Wexit (c : Dev nD) : Valuation τ sig (Elt F) :=
  Pipeline.withArrays (cfgs 0).spec c (V0 m c) fun w => (dats m 0 c).arrAt w (cfgs 0).N

theorem Wexit_p3 (c : Dev nD) : Wexit m c (Proc.devRef .tc main_v5_0) = (dats m 0 c).arrAt 3 cfg0.N :=
  Pipeline.withArrays_arr (cfgs 0).spec launch0.win.arr_inj c (V0 m c) (fun w => (dats m 0 c).arrAt w (cfgs 0).N) 3

theorem Wexit_p4 (c : Dev nD) : Wexit m c (Proc.devRef .tc main_v5_1) = (dats m 0 c).arrAt 4 cfg0.N :=
  Pipeline.withArrays_arr (cfgs 0).spec launch0.win.arr_inj c (V0 m c) (fun w => (dats m 0 c).arrAt w (cfgs 0).N) 4

theorem Wexit_sg (c : Dev nD) : Wexit m c (Proc.devRef .tc main_v3) = V m c main_v3 :=
  (Pipeline.withArrays_arr (cfgs 0).spec launch0.win.arr_inj c (V0 m c) (fun w => (dats m 0 c).arrAt w (cfgs 0).N) 0).trans
    (((dats m 0 c).arrAt_in 0 rfl _).trans (A_eq m c 0))

theorem Wexit_arg (c : Dev nD) (r : Ref sig .tc) (hr : r ∈ [main_arg1, main_arg2, main_arg3]) :
    Wexit m c (Proc.devRef .tc r) = m ((c : Thread nD τ).loc r) := by
  have ha : r ∈ [main_arg0, main_arg1, main_arg2, main_arg3, main_arg4, main_arg5] := by
    revert hr; simp only [List.mem_cons, List.mem_nil_iff, or_false]; tauto
  have hne : ∀ w, Pipeline.arrRef spec0 w ≠ r := by
    intro w e; subst e; revert hr; fin_cases w <;> decide
  exact (Pipeline.withArrays_of_ne _ c (V0 m c) _ r hne).trans (V_arg m c r ha)

/-- The updated anchors. -/
theorem result_v28 (c : Dev nD) (r : PUnit × MemSt nD τ sig (Elt F))
    (h : Pipeline.FramePost cfgs (dats m) 0 (Pipeline.afterTail₀ cfgs (dats m) 0 (V0 m) tailOps) r) :
    r.2.mem ((c.tc : Thread nD τ).loc main_v28)
      = kv_main_v28 (F := F) ((dats m 0 c).arrAt 3 cfg0.N) (V m c main_v3) (m ((c : Thread nD τ).loc main_arg1)) := by
  have h1 := (h c).2 main_v28 (Pipeline.mem_restRefs_of main_v28 (by decide) (by decide))
  refine (h1.trans (after_v28 (Wexit m c))).trans ?_
  rw [Wexit_p3, Wexit_sg, Wexit_arg m c main_arg1 (by decide)]

/-- The updated means. -/
theorem result_v55 (c : Dev nD) (r : PUnit × MemSt nD τ sig (Elt F))
    (h : Pipeline.FramePost cfgs (dats m) 0 (Pipeline.afterTail₀ cfgs (dats m) 0 (V0 m) tailOps) r) :
    r.2.mem ((c.tc : Thread nD τ).loc main_v55)
      = kv_main_v55 (F := F) ((dats m 0 c).arrAt 3 cfg0.N) (V m c main_v3) (m ((c : Thread nD τ).loc main_arg2)) := by
  have h1 := (h c).2 main_v55 (Pipeline.mem_restRefs_of main_v55 (by decide) (by decide))
  refine (h1.trans (after_v55 (Wexit m c))).trans ?_
  rw [Wexit_p3, Wexit_sg, Wexit_arg m c main_arg2 (by decide)]

/-- The updated variances. -/
theorem result_v61 (c : Dev nD) (r : PUnit × MemSt nD τ sig (Elt F))
    (h : Pipeline.FramePost cfgs (dats m) 0 (Pipeline.afterTail₀ cfgs (dats m) 0 (V0 m) tailOps) r) :
    r.2.mem ((c.tc : Thread nD τ).loc main_v61)
      = kv_main_v61 (F := F) ((dats m 0 c).arrAt 3 cfg0.N) ((dats m 0 c).arrAt 4 cfg0.N) (V m c main_v3) (m ((c : Thread nD τ).loc main_arg3)) := by
  have h1 := (h c).2 main_v61 (Pipeline.mem_restRefs_of main_v61 (by decide) (by decide))
  refine (h1.trans (after_v61 (Wexit m c))).trans ?_
  rw [Wexit_p3, Wexit_p4, Wexit_sg, Wexit_arg m c main_arg3 (by decide)]

/-- The loss. -/
theorem result_v140 (c : Dev nD) (r : PUnit × MemSt nD τ sig (Elt F))
    (h : Pipeline.FramePost cfgs (dats m) 0 (Pipeline.afterTail₀ cfgs (dats m) 0 (V0 m) tailOps) r) :
    r.2.mem ((c.tc : Thread nD τ).loc main_v140)
      = kv_main_v140 (F := F) ((dats m 0 c).arrAt 3 cfg0.N) ((dats m 0 c).arrAt 4 cfg0.N) (V m c main_v3)
          (m ((c : Thread nD τ).loc main_arg1)) (m ((c : Thread nD τ).loc main_arg2)) (m ((c : Thread nD τ).loc main_arg3)) := by
  have h1 := (h c).2 main_v140 (Pipeline.mem_restRefs_of main_v140 (by decide) (by decide))
  refine (h1.trans (after_v140 (Wexit m c))).trans ?_
  rw [Wexit_p3, Wexit_p4, Wexit_sg, Wexit_arg m c main_arg1 (by decide), Wexit_arg m c main_arg2 (by decide), Wexit_arg m c main_arg3 (by decide)]

end Cert.KernelIdeal.Fr

end
-- ==== Proof.Cut.TailR.lean ====
/-
  The reference's results factor through the same meeting values by the same staged functions: from the segment sums,
  the clamped counts and the count tests on, the reference applies line for line the operations the kernel's program
  applies after its region.
-/
import proofs.«413714_j12455405158619_3_alg».proof.Proof.RefRead
import proofs.«413714_j12455405158619_3_alg».proof.Proof.TailFn

noncomputable section

namespace Cert.ReferenceIdeal.TailR

open Cert.ReferenceIdeal Cert.ReferenceIdeal.ReadP Cert.KernelIdeal.TailFn
open Idealize.ShloMosaic

variable {F : FTy → Type} [FloatOps F]

variable (x0 : (⟨S524288x256, .f32⟩ : BufTy).Contents (Elt F)) (x1 : (⟨S6x128x256, .f32⟩ : BufTy).Contents (Elt F)) (x2 x3 : (⟨S6x256, .f32⟩ : BufTy).Contents (Elt F)) (x4 x5 : (⟨S524288, .i32⟩ : BufTy).Contents (Elt F))

theorem rv24_eq : val_main_v24 (F := F) x0 x1 x4 x5
    = fa_main_v28 (F := F) (val_main_v5 (F := F) x0 x4 x5) (val_main_v12 (F := F) x4 x5) (val_main_v17 (F := F) x4 x5) x1 := by
  rfl

theorem rv60_eq : val_main_v60 (F := F) x0 x2 x5
    = fm_main_v55 (F := F) (val_main_v27 (F := F) x0 x5) (val_main_v38 (F := F) x5) (val_main_v54 (F := F) x5) x2 := by
  rfl

theorem rv66_eq : val_main_v66 (F := F) x0 x3 x5
    = fv_main_v61 (F := F) (val_main_v27 (F := F) x0 x5) (val_main_v31 (F := F) x0 x5) (val_main_v38 (F := F) x5) (val_main_v49 (F := F) x5) (val_main_v54 (F := F) x5) x3 := by
  rfl

set_option maxRecDepth 8192 in
set_option maxHeartbeats 4000000 in
theorem rv146_eq : val_main_v146 (F := F) x0 x1 x2 x3 x4 x5
    = fl_main_v140 (F := F) (val_main_v24 (F := F) x0 x1 x4 x5) (val_main_v60 (F := F) x0 x2 x5) (val_main_v66 (F := F) x0 x3 x5)
        (val_main_v128 (F := F) x0) (val_main_v132 (F := F) x0) := by
  rfl

end Cert.ReferenceIdeal.TailR

end
-- ==== Proof.LibIndexed.lean ====
/-
  Row lookups and accumulating scatters read at an index, and the counting identity that joins them.

  A row lookup `x[idx]` of a table `x : [N, K]` at start words `idx : [R, 1]` reads, at `(e, k)`, column `k` of
  the row the word `idx[e, 0]` names: read signed and clamped into `[0, N − 1]`. An accumulating scatter into a
  vector `[N]`, or into the rows of a table `[N, K]`, at start words `idx : [E, 1]`, lands update `e` at the
  position its word names, read signed and NOT clamped: a word outside `[0, N)` lands nowhere. At the exact
  values such a scatter is the operand plus the sum of the updates that land on the element. Last, a sum of
  counts times values is the sum of the values over the counted things: on the extended reals too, since a
  count is a sum of ones and `(a + b) · x = a · x + b · x` holds for non-negative `a`, `b`.
-/
import Idealize.ShloMosaic.Lib.ValueIdx
import Idealize.ShloMosaic.Lib.ValueIdxRank1
import Idealize.ShloMosaic.PureOps.Ideal
import Idealize.ShloMosaic.PureOps.Ideal.Laws

noncomputable section

namespace Cert.Rgcn.Lib

open Idealize.ShloMosaic Idealize.ShloMosaic.ValueIdx

/-- THE ROW LOOKUP READ AT `(e, k)`. -/
theorem gather_rows_apply {α : Type} {N K R w : Nat} (hN : 0 < N)
    (d : GatherDims ⟨2, ![N, K]⟩ ⟨2, ![R, 1]⟩ ⟨2, ![R, K]⟩)
    (wf : GatherDims.WF ⟨2, ![N, K]⟩ ⟨2, ![R, 1]⟩ ⟨2, ![R, K]⟩ [1] [0] [] [0] [] 1 ![1, K])
    (hd : d = { offsetDims := [1], collapsedSliceDims := [0], operandBatchingDims := [], startIndicesBatchingDims := [], startIndexMap := [0], indexVectorDim := 1, sliceSizes := ![1, K], wf := wf })
    (x : (⟨2, ![N, K]⟩ : Shape).Idx → α) (idx : IVec ⟨2, ![R, 1]⟩ w) (e : Fin R) (k : Fin K) :
    Host.gather d x idx (ix2 e k) = x (ix2 ⟨min (idx (ix2 e (0 : Fin 1))).toInt.toNat (N - 1), by omega⟩ k) := by
  subst hd
  unfold Host.gather
  congr 1
  funext a
  refine Fin.ext ?_
  match a with
  | ⟨0, h0⟩ =>
    -- the row axis: collapsed and named by the start index map, so the coordinate is the clamped start alone
    show GatherDims.start _ (ix2 e k) idx ⟨0, h0⟩ + GatherDims.batchCoord _ (ix2 e k) ⟨0, h0⟩ + GatherDims.offCoord _ (ix2 e k) ⟨0, h0⟩ = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    have hmem : (⟨0, h0⟩ : Fin 2) ∈ ([0] : List (Fin 2)) := List.mem_singleton.mpr rfl
    unfold GatherDims.start
    rw [dif_pos hmem]
    -- the start's word is read at `(e, 0)`
    have hsi : GatherDims.siIdx ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) (ix2 e k)
        ⟨List.idxOf (⟨0, h0⟩ : Fin 2) ([0] : List (Fin 2)), List.idxOf_lt_length_iff.2 hmem⟩ = ix2 e (0 : Fin 1) := by
      funext b; refine Fin.ext ?_
      match b with
      | ⟨0, _⟩ => rfl
      | ⟨1, _⟩ => rfl
    rw [hsi]
    rfl
  | ⟨1, h1⟩ =>
    -- the column axis: not named by the start index map (start 0), kept as the one offset axis (offset `k`)
    show GatherDims.start _ (ix2 e k) idx ⟨1, h1⟩ + GatherDims.batchCoord _ (ix2 e k) ⟨1, h1⟩ + GatherDims.offCoord _ (ix2 e k) ⟨1, h1⟩ = _
    have hne : (⟨1, h1⟩ : Fin 2) ∉ ([0] : List (Fin 2)) := fun h =>
      absurd (Fin.ext_iff.mp (List.mem_singleton.mp h)) Nat.one_ne_zero
    have hkept : (⟨1, h1⟩ : Fin 2) ∈ GatherDims.sKept ({ offsetDims := [1], collapsedSliceDims := [0], operandBatchingDims := [], startIndicesBatchingDims := [], startIndexMap := [0], indexVectorDim := 1, sliceSizes := ![1, K], wf := wf } : GatherDims ⟨2, ![N, K]⟩ ⟨2, ![R, 1]⟩ ⟨2, ![R, K]⟩) :=
      (GatherDims.mem_sKept _ _).mpr ⟨hne, List.not_mem_nil⟩
    rw [GatherDims.batchCoord_eq_zero _ _ _ List.not_mem_nil]
    unfold GatherDims.start
    rw [dif_neg hne]
    unfold GatherDims.offCoord
    rw [dif_pos hkept]
    simp only [Nat.add_zero, Nat.zero_add]
    rfl

/-- Where update `e` of a scatter into a vector lands: at the position its start word names. -/
theorem scatter_vec_resultIdx {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (idx : IVec ⟨2, ![E, 1]⟩ w) (e : Fin E) (n : Fin N) :
    d.resultIdx? (ix1 e) idx = some (ix1 n) ↔ (idx (ix2 e (0 : Fin 1))).toInt = (n.val : ℤ) := by
  -- the start on the one operand axis is the start word read signed
  have hstart : ∀ a, d.start (ix1 e) idx a = (idx (ix2 e (0 : Fin 1))).toInt := by
    intro a
    obtain rfl : a = 0 := Subsingleton.elim _ _
    subst hd
    unfold ScatterDims.start
    rw [dif_pos (List.mem_singleton.mpr rfl)]
    congr 2
    funext b; refine Fin.ext ?_
    match b with
    | ⟨0, _⟩ => rfl
    | ⟨1, _⟩ => rfl
  -- the one operand axis is an inserted axis: its window coordinate is 0
  have hwin : ∀ a, d.window (ix1 e) a = 0 := by
    intro a
    obtain rfl : a = 0 := Subsingleton.elim _ _
    subst hd
    unfold ScatterDims.window
    rw [dif_neg]
    simp [ScatterDims.sKept, Shape.kept]
  have hsz : ∀ a, (⟨1, ![N]⟩ : Shape).size a = N := by
    intro a
    obtain rfl : a = 0 := Subsingleton.elim _ _
    rfl
  have hn := n.isLt
  unfold ScatterDims.resultIdx?
  split
  · rename_i h
    rw [Option.some.injEq]
    constructor
    · intro heq
      have h0 : (d.start (ix1 e) idx 0 + (d.window (ix1 e) 0 : ℤ)).toNat = n.val :=
        congrArg Fin.val (congrFun heq 0)
      have h1 := h 0
      rw [hstart, hwin] at h0 h1
      omega
    · intro heq
      funext a
      obtain rfl : a = 0 := Subsingleton.elim _ _
      refine Fin.ext ?_
      show (d.start (ix1 e) idx 0 + (d.window (ix1 e) 0 : ℤ)).toNat = n.val
      rw [hstart, hwin, heq]
      simp
  · rename_i h
    constructor
    · intro h'; cases h'
    · intro heq
      exfalso; apply h
      intro a
      rw [hstart, hwin, hsz, heq]
      omega

/-- Where update `(e, k')` of a scatter into the rows of a table lands: in the row its start word names, at column `k'`. -/
theorem scatter_rows_resultIdx {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (idx : IVec ⟨2, ![E, 1]⟩ w) (e : Fin E) (k' : Fin K) (n : Fin N) (k : Fin K) :
    d.resultIdx? (ix2 e k') idx = some (ix2 n k) ↔ (idx (ix2 e (0 : Fin 1))).toInt = (n.val : ℤ) ∧ k' = k := by
  -- on the row axis the start is the start word read signed, on the column axis it is 0
  have hstart0 : d.start (ix2 e k') idx 0 = (idx (ix2 e (0 : Fin 1))).toInt := by
    subst hd
    unfold ScatterDims.start
    rw [dif_pos (List.mem_singleton.mpr rfl)]
    congr 2
    funext b; refine Fin.ext ?_
    match b with
    | ⟨0, _⟩ => rfl
    | ⟨1, _⟩ => rfl
  have hstart1 : d.start (ix2 e k') idx 1 = 0 := by
    subst hd
    unfold ScatterDims.start
    rw [dif_neg]
    simp
  -- the row axis is an inserted axis (window coordinate 0); the column axis is the one window axis
  have hwin0 : d.window (ix2 e k') 0 = 0 := by
    subst hd
    unfold ScatterDims.window
    rw [dif_neg]
    simp [ScatterDims.sKept, Shape.kept]
  have hwin1 : d.window (ix2 e k') 1 = k'.val := by
    subst hd
    unfold ScatterDims.window
    rw [dif_pos (by simp [ScatterDims.sKept, Shape.kept])]
    rfl
  have hn := n.isLt
  have hk := k.isLt
  have hk' := k'.isLt
  unfold ScatterDims.resultIdx?
  split
  · rename_i h
    rw [Option.some.injEq]
    constructor
    · intro heq
      have h0 : (d.start (ix2 e k') idx 0 + (d.window (ix2 e k') 0 : ℤ)).toNat = n.val :=
        congrArg Fin.val (congrFun heq 0)
      have h1 : (d.start (ix2 e k') idx 1 + (d.window (ix2 e k') 1 : ℤ)).toNat = k.val :=
        congrArg Fin.val (congrFun heq 1)
      have g0 := h 0
      rw [hstart0, hwin0] at h0 g0
      rw [hstart1, hwin1] at h1
      refine ⟨by omega, Fin.ext (by omega)⟩
    · rintro ⟨heq, rfl⟩
      funext a
      refine Fin.ext ?_
      match a with
      | ⟨0, _⟩ =>
        show (d.start (ix2 e k') idx 0 + (d.window (ix2 e k') 0 : ℤ)).toNat = n.val
        rw [hstart0, hwin0, heq]
        simp
      | ⟨1, _⟩ =>
        show (d.start (ix2 e k') idx 1 + (d.window (ix2 e k') 1 : ℤ)).toNat = k'.val
        rw [hstart1, hwin1]
        simp
  · rename_i h
    constructor
    · intro h'; cases h'
    · rintro ⟨heq, rfl⟩
      exfalso; apply h
      intro a
      match a with
      | ⟨0, _⟩ =>
        show 0 ≤ d.start (ix2 e k') idx 0 + (d.window (ix2 e k') 0 : ℤ) ∧ d.start (ix2 e k') idx 0 + (d.window (ix2 e k') 0 : ℤ) < (N : ℤ)
        rw [hstart0, hwin0, heq]
        omega
      | ⟨1, _⟩ =>
        show 0 ≤ d.start (ix2 e k') idx 1 + (d.window (ix2 e k') 1 : ℤ) ∧ d.start (ix2 e k') idx 1 + (d.window (ix2 e k') 1 : ℤ) < (K : ℤ)
        rw [hstart1, hwin1]
        omega

/-- THE ACCUMULATING SCATTER INTO A VECTOR, at the exact values, read at `n`. -/
theorem scatterAdd_vec_apply {N E w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1)
    (hd : d = { updateWindowDims := [], insertedWindowDims := [0], scatterDimsToOperandDims := [0], indexVectorDim := 1, wf := wf })
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e (0 : Fin 1))).toInt = (n.val : ℤ)), upd (ix1 e) := by
  unfold Host.scatterAdd
  rw [Ideal.hostScatterAdd_def]
  unfold Ideal.hostScatterAdd
  congr 1
  -- both sums as sums of indicator terms, the left one re-indexed by the update's one coordinate
  rw [Finset.sum_filter, Finset.sum_filter, ← Equiv.sum_comp (idxEquiv1 (n := E)).symm]
  refine Finset.sum_congr rfl (fun e _ => ?_)
  show (if d.resultIdx? (ix1 e) idx = some (ix1 n) then upd (ix1 e) else 0) = _
  simp only [scatter_vec_resultIdx d wf hd idx e n]

/-- THE ACCUMULATING SCATTER INTO THE ROWS OF A TABLE, at the exact values, read at `(n, k)`. -/
theorem scatterAdd_rows_apply {N K E w : Nat}
    (d : ScatterDims ⟨2, ![N, K]⟩ ⟨2, ![E, 1]⟩ ⟨2, ![E, K]⟩)
    (wf : ScatterDims.WF ⟨2, ![N, K]⟩ ⟨2, ![E, 1]⟩ ⟨2, ![E, K]⟩ [1] [0] [0] 1)
    (hd : d = { updateWindowDims := [1], insertedWindowDims := [0], scatterDimsToOperandDims := [0], indexVectorDim := 1, wf := wf })
    (x : FVec Ideal ⟨2, ![N, K]⟩ .f32) (idx : IVec ⟨2, ![E, 1]⟩ w) (upd : FVec Ideal ⟨2, ![E, K]⟩ .f32) (n : Fin N) (k : Fin K) :
    Host.scatterAdd (F := Ideal) d x idx upd (ix2 n k)
      = x (ix2 n k) + ∑ e ∈ Finset.univ.filter (fun e : Fin E => (idx (ix2 e (0 : Fin 1))).toInt = (n.val : ℤ)), upd (ix2 e k) := by
  unfold Host.scatterAdd
  rw [Ideal.hostScatterAdd_def]
  unfold Ideal.hostScatterAdd
  congr 1
  -- both sums as sums of indicator terms, the left one as a double sum over the update's two coordinates
  rw [Finset.sum_filter, Finset.sum_filter, sum_idx2]
  refine Finset.sum_congr rfl (fun e _ => ?_)
  simp only [scatter_rows_resultIdx d wf hd idx e _ n k]
  -- the inner sum over the columns keeps the term at column k alone
  by_cases h : (idx (ix2 e (0 : Fin 1))).toInt = (n.val : ℤ)
  · simp only [h, true_and, if_true]
    rw [Finset.sum_ite_eq' Finset.univ k (fun b => upd (ix2 e b))]
    simp
  · simp only [h, false_and, if_false, Finset.sum_const_zero]

/-- COUNTS TIMES VALUES: the sum over `s` of (the number of `e` with `P e` and `src e = s`) times `f s` is the
    sum of `f (src e)` over the `e` with `P e`; on the extended reals, with no finiteness. -/
theorem sum_count_mul {ι σ : Type} [Fintype ι] [Fintype σ] [DecidableEq σ] (P : ι → Prop) [DecidablePred P]
    (src : ι → σ) (f : σ → EReal) :
    (∑ s : σ, (∑ _e ∈ Finset.univ.filter (fun e : ι => P e ∧ src e = s), (1 : EReal)) * f s)
      = ∑ e ∈ Finset.univ.filter P, f (src e) := by
  classical
  -- a count (a sum of ones) times `x` is the sum of `x` over the counted set: the count is non-negative
  have hcount : ∀ (A : Finset ι) (x : EReal), (∑ _e ∈ A, (1 : EReal)) * x = ∑ _e ∈ A, x := by
    intro A x
    induction A using Finset.induction_on with
    | empty => simp
    | insert a s ha ih =>
      rw [Finset.sum_insert ha, Finset.sum_insert ha,
        EReal.right_distrib_of_nonneg zero_le_one (Finset.sum_nonneg (fun _ _ => zero_le_one)), one_mul, ih]
  -- each summand as a sum over all `e` of an indicator, then exchange the two sums
  have h1 : ∀ s : σ, (∑ _e ∈ Finset.univ.filter (fun e : ι => P e ∧ src e = s), (1 : EReal)) * f s
      = ∑ e : ι, if P e ∧ src e = s then f s else 0 := by
    intro s
    rw [hcount, Finset.sum_filter]
  rw [Finset.sum_congr rfl (fun s _ => h1 s), Finset.sum_comm, Finset.sum_filter]
  refine Finset.sum_congr rfl (fun e _ => ?_)
  by_cases hP : P e
  · simp [hP]
  · simp [hP]

end Cert.Rgcn.Lib

end
-- ==== Proof.RefCuts.lean ====
/-
  The reference's accumulating scatters and column sums read at an index, at the exact values. A scatter into zeros lands
  row r at the position its word names, so the element at position n is the sum over the rows whose word is n; the
  feature sums are plain sums over all rows.
-/
import proofs.«413714_j12455405158619_3_alg».proof.Proof.RefRead
import proofs.«413714_j12455405158619_3_alg».proof.Proof.Spec
import proofs.«413714_j12455405158619_3_alg».proof.Proof.LibIndexed
import Idealize.ShloMosaic.Lib.ValueIdx
import Idealize.ShloMosaic.Lib.IdealHost
import Idealize.ShloMosaic.PureOps.Ideal.Laws

noncomputable section

namespace Cert.RefCuts

open Cert.ReferenceIdeal Cert.ReferenceIdeal.ReadP
open Idealize.ShloMosaic Idealize.ShloMosaic.ValueIdx

variable (x0 : (⟨S524288x256, .f32⟩ : BufTy).Contents (Elt Ideal)) (x4 x5 : (⟨S524288, .i32⟩ : BufTy).Contents (Elt Ideal))

/-- The data as a table, the class and domain words as functions of the row. -/
abbrev X : Fin 524288 → Fin 256 → EReal := fun r j => (x0 : S524288x256.Idx → EReal) (ix2 r j)
abbrev Yw : Fin 524288 → BitVec 32 := fun r => (x4 : S524288.Idx → BitVec 32) (ix1 r)
abbrev Dw : Fin 524288 → BitVec 32 := fun r => (x5 : S524288.Idx → BitVec 32) (ix1 r)

/-- The zero word is the extended real 0. -/
private theorem fzero : (FloatOps.ofBits (F := Ideal) .f32 0x00000000#32 : EReal) = 0 := Ideal.ofBits_zero_f32

/-- The word of the float 1.0 is the extended real 1. -/
private theorem fone : (FloatOps.ofBits (F := Ideal) .f32 0x3F800000#32 : EReal) = 1 := Ideal.ofBits_one_f32

/-- The segment word of the reference at row r. -/
private theorem word_apply (r : Fin 524288) :
    (val_main_v2 (F := Ideal) x4 x5 : S524288.Idx → BitVec 32) (ix1 r) = Cert.Spec.segw (Yw x4) (Dw x5) r := by
  rw [val_main_v2_apply, val_main_v1_apply, val_main_v0_apply, val_main_c_apply]
  rfl

/-- The segment sums. -/
theorem val5_apply (s : Fin 768) (j : Fin 256) :
    (val_main_v5 (F := Ideal) x0 x4 x5 : S768x256.Idx → EReal) (ix2 s j) = Cert.Spec.SegSum (X x0) (Cert.Spec.segw (Yw x4) (Dw x5)) s.val j := by
  unfold val_main_v5
  rw [Cert.Rgcn.Lib.scatterAdd_rows_apply scatter_S768x256_S524288x1_S524288x256_1_0_0_1 Facts₀.scatter_S768x256_S524288x1_S524288x256_1_0_0_1_wf rfl]
  rw [val_main_v3_apply, val_main_cst_apply, fzero, zero_add]
  unfold Cert.Spec.SegSum Cert.Spec.rowsOf
  have hw : ∀ e : Fin 524288, (val_main_v4 (F := Ideal) x4 x5 : S524288x1.Idx → BitVec 32) (ix2 e (0 : Fin 1)) = Cert.Spec.segw (Yw x4) (Dw x5) e := by
    intro e
    rw [val_main_v4_apply]
    have : idx_main_v4 (ix2 e (0 : Fin 1)) = ix1 e := by
      funext a
      match a with
      | ⟨0, _⟩ => rfl
    rw [this, word_apply]
  simp only [hw]

/-- The segment counts. -/
theorem val9_apply (s : Fin 768) :
    (val_main_v9 (F := Ideal) x4 x5 : S768.Idx → EReal) (ix1 s) = Cert.Spec.SegCnt (Cert.Spec.segw (Yw x4) (Dw x5)) s.val := by
  unfold val_main_v9
  rw [Cert.Rgcn.Lib.scatterAdd_vec_apply scatter_S768_S524288x1_S524288_n_0_0_1 Facts₀.scatter_S768_S524288x1_S524288_n_0_0_1_wf rfl]
  rw [val_main_v7_apply, val_main_cst_1_apply, fzero, zero_add]
  unfold Cert.Spec.SegCnt Cert.Spec.rowsOf
  have hw : ∀ e : Fin 524288, (val_main_v8 (F := Ideal) x4 x5 : S524288x1.Idx → BitVec 32) (ix2 e (0 : Fin 1)) = Cert.Spec.segw (Yw x4) (Dw x5) e := by
    intro e
    rw [val_main_v8_apply]
    have : idx_main_v8 (ix2 e (0 : Fin 1)) = ix1 e := by
      funext a
      match a with
      | ⟨0, _⟩ => rfl
    rw [this, word_apply]
  have hu : ∀ e : Fin 524288, (val_main_v6 (F := Ideal) : S524288.Idx → EReal) (ix1 e) = 1 := by
    intro e
    rw [val_main_v6_apply, val_main_cst_0_apply, fone]
  simp only [hw, hu]

/-- The domain sums. -/
theorem val27_apply (dd : Fin 6) (j : Fin 256) :
    (val_main_v27 (F := Ideal) x0 x5 : S6x256.Idx → EReal) (ix2 dd j) = Cert.Spec.SegSum (X x0) (Dw x5) dd.val j := by
  unfold val_main_v27
  rw [Cert.Rgcn.Lib.scatterAdd_rows_apply scatter_S6x256_S524288x1_S524288x256_1_0_0_1 Facts₀.scatter_S6x256_S524288x1_S524288x256_1_0_0_1_wf rfl]
  rw [val_main_v25_apply, val_main_cst_6_apply, fzero, zero_add]
  unfold Cert.Spec.SegSum Cert.Spec.rowsOf
  have hw : ∀ e : Fin 524288, (val_main_v26 (F := Ideal) x5 : S524288x1.Idx → BitVec 32) (ix2 e (0 : Fin 1)) = Dw x5 e := by
    intro e
    rw [val_main_v26_apply]
    have : idx_main_v26 (ix2 e (0 : Fin 1)) = ix1 e := by
      funext a
      match a with
      | ⟨0, _⟩ => rfl
    rw [this]
  simp only [hw]

/-- The domain sums of squares. -/
theorem val31_apply (dd : Fin 6) (j : Fin 256) :
    (val_main_v31 (F := Ideal) x0 x5 : S6x256.Idx → EReal) (ix2 dd j) = Cert.Spec.SegSum (fun r j => X x0 r j * X x0 r j) (Dw x5) dd.val j := by
  unfold val_main_v31
  rw [Cert.Rgcn.Lib.scatterAdd_rows_apply scatter_S6x256_S524288x1_S524288x256_1_0_0_1 Facts₀.scatter_S6x256_S524288x1_S524288x256_1_0_0_1_wf rfl]
  rw [val_main_v29_apply, val_main_cst_7_apply, fzero, zero_add]
  unfold Cert.Spec.SegSum Cert.Spec.rowsOf
  have hw : ∀ e : Fin 524288, (val_main_v30 (F := Ideal) x5 : S524288x1.Idx → BitVec 32) (ix2 e (0 : Fin 1)) = Dw x5 e := by
    intro e
    rw [val_main_v30_apply]
    have : idx_main_v30 (ix2 e (0 : Fin 1)) = ix1 e := by
      funext a
      match a with
      | ⟨0, _⟩ => rfl
    rw [this]
  simp only [hw, val_main_v28_apply]
  rfl

/-- The domain counts. -/
theorem val35_apply (dd : Fin 6) :
    (val_main_v35 (F := Ideal) x5 : S6.Idx → EReal) (ix1 dd) = Cert.Spec.SegCnt (Dw x5) dd.val := by
  unfold val_main_v35
  rw [Cert.Rgcn.Lib.scatterAdd_vec_apply scatter_S6_S524288x1_S524288_n_0_0_1 Facts₀.scatter_S6_S524288x1_S524288_n_0_0_1_wf rfl]
  rw [val_main_v33_apply, val_main_cst_9_apply, fzero, zero_add]
  unfold Cert.Spec.SegCnt Cert.Spec.rowsOf
  have hw : ∀ e : Fin 524288, (val_main_v34 (F := Ideal) x5 : S524288x1.Idx → BitVec 32) (ix2 e (0 : Fin 1)) = Dw x5 e := by
    intro e
    rw [val_main_v34_apply]
    have : idx_main_v34 (ix2 e (0 : Fin 1)) = ix1 e := by
      funext a
      match a with
      | ⟨0, _⟩ => rfl
    rw [this]
  have hu : ∀ e : Fin 524288, (val_main_v32 (F := Ideal) : S524288.Idx → EReal) (ix1 e) = 1 := by
    intro e
    rw [val_main_v32_apply, val_main_cst_8_apply, fone]
  simp only [hw, hu]

/-- The feature sums over all rows. -/
theorem val126_apply (j : Fin 256) :
    (val_main_v126 (F := Ideal) x0 : S256.Idx → EReal) (ix1 j) = ∑ r : Fin 524288, X x0 r j := by
  rw [val_main_v126_apply, val_main_cst_41_apply, fzero, zero_add]
  refine Finset.sum_congr rfl (fun k _ => ?_)
  have : idx_main_v126 (ix1 j) k = ix2 k j := by
    funext a
    match a with
    | ⟨0, _⟩ => rfl
    | ⟨1, _⟩ => rfl
  rw [this]

/-- The feature sums of squares over all rows. -/
theorem val130_apply (j : Fin 256) :
    (val_main_v130 (F := Ideal) x0 : S256.Idx → EReal) (ix1 j) = ∑ r : Fin 524288, X x0 r j * X x0 r j := by
  rw [val_main_v130_apply, val_main_cst_43_apply, fzero, zero_add]
  refine Finset.sum_congr rfl (fun k _ => ?_)
  have : idx_main_v130 (ix1 j) k = ix2 k j := by
    funext a
    match a with
    | ⟨0, _⟩ => rfl
    | ⟨1, _⟩ => rfl
  rw [this, val_main_v129_apply]
  rfl

end Cert.RefCuts

end
-- ==== Proof.Sums.lean ====
/-
  Regrouping the sums. A one-hot weighted sum over the 2 × 128 × 2048 blocked rows is the sum over the rows a word names;
  and when every class word lies in [0, 128) and every domain word in [0, 6), the segment word d · 128 + y names position
  dd · 128 + cls exactly for the rows of domain dd and class cls, so summing segment sums over the classes of a domain
  gives the domain's sum, and summing over all positions gives the sum over all rows. All sums are finite sums in a
  commutative monoid: no finiteness of the entries is used.
-/
import proofs.«413714_j12455405158619_3_alg».proof.Proof.Spec
import Mathlib.Algebra.BigOperators.Group.Finset.Sigma
import Mathlib.Data.Fintype.BigOperators

noncomputable section

namespace Cert.Spec

open Idealize.ShloMosaic

/-- For n below 2^31 a 32-bit word is the word of n exactly when its signed reading is n. -/
private theorem word_eq_iff (v : BitVec 32) (n : ℕ) (hn : n < 2 ^ 31) : v = BitVec.ofNat 32 n ↔ v.toInt = (n : ℤ) := by
  constructor
  · intro h
    subst h
    rw [BitVec.toInt_eq_toNat_cond, BitVec.toNat_ofNat]
    have : n % 2 ^ 32 = n := Nat.mod_eq_of_lt (by omega)
    rw [this]
    split <;> omega
  · intro h
    apply BitVec.eq_of_toNat_eq
    rw [BitVec.toNat_ofNat]
    have : n % 2 ^ 32 = n := Nat.mod_eq_of_lt (by omega)
    rw [this]
    rw [BitVec.toInt_eq_toNat_cond] at h
    have hv := v.isLt
    split at h <;> omega

/-- With the class in [0, 128) and the domain in [0, 6) nothing wraps: the segment word reads domain · 128 + class. -/
private theorem segw_toInt (y d : Fin 524288 → BitVec 32) (r : Fin 524288)
    (hy : 0 ≤ (y r).toInt ∧ (y r).toInt < 128) (hd : 0 ≤ (d r).toInt ∧ (d r).toInt < 6) :
    (segw y d r).toInt = (d r).toInt * 128 + (y r).toInt := by
  unfold segw IntOp.addi IntOp.muli
  have hyl := (y r).isLt
  have hdl := (d r).isLt
  rw [BitVec.toInt_eq_toNat_cond] at hy hd
  rw [BitVec.toInt_eq_toNat_cond, BitVec.toInt_eq_toNat_cond (y r), BitVec.toInt_eq_toNat_cond (d r)]
  rw [BitVec.toNat_add, BitVec.toNat_mul]
  have h128 : (128#32).toNat = 128 := rfl
  rw [h128]
  generalize (y r).toNat = a at *
  generalize (d r).toNat = b at *
  split at hy <;> split at hd <;> split <;> omega

/-- A sum over the 2 × 128 × 2048 blocked rows is the sum over all rows. -/
private theorem sum_blocks {M : Type} [AddCommMonoid M] (f : Fin 524288 → M) :
    (∑ cc : Fin 2, ∑ i : Fin 128, ∑ t : Fin 2048, f (rowOf cc i t)) = ∑ r : Fin 524288, f r := by
  let e : Fin 2 × Fin 128 × Fin 2048 ≃ Fin 524288 :=
    { toFun := fun p => rowOf p.1 p.2.1 p.2.2
      invFun := fun r => (⟨r.val / 262144, by omega⟩, ⟨r.val / 2048 % 128, by omega⟩, ⟨r.val % 2048, by omega⟩)
      left_inv := by
        rintro ⟨cc, i, t⟩
        refine Prod.ext (Fin.ext ?_) (Prod.ext (Fin.ext ?_) (Fin.ext ?_)) <;> simp only [rowOf] <;> omega
      right_inv := by
        intro r
        apply Fin.ext
        simp only [rowOf]
        omega }
  rw [← Fintype.sum_equiv e (fun p => f (rowOf p.1 p.2.1 p.2.2)) f (fun p => rfl)]
  rw [Fintype.sum_prod_type]
  refine Finset.sum_congr rfl fun cc _ => ?_
  rw [Fintype.sum_prod_type]

/-- Exactly one position below N matches a value in [0, N). -/
private theorem sum_onehot {M : Type} [AddCommMonoid M] (N : ℕ) (v : ℤ) (hv : 0 ≤ v ∧ v < N) (g : M) :
    (∑ s : Fin N, if v = (s.val : ℤ) then g else 0) = g := by
  rw [Finset.sum_eq_single (⟨v.toNat, by omega⟩ : Fin N)]
  · rw [if_pos]
    simp only
    omega
  · intro s _ hs
    rw [if_neg]
    intro h
    apply hs
    apply Fin.ext
    simp only
    omega
  · intro h
    exact absurd (Finset.mem_univ _) h

/-- Among the classes of domain dd, exactly one matches a row of that domain and none matches a row of another. -/
private theorem sum_onehot_dom {M : Type} [AddCommMonoid M] (a b : ℤ) (ha : 0 ≤ a ∧ a < 128) (hb : 0 ≤ b ∧ b < 6)
    (dd : Fin 6) (g : M) :
    (∑ cls : Fin 128, if b * 128 + a = ((dd.val * 128 + cls.val : ℕ) : ℤ) then g else 0)
      = if b = (dd.val : ℤ) then g else 0 := by
  by_cases h : b = (dd.val : ℤ)
  · rw [if_pos h, Finset.sum_eq_single (⟨a.toNat, by omega⟩ : Fin 128)]
    · rw [if_pos]
      push_cast
      omega
    · intro s _ hs
      rw [if_neg]
      intro h'
      apply hs
      apply Fin.ext
      push_cast at h'
      simp only
      omega
    · intro h'
      exact absurd (Finset.mem_univ _) h'
  · rw [if_neg h]
    apply Finset.sum_eq_zero
    intro s _
    rw [if_neg]
    push_cast
    have := s.isLt
    omega

variable (x : Fin 524288 → Fin 256 → EReal) (y d w : Fin 524288 → BitVec 32)

/-- The two cores' partial sums add up to the sum over the rows the word names. -/
theorem part_sum (n : ℕ) (hn : n < 2 ^ 31) (j : Fin 256) :
    (∑ cc : Fin 2, Part w x cc n j) = SegSum x w n j := by
  unfold Part SegSum rowsOf
  rw [sum_blocks (fun r => (if w r = BitVec.ofNat 32 n then (1 : EReal) else 0) * x r j), Finset.sum_filter]
  refine Finset.sum_congr rfl fun r _ => ?_
  by_cases h : w r = BitVec.ofNat 32 n
  · rw [if_pos h, if_pos ((word_eq_iff (w r) n hn).1 h), one_mul]
  · rw [if_neg h, if_neg (fun h' => h ((word_eq_iff (w r) n hn).2 h')), zero_mul]

/-- Summing the segment sums over the classes of domain dd gives the domain's sum. -/
theorem seg_rows_dom (hy : ∀ r, 0 ≤ (y r).toInt ∧ (y r).toInt < 128) (hd : ∀ r, 0 ≤ (d r).toInt ∧ (d r).toInt < 6)
    (dd : Fin 6) (j : Fin 256) :
    (∑ cls : Fin 128, SegSum x (segw y d) (dd.val * 128 + cls.val) j) = SegSum x d dd.val j := by
  unfold SegSum rowsOf
  rw [Finset.sum_filter]
  simp only [Finset.sum_filter]
  rw [Finset.sum_comm]
  refine Finset.sum_congr rfl fun r _ => ?_
  rw [segw_toInt y d r (hy r) (hd r)]
  exact sum_onehot_dom _ _ (hy r) (hd r) dd (x r j)

/-- The same for the counts. -/
theorem seg_cnt_dom (hy : ∀ r, 0 ≤ (y r).toInt ∧ (y r).toInt < 128) (hd : ∀ r, 0 ≤ (d r).toInt ∧ (d r).toInt < 6)
    (dd : Fin 6) :
    (∑ cls : Fin 128, SegCnt (segw y d) (dd.val * 128 + cls.val)) = SegCnt d dd.val := by
  unfold SegCnt rowsOf
  rw [Finset.sum_filter]
  simp only [Finset.sum_filter]
  rw [Finset.sum_comm]
  refine Finset.sum_congr rfl fun r _ => ?_
  rw [segw_toInt y d r (hy r) (hd r)]
  exact sum_onehot_dom _ _ (hy r) (hd r) dd (1 : EReal)

/-- Summing the segment sums over all 768 positions gives the sum over all rows. -/
theorem seg_all (hy : ∀ r, 0 ≤ (y r).toInt ∧ (y r).toInt < 128) (hd : ∀ r, 0 ≤ (d r).toInt ∧ (d r).toInt < 6) (j : Fin 256) :
    (∑ s : Fin 768, SegSum x (segw y d) s.val j) = ∑ r : Fin 524288, x r j := by
  unfold SegSum rowsOf
  simp only [Finset.sum_filter]
  rw [Finset.sum_comm]
  refine Finset.sum_congr rfl fun r _ => ?_
  refine sum_onehot 768 _ ?_ (x r j)
  rw [segw_toInt y d r (hy r) (hd r)]
  have := hy r
  have := hd r
  push_cast
  omega

/-- Summing the domain sums over the 6 domains gives the sum over all rows. -/
theorem dom_all (hd : ∀ r, 0 ≤ (d r).toInt ∧ (d r).toInt < 6) (j : Fin 256) :
    (∑ dd : Fin 6, SegSum x d dd.val j) = ∑ r : Fin 524288, x r j := by
  unfold SegSum rowsOf
  simp only [Finset.sum_filter]
  rw [Finset.sum_comm]
  refine Finset.sum_congr rfl fun r _ => ?_
  exact sum_onehot 6 _ (by simpa using hd r) (x r j)

end Cert.Spec

end
-- ==== Proof.Cut.SegSide.lean ====
/-
  The meeting values on the segment side. The kernel's program gets the 768 × 256 segment sums by adding the two cores'
  partial sums, the reference by one accumulating scatter: both are, at (s, j), the sum of column j over the rows whose
  segment word is s. The per-segment counts are the same scatter of ones in both programs (the kernel's program reads
  the segment words back from the column it gave the region). From the counts come the clamped counts max(cnt, 1) as a
  768 × 1 column and the test cnt > 0 as a 6 × 128 × 1 array, which the two programs lay out by different but equal
  routes.
-/
import proofs.«413714_j12455405158619_3_alg».proof.Proof.TailFn
import proofs.«413714_j12455405158619_3_alg».proof.Proof.RefRead
import proofs.«413714_j12455405158619_3_alg».proof.Proof.RefCuts
import proofs.«413714_j12455405158619_3_alg».proof.Proof.Sums
import proofs.«413714_j12455405158619_3_alg».proof.Proof.LibIndexed
import proofs.«413714_j12455405158619_3_alg».proof.Proof.LibReshape
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Cuts

open Cert.KernelIdeal.TailFn Cert.ReferenceIdeal.ReadP Cert.RefCuts
open Idealize.ShloMosaic Idealize.ShloMosaic.ValueIdx

variable (p3 : (⟨Cert.KernelIdeal.S2x768x256, .f32⟩ : BufTy).Contents (Elt Ideal)) (p4 : (⟨Cert.KernelIdeal.S2x8x256, .f32⟩ : BufTy).Contents (Elt Ideal)) (sgc dmc : (⟨Cert.KernelIdeal.S524288x1, .i32⟩ : BufTy).Contents (Elt Ideal))
  (x0 : (⟨Cert.ReferenceIdeal.S524288x256, .f32⟩ : BufTy).Contents (Elt Ideal)) (x4 x5 : (⟨Cert.ReferenceIdeal.S524288, .i32⟩ : BufTy).Contents (Elt Ideal))

/-- The zero word is the extended real 0, the word of the float 1.0 the extended real 1. -/
private theorem fzero : (FloatOps.ofBits (F := Ideal) .f32 0x00000000#32 : EReal) = 0 := Ideal.ofBits_zero_f32
private theorem fone : (FloatOps.ofBits (F := Ideal) .f32 0x3F800000#32 : EReal) = 1 := Ideal.ofBits_one_f32

/-- The scatter's operand is zero everywhere, its updates one everywhere. -/
private theorem k11_apply (i : Cert.KernelIdeal.S768.Idx) : (kv_main_v11 (F := Ideal) : Cert.KernelIdeal.S768.Idx → EReal) i = 0 := fzero
private theorem k9_apply (i : Cert.KernelIdeal.S524288.Idx) : (kv_main_v9 (F := Ideal) : Cert.KernelIdeal.S524288.Idx → EReal) i = 1 := fone

/-- The start words of the kernel's count scatter are the segment column: flattened to a vector and laid out as a column again. -/
private theorem k12_apply (e : Fin 524288) :
    (kv_main_v12 (F := Ideal) sgc : Cert.KernelIdeal.S524288x1.Idx → BitVec 32) (ix2 e (0 : Fin 1)) = (sgc : Cert.KernelIdeal.S524288x1.Idx → BitVec 32) (ix2 e (0 : Fin 1)) := by
  unfold kv_main_v12 kv_main_v10
  rw [broadcastInDim_apply _ Cert.KernelIdeal.Gen.bcast_S524288_S524288x1_0 _ (ix2 e (0 : Fin 1)) (ix1 e) (fun a => match a with
    | ⟨0, _⟩ => by show e.val = if (524288 : Nat) = 1 then 0 else e.val; rw [if_neg (by decide)])]
  exact shapeCast_apply _ Cert.KernelIdeal.Gen.shapeCasts_S524288x1_S524288 (ix1 e) (ix2 e (0 : Fin 1)) (by
    rw [Shape.rowMajor_val_one, Shape.rowMajor_val_two]
    show e.val * 1 + 0 = e.val
    omega)

/-- The per-segment counts, read at s: the number of rows whose segment word is s. -/
theorem kcnt_apply (hsg : ∀ r : Fin 524288, (sgc : Cert.KernelIdeal.S524288x1.Idx → BitVec 32) (ix2 r (0 : Fin 1)) = Cert.Spec.segw (Yw x4) (Dw x5) r) (s : Fin 768) :
    (kv_main_v13 (F := Ideal) sgc : Cert.KernelIdeal.S768.Idx → EReal) (ix1 s) = Cert.Spec.SegCnt (Cert.Spec.segw (Yw x4) (Dw x5)) s.val := by
  show Host.scatterAdd (F := Ideal) Cert.KernelIdeal.scatter_S768_S524288x1_S524288_n_0_0_1 (kv_main_v11 (F := Ideal)) (kv_main_v12 (F := Ideal) sgc) (kv_main_v9 (F := Ideal)) (ix1 s) = _
  rw [Cert.Rgcn.Lib.scatterAdd_vec_apply Cert.KernelIdeal.scatter_S768_S524288x1_S524288_n_0_0_1 Cert.KernelIdeal.Facts₀.scatter_S768_S524288x1_S524288_n_0_0_1_wf rfl]
  rw [k11_apply, zero_add]
  unfold Cert.Spec.SegCnt Cert.Spec.rowsOf
  simp only [k12_apply, k9_apply, hsg]

/-- The counts of the two programs are one vector. -/
theorem kcnt_eq (hsg : ∀ r : Fin 524288, (sgc : Cert.KernelIdeal.S524288x1.Idx → BitVec 32) (ix2 r (0 : Fin 1)) = Cert.Spec.segw (Yw x4) (Dw x5) r) : kv_main_v13 (F := Ideal) sgc = val_main_v9 (F := Ideal) x4 x5 := by
  funext i
  obtain ⟨s, rfl⟩ : ∃ s : Fin 768, i = ix1 s := ⟨i 0, eq_ix1 i⟩
  rw [kcnt_apply sgc x4 x5 hsg s]
  exact (val9_apply x4 x5 s).symm

/-- The segment sums. -/
theorem c1 (hp3 : ∀ (cc : Fin 2) (s : Fin 768) (j : Fin 256), (p3 : Cert.KernelIdeal.S2x768x256.Idx → EReal) (ix3 cc s j) = Cert.Spec.Part (fun r => (sgc : Cert.KernelIdeal.S524288x1.Idx → BitVec 32) (ix2 r (0 : Fin 1))) (X x0) cc s.val j) (hsg : ∀ r : Fin 524288, (sgc : Cert.KernelIdeal.S524288x1.Idx → BitVec 32) (ix2 r (0 : Fin 1)) = Cert.Spec.segw (Yw x4) (Dw x5) r) : kv_main_v6 (F := Ideal) p3 = val_main_v5 (F := Ideal) x0 x4 x5 := by
  funext i
  obtain ⟨s, j, rfl⟩ : ∃ (s : Fin 768) (j : Fin 256), i = ix2 s j := ⟨i 0, i 1, eq_ix2 i⟩
  rw [val5_apply]
  show Host.reduceAdd (F := Ideal) p3 (kv_main_cst (F := Ideal)) Cert.KernelIdeal.Gen.reducesTo_S2x768x256_S768x256_d0 Cert.KernelIdeal.Gen.h_S_ (ix2 s j) = _
  simp only [Host.reduceAdd, Ideal.hostReduceAdd_def]
  rw [Ideal.hostReduceAdd_single Cert.KernelIdeal.Gen.reducesTo_S2x768x256_S768x256_d0 (by decide)]
  have h0 : (kv_main_cst (F := Ideal) : Cert.KernelIdeal.S_.Idx → EReal) (Shape.Idx.first Cert.KernelIdeal.Gen.h_S_) = 0 := fzero
  rw [h0, zero_add, ← Cert.Spec.part_sum (X x0) (Cert.Spec.segw (Yw x4) (Dw x5)) s.val (by have := s.isLt; omega) j]
  refine Finset.sum_congr rfl fun cc _ => ?_
  have hw : (fun r => (sgc : Cert.KernelIdeal.S524288x1.Idx → BitVec 32) (ix2 r (0 : Fin 1))) = Cert.Spec.segw (Yw x4) (Dw x5) := funext hsg
  rw [← hw, ← hp3 cc s j]
  exact congrArg p3 (funext fun a => Fin.ext (by match a with | ⟨0, _⟩ => rfl | ⟨1, _⟩ => rfl | ⟨2, _⟩ => rfl))

/-- The kernel's clamp and test read at an index, at any float family: the column of counts against the splat constant. -/
private theorem k16_apply {F : FTy → Type} [FloatOps F] (sg : (⟨Cert.KernelIdeal.S524288x1, .i32⟩ : BufTy).Contents (Elt F)) (i : Cert.KernelIdeal.S768x1.Idx) :
    kv_main_v16 (F := F) sg i = FloatOps.maximumf (kv_main_v14 (F := F) sg i) (FloatOps.ofBits .f32 0x3F800000#32) := rfl
private theorem k20_apply {F : FTy → Type} [FloatOps F] (sg : (⟨Cert.KernelIdeal.S524288x1, .i32⟩ : BufTy).Contents (Elt F)) (i : Cert.KernelIdeal.S768x1.Idx) :
    kv_main_v20 (F := F) sg i = FloatOps.cmpf (F := F) .ogt (kv_main_v14 (F := F) sg i) (FloatOps.ofBits .f32 0x00000000#32) := rfl

/-- The clamped counts as a column. -/
theorem c2 (hsg : ∀ r : Fin 524288, (sgc : Cert.KernelIdeal.S524288x1.Idx → BitVec 32) (ix2 r (0 : Fin 1)) = Cert.Spec.segw (Yw x4) (Dw x5) r) : kv_main_v16 (F := Ideal) sgc = val_main_v12 (F := Ideal) x4 x5 := by
  funext i
  obtain ⟨s, z, rfl⟩ : ∃ (s : Fin 768) (z : Fin 1), i = ix2 s z := ⟨i 0, i 1, eq_ix2 i⟩
  obtain rfl : z = 0 := Subsingleton.elim _ _
  rw [val_main_v12_apply, val_main_v11_apply, val_main_v10_apply, val_main_cst_2_apply]
  have hi : idx_main_v12 (ix2 s (0 : Fin 1)) = ix1 s := by
    funext a
    match a with
    | ⟨0, _⟩ => rfl
  rw [hi, ← kcnt_eq sgc x4 x5 hsg, k16_apply]
  unfold kv_main_v14
  rw [Cert.Rgcn.Lib.col_of_vec_apply]

/-- The count test laid out by domain and class. -/
theorem c3 (hsg : ∀ r : Fin 524288, (sgc : Cert.KernelIdeal.S524288x1.Idx → BitVec 32) (ix2 r (0 : Fin 1)) = Cert.Spec.segw (Yw x4) (Dw x5) r) : kv_main_v21 (F := Ideal) sgc = val_main_v17 (F := Ideal) x4 x5 := by
  funext i
  obtain ⟨dd, cls, z, rfl⟩ : ∃ (dd : Fin 6) (cls : Fin 128) (z : Fin 1), i = ix3 dd cls z := ⟨i 0, i 1, i 2, eq_ix3 i⟩
  obtain rfl : z = 0 := Subsingleton.elim _ _
  have hlt : dd.val * 128 + cls.val < 768 := by have := dd.isLt; have := cls.isLt; omega
  rw [val_main_v17_apply, val_main_v16_apply, val_main_v15_apply, val_main_cst_3_apply, ← kcnt_eq sgc x4 x5 hsg]
  have hi : idx_main_v17 (ix3 dd cls (0 : Fin 1)) = ix1 (⟨dd.val * 128 + cls.val, hlt⟩ : Fin 768) := by
    funext a
    match a with
    | ⟨0, _⟩ => exact Fin.ext (by show (dd.val * 128 + cls.val) * 1 + 0 = dd.val * 128 + cls.val; omega)
  rw [hi]
  unfold kv_main_v21
  rw [shapeCast_apply _ Cert.KernelIdeal.Gen.shapeCasts_S768x1_S6x128x1 (ix3 dd cls (0 : Fin 1)) (ix2 (⟨dd.val * 128 + cls.val, hlt⟩ : Fin 768) (0 : Fin 1)) (by
    rw [Shape.rowMajor_val_two, Shape.rowMajor_val_three]
    show (dd.val * 128 + cls.val) * 1 + 0 = (dd.val * 128 + cls.val) * 1 + 0
    rfl)]
  rw [k20_apply]
  unfold kv_main_v14
  rw [Cert.Rgcn.Lib.col_of_vec_apply]

end Cert.Cuts

end
-- ==== Proof.Cut.DomSide.lean ====
/-
  The meeting values on the domain side. The kernel's program gets the 6 × 256 domain sums by adding the segment sums over
  the 128 classes of a domain, and the domain counts by adding the segment counts likewise; the reference by scatters on
  the domain word. Under the label ranges a row of domain dd and class cls has segment word dd · 128 + cls, so the two
  agree. The domain sums of squares come from the region's second partial-sum array (rows 0–5 of 8). From the domain
  counts come max(n, 1), max(n − 1, 1) and the test n > 1 as 6 × 1 columns; and the feature means of the squares are the
  domain sums of squares added over the 6 domains.
-/
import proofs.«413714_j12455405158619_3_alg».proof.Proof.TailFn
import proofs.«413714_j12455405158619_3_alg».proof.Proof.RefRead
import proofs.«413714_j12455405158619_3_alg».proof.Proof.RefCuts
import proofs.«413714_j12455405158619_3_alg».proof.Proof.Sums
import proofs.«413714_j12455405158619_3_alg».proof.Proof.LibIndexed
import proofs.«413714_j12455405158619_3_alg».proof.Proof.LibReshape
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

namespace Cert.Cuts

open Cert.KernelIdeal.TailFn Cert.ReferenceIdeal.ReadP Cert.RefCuts
open Idealize.ShloMosaic Idealize.ShloMosaic.ValueIdx

variable (p3 : (⟨Cert.KernelIdeal.S2x768x256, .f32⟩ : BufTy).Contents (Elt Ideal)) (p4 : (⟨Cert.KernelIdeal.S2x8x256, .f32⟩ : BufTy).Contents (Elt Ideal)) (sgc dmc : (⟨Cert.KernelIdeal.S524288x1, .i32⟩ : BufTy).Contents (Elt Ideal))
  (x0 : (⟨Cert.ReferenceIdeal.S524288x256, .f32⟩ : BufTy).Contents (Elt Ideal)) (x4 x5 : (⟨Cert.ReferenceIdeal.S524288, .i32⟩ : BufTy).Contents (Elt Ideal))

/-- The zero word is the extended real 0. -/
private theorem fzero : (FloatOps.ofBits (F := Ideal) .f32 0x00000000#32 : EReal) = 0 := Ideal.ofBits_zero_f32

/-- The word of the float 1.0 is the extended real 1. -/
private theorem fone : (FloatOps.ofBits (F := Ideal) .f32 0x3F800000#32 : EReal) = 1 := Ideal.ofBits_one_f32

/-- The sum of the second partial-sum array over the two cores, at row dd of 8 and column j. -/
private theorem kv7_apply (dd : Fin 8) (j : Fin 256) :
    (kv_main_v7 (F := Ideal) p4 : Cert.KernelIdeal.S8x256.Idx → EReal) (ix2 dd j) = ∑ cc : Fin 2, (p4 : Cert.KernelIdeal.S2x8x256.Idx → EReal) (ix3 cc dd j) := by
  unfold kv_main_v7
  simp only [Host.reduceAdd, Ideal.hostReduceAdd_def]
  rw [Ideal.hostReduceAdd_single Cert.KernelIdeal.Gen.reducesTo_S2x8x256_S8x256_d0 (by decide)]
  unfold kv_main_cst_0
  rw [constant_apply, Ideal.ofBits_zero_f32, zero_add]
  refine Finset.sum_congr rfl fun k _ => ?_
  exact congrArg p4 (funext fun a => Fin.ext (by match a with | ⟨0, _⟩ => rfl | ⟨1, _⟩ => rfl | ⟨2, _⟩ => rfl))

/-- A scalar constant broadcast to any shape reads that constant everywhere. -/
private theorem bcast_const {t : Shape} (h : Cert.KernelIdeal.S_.BroadcastsInDim t (![] : Fin 0 → Fin t.rank)) (b : BitVec 32) (i : t.Idx) :
    (broadcastInDim t ![] h (constant (F := Ideal) Cert.KernelIdeal.S_ .f32 b) : t.Idx → EReal) i = Ideal.ofBits .f32 b :=
  broadcastInDim_apply _ h _ i (fun a => a.elim0) (fun a => a.elim0)

/-- The first partial-sum array added over the two cores, at position s and column j. -/
private theorem kv6_apply (s : Fin 768) (j : Fin 256) :
    (kv_main_v6 (F := Ideal) p3 : Cert.KernelIdeal.S768x256.Idx → EReal) (ix2 s j) = ∑ cc : Fin 2, (p3 : Cert.KernelIdeal.S2x768x256.Idx → EReal) (ix3 cc s j) := by
  unfold kv_main_v6
  simp only [Host.reduceAdd, Ideal.hostReduceAdd_def]
  rw [Ideal.hostReduceAdd_single Cert.KernelIdeal.Gen.reducesTo_S2x768x256_S768x256_d0 (by decide)]
  unfold kv_main_cst
  rw [constant_apply, Ideal.ofBits_zero_f32, zero_add]
  refine Finset.sum_congr rfl fun k _ => ?_
  exact congrArg p3 (funext fun a => Fin.ext (by match a with | ⟨0, _⟩ => rfl | ⟨1, _⟩ => rfl | ⟨2, _⟩ => rfl))

/-- The 768 positions seen as 6 × 128: position dd · 128 + cls. -/
private theorem kv29_apply (dd : Fin 6) (cls : Fin 128) (j : Fin 256) :
    (kv_main_v29 (F := Ideal) p3 : Cert.KernelIdeal.S6x128x256.Idx → EReal) (ix3 dd cls j)
      = (kv_main_v6 (F := Ideal) p3 : Cert.KernelIdeal.S768x256.Idx → EReal) (ix2 (⟨dd.val * 128 + cls.val, by omega⟩ : Fin 768) j) := by
  unfold kv_main_v29
  generalize kv_main_v6 (F := Ideal) p3 = y
  exact shapeCast_apply y Cert.KernelIdeal.Gen.shapeCasts_S768x256_S6x128x256 _ _
    (by rw [Shape.rowMajor_val_two, Shape.rowMajor_val_three]; rfl)

/-- The sum over the 128 classes of a domain. -/
private theorem kv30_apply (dd : Fin 6) (j : Fin 256) :
    (kv_main_v30 (F := Ideal) p3 : Cert.KernelIdeal.S6x256.Idx → EReal) (ix2 dd j)
      = ∑ cls : Fin 128, (kv_main_v29 (F := Ideal) p3 : Cert.KernelIdeal.S6x128x256.Idx → EReal) (ix3 dd cls j) := by
  unfold kv_main_v30
  generalize kv_main_v29 (F := Ideal) p3 = y
  simp only [Host.reduceAdd, Ideal.hostReduceAdd_def]
  rw [Ideal.hostReduceAdd_single Cert.KernelIdeal.Gen.reducesTo_S6x128x256_S6x256_d1 (by decide)]
  unfold kv_main_cst_7
  rw [constant_apply, Ideal.ofBits_zero_f32, zero_add]
  refine Finset.sum_congr rfl fun k _ => ?_
  exact congrArg y (funext fun a => Fin.ext (by match a with | ⟨0, _⟩ => rfl | ⟨1, _⟩ => rfl | ⟨2, _⟩ => rfl))

/-- The 768 counts seen as 6 × 128. -/
private theorem kv31_apply (dd : Fin 6) (cls : Fin 128) :
    (kv_main_v31 (F := Ideal) sgc : Cert.KernelIdeal.S6x128.Idx → EReal) (ix2 dd cls)
      = (kv_main_v13 (F := Ideal) sgc : Cert.KernelIdeal.S768.Idx → EReal) (ix1 (⟨dd.val * 128 + cls.val, by omega⟩ : Fin 768)) := by
  unfold kv_main_v31
  generalize kv_main_v13 (F := Ideal) sgc = y
  exact shapeCast_apply y Cert.KernelIdeal.Gen.shapeCasts_S768_S6x128 _ _
    (by rw [Shape.rowMajor_val_one, Shape.rowMajor_val_two]; rfl)

/-- The counts added over the 128 classes of a domain. -/
private theorem kv32_apply (dd : Fin 6) :
    (kv_main_v32 (F := Ideal) sgc : Cert.KernelIdeal.S6.Idx → EReal) (ix1 dd)
      = ∑ cls : Fin 128, (kv_main_v31 (F := Ideal) sgc : Cert.KernelIdeal.S6x128.Idx → EReal) (ix2 dd cls) := by
  unfold kv_main_v32
  generalize kv_main_v31 (F := Ideal) sgc = y
  simp only [Host.reduceAdd, Ideal.hostReduceAdd_def]
  rw [Ideal.hostReduceAdd_single Cert.KernelIdeal.Gen.reducesTo_S6x128_S6_d1 (by decide)]
  unfold kv_main_cst_8
  rw [constant_apply, Ideal.ofBits_zero_f32, zero_add]
  refine Finset.sum_congr rfl fun k _ => ?_
  exact congrArg y (funext fun a => Fin.ext (by match a with | ⟨0, _⟩ => rfl | ⟨1, _⟩ => rfl))

/-- The domain sums of squares added over the 6 domains. -/
private theorem kv122_apply (j : Fin 256) :
    (kv_main_v122 (F := Ideal) p4 : Cert.KernelIdeal.S256.Idx → EReal) (ix1 j)
      = ∑ dd : Fin 6, (kv_main_v8 (F := Ideal) p4 : Cert.KernelIdeal.S6x256.Idx → EReal) (ix2 dd j) := by
  unfold kv_main_v122
  generalize kv_main_v8 (F := Ideal) p4 = y
  simp only [Host.reduceAdd, Ideal.hostReduceAdd_def]
  rw [Ideal.hostReduceAdd_single Cert.KernelIdeal.Gen.reducesTo_S6x256_S256_d0 (by decide)]
  unfold kv_main_cst_41
  rw [constant_apply, Ideal.ofBits_zero_f32, zero_add]
  refine Finset.sum_congr rfl fun k _ => ?_
  exact congrArg y (funext fun a => Fin.ext (by match a with | ⟨0, _⟩ => rfl | ⟨1, _⟩ => rfl))

/-- The segment counts: the scatter of ones at the segment words lands, at position s, one per row whose word is s. -/
private theorem kcnt_at (hsg : ∀ r : Fin 524288, (sgc : Cert.KernelIdeal.S524288x1.Idx → BitVec 32) (ix2 r (0 : Fin 1)) = Cert.Spec.segw (Yw x4) (Dw x5) r) (s : Fin 768) :
    (kv_main_v13 (F := Ideal) sgc : Cert.KernelIdeal.S768.Idx → EReal) (ix1 s) = Cert.Spec.SegCnt (Cert.Spec.segw (Yw x4) (Dw x5)) s.val := by
  unfold kv_main_v13
  beta_reduce
  rw [Cert.Rgcn.Lib.scatterAdd_vec_apply Cert.KernelIdeal.scatter_S768_S524288x1_S524288_n_0_0_1 Cert.KernelIdeal.Facts₀.scatter_S768_S524288x1_S524288_n_0_0_1_wf rfl]
  have h11 : (kv_main_v11 (F := Ideal) : Cert.KernelIdeal.S768.Idx → EReal) (ix1 s) = 0 := by
    unfold kv_main_v11 kv_main_cst_2
    rw [bcast_const, Ideal.ofBits_zero_f32]
  have h9 : ∀ e : Fin 524288, (kv_main_v9 (F := Ideal) : Cert.KernelIdeal.S524288.Idx → EReal) (ix1 e) = 1 := by
    intro e
    unfold kv_main_v9 kv_main_cst_1
    rw [bcast_const, Ideal.ofBits_one_f32]
  have h12 : ∀ e : Fin 524288, (kv_main_v12 (F := Ideal) sgc : Cert.KernelIdeal.S524288x1.Idx → BitVec 32) (ix2 e (0 : Fin 1)) = Cert.Spec.segw (Yw x4) (Dw x5) e := by
    intro e
    unfold kv_main_v12
    rw [broadcastInDim_apply _ Cert.KernelIdeal.Gen.bcast_S524288_S524288x1_0 _ (ix2 e (0 : Fin 1)) (ix1 e) (fun a => match a with
      | ⟨0, _⟩ => by show e.val = if (524288 : Nat) = 1 then 0 else e.val; rw [if_neg (by decide)])]
    unfold kv_main_v10
    rw [shapeCast_apply sgc Cert.KernelIdeal.Gen.shapeCasts_S524288x1_S524288 (ix1 e) (ix2 e (0 : Fin 1))
      (by rw [Shape.rowMajor_val_one, Shape.rowMajor_val_two]; show e.val * 1 + 0 = e.val; omega)]
    exact hsg e
  rw [h11, zero_add]
  unfold Cert.Spec.SegCnt Cert.Spec.rowsOf
  simp only [h12, h9]

/-- The segment sums: the two cores' partial sums add up to the sum over the rows of the segment. -/
private theorem ksum_at (hp3 : ∀ (cc : Fin 2) (s : Fin 768) (j : Fin 256), (p3 : Cert.KernelIdeal.S2x768x256.Idx → EReal) (ix3 cc s j) = Cert.Spec.Part (fun r => (sgc : Cert.KernelIdeal.S524288x1.Idx → BitVec 32) (ix2 r (0 : Fin 1))) (X x0) cc s.val j) (hsg : ∀ r : Fin 524288, (sgc : Cert.KernelIdeal.S524288x1.Idx → BitVec 32) (ix2 r (0 : Fin 1)) = Cert.Spec.segw (Yw x4) (Dw x5) r) (s : Fin 768) (j : Fin 256) :
    (kv_main_v6 (F := Ideal) p3 : Cert.KernelIdeal.S768x256.Idx → EReal) (ix2 s j) = Cert.Spec.SegSum (X x0) (Cert.Spec.segw (Yw x4) (Dw x5)) s.val j := by
  rw [kv6_apply]
  simp only [hp3]
  rw [Cert.Spec.part_sum _ _ s.val (by omega) j]
  have hw : (fun r => (sgc : Cert.KernelIdeal.S524288x1.Idx → BitVec 32) (ix2 r (0 : Fin 1))) = Cert.Spec.segw (Yw x4) (Dw x5) := funext hsg
  rw [hw]

/-- The domain counts. -/
theorem kdcnt_eq (hsg : ∀ r : Fin 524288, (sgc : Cert.KernelIdeal.S524288x1.Idx → BitVec 32) (ix2 r (0 : Fin 1)) = Cert.Spec.segw (Yw x4) (Dw x5) r) (hy : ∀ r : Fin 524288, 0 ≤ (Yw x4 r).toInt ∧ (Yw x4 r).toInt < 128) (hd : ∀ r : Fin 524288, 0 ≤ (Dw x5 r).toInt ∧ (Dw x5 r).toInt < 6) : kv_main_v32 (F := Ideal) sgc = val_main_v35 (F := Ideal) x5 := by
  funext i
  obtain ⟨dd, rfl⟩ : ∃ dd : Fin 6, i = ix1 dd := ⟨i 0, eq_ix1 i⟩
  rw [val35_apply, ← Cert.Spec.seg_cnt_dom (Yw x4) (Dw x5) hy hd dd, kv32_apply]
  refine Finset.sum_congr rfl fun cls _ => ?_
  rw [kv31_apply, kcnt_at sgc x4 x5 hsg]

/-- The domain sums. -/
theorem c4 (hp3 : ∀ (cc : Fin 2) (s : Fin 768) (j : Fin 256), (p3 : Cert.KernelIdeal.S2x768x256.Idx → EReal) (ix3 cc s j) = Cert.Spec.Part (fun r => (sgc : Cert.KernelIdeal.S524288x1.Idx → BitVec 32) (ix2 r (0 : Fin 1))) (X x0) cc s.val j) (hsg : ∀ r : Fin 524288, (sgc : Cert.KernelIdeal.S524288x1.Idx → BitVec 32) (ix2 r (0 : Fin 1)) = Cert.Spec.segw (Yw x4) (Dw x5) r) (hy : ∀ r : Fin 524288, 0 ≤ (Yw x4 r).toInt ∧ (Yw x4 r).toInt < 128) (hd : ∀ r : Fin 524288, 0 ≤ (Dw x5 r).toInt ∧ (Dw x5 r).toInt < 6) : kv_main_v30 (F := Ideal) p3 = val_main_v27 (F := Ideal) x0 x5 := by
  funext i
  obtain ⟨dd, j, rfl⟩ : ∃ (dd : Fin 6) (j : Fin 256), i = ix2 dd j := ⟨i 0, i 1, eq_ix2 i⟩
  rw [val27_apply, ← Cert.Spec.seg_rows_dom (X x0) (Yw x4) (Dw x5) hy hd dd j, kv30_apply]
  refine Finset.sum_congr rfl fun cls _ => ?_
  rw [kv29_apply, ksum_at p3 sgc x0 x4 x5 hp3 hsg]

/-- The domain sums of squares. -/
theorem c5 (hp4 : ∀ (cc : Fin 2) (dd : Fin 8) (j : Fin 256), (p4 : Cert.KernelIdeal.S2x8x256.Idx → EReal) (ix3 cc dd j) = Cert.Spec.Part (fun r => (dmc : Cert.KernelIdeal.S524288x1.Idx → BitVec 32) (ix2 r (0 : Fin 1))) (fun r j => X x0 r j * X x0 r j) cc dd.val j) (hdm : ∀ r : Fin 524288, (dmc : Cert.KernelIdeal.S524288x1.Idx → BitVec 32) (ix2 r (0 : Fin 1)) = Dw x5 r) : kv_main_v8 (F := Ideal) p4 = val_main_v31 (F := Ideal) x0 x5 := by
  funext i
  obtain ⟨dd, j, rfl⟩ : ∃ (dd : Fin 6) (j : Fin 256), i = ix2 dd j := ⟨i 0, i 1, eq_ix2 i⟩
  rw [val31_apply]
  unfold kv_main_v8
  beta_reduce
  rw [extractStridedSlice_apply ![0, 0] _ Cert.KernelIdeal.Gen.slices_S8x256_S6x256_0_0 (ix2 dd j) (ix2 (⟨dd.val, by omega⟩ : Fin 8) j)
    (fun a => by match a with | ⟨0, _⟩ => exact (Nat.zero_add _).symm | ⟨1, _⟩ => exact (Nat.zero_add _).symm)]
  rw [kv7_apply]
  simp only [hp4]
  rw [Cert.Spec.part_sum _ _ dd.val (by omega) j]
  have hw : (fun r => (dmc : Cert.KernelIdeal.S524288x1.Idx → BitVec 32) (ix2 r (0 : Fin 1))) = Dw x5 := funext hdm
  rw [hw]

/-- The domain counts as a column: the column at (dd, 0) is the reference's count of domain dd. -/
private theorem k33_apply (hsg : ∀ r : Fin 524288, (sgc : Cert.KernelIdeal.S524288x1.Idx → BitVec 32) (ix2 r (0 : Fin 1)) = Cert.Spec.segw (Yw x4) (Dw x5) r) (hy : ∀ r : Fin 524288, 0 ≤ (Yw x4 r).toInt ∧ (Yw x4 r).toInt < 128) (hd : ∀ r : Fin 524288, 0 ≤ (Dw x5 r).toInt ∧ (Dw x5 r).toInt < 6) (dd : Fin 6) :
    (kv_main_v33 (F := Ideal) sgc : Cert.KernelIdeal.S6x1.Idx → EReal) (ix2 dd (0 : Fin 1)) = (val_main_v35 (F := Ideal) x5 : Cert.ReferenceIdeal.S6.Idx → EReal) (ix1 dd) := by
  unfold kv_main_v33
  rw [Cert.Rgcn.Lib.col_of_vec_apply, kdcnt_eq sgc x4 x5 hsg hy hd]

/-- Every rank-2 index of a column is (its row, 0). -/
private theorem eq_col {n : Nat} (i : (⟨2, ![n, 1]⟩ : Shape).Idx) : ∃ dd : Fin n, i = ix2 dd (0 : Fin 1) := by
  refine ⟨i 0, ?_⟩
  have h1 : (i 1 : Fin 1) = (0 : Fin 1) := Subsingleton.elim (α := Fin 1) _ _
  funext a
  match a with
  | ⟨0, _⟩ => rfl
  | ⟨1, _⟩ => exact h1

/-- The column index (dd, 0) read through the broadcast of a vector along the rows is dd. -/
private theorem idx_col (dd : Fin 6) : (fun a => match a with | ⟨0, _⟩ => ⟨((ix2 dd (0 : Fin 1) : Cert.ReferenceIdeal.S6x1.Idx) 0).val, ((ix2 dd (0 : Fin 1) : Cert.ReferenceIdeal.S6x1.Idx) 0).isLt⟩ : Cert.ReferenceIdeal.S6.Idx) = ix1 dd := by
  funext a
  match a with
  | ⟨0, _⟩ => rfl

/-- The clamped domain counts as a column. -/
theorem c6 (hsg : ∀ r : Fin 524288, (sgc : Cert.KernelIdeal.S524288x1.Idx → BitVec 32) (ix2 r (0 : Fin 1)) = Cert.Spec.segw (Yw x4) (Dw x5) r) (hy : ∀ r : Fin 524288, 0 ≤ (Yw x4 r).toInt ∧ (Yw x4 r).toInt < 128) (hd : ∀ r : Fin 524288, 0 ≤ (Dw x5 r).toInt ∧ (Dw x5 r).toInt < 6) : kv_main_v35 (F := Ideal) sgc = val_main_v38 (F := Ideal) x5 := by
  funext i
  obtain ⟨dd, rfl⟩ := eq_col i
  rw [val_main_v38_apply, val_main_v37_apply, val_main_v36_apply, val_main_cst_10_apply]
  have hi : idx_main_v38 (ix2 dd (0 : Fin 1)) = ix1 dd := idx_col dd
  rw [hi]
  unfold kv_main_v35
  rw [maximumf_apply, k33_apply sgc x4 x5 hsg hy hd]
  unfold kv_main_v34 kv_main_cst_9
  rw [bcast_const]
  rfl

/-- The clamped counts less one. -/
theorem c7 (hsg : ∀ r : Fin 524288, (sgc : Cert.KernelIdeal.S524288x1.Idx → BitVec 32) (ix2 r (0 : Fin 1)) = Cert.Spec.segw (Yw x4) (Dw x5) r) (hy : ∀ r : Fin 524288, 0 ≤ (Yw x4 r).toInt ∧ (Yw x4 r).toInt < 128) (hd : ∀ r : Fin 524288, 0 ≤ (Dw x5 r).toInt ∧ (Dw x5 r).toInt < 6) : kv_main_v45 (F := Ideal) sgc = val_main_v49 (F := Ideal) x5 := by
  funext i
  obtain ⟨dd, rfl⟩ := eq_col i
  rw [val_main_v49_apply, val_main_v48_apply, val_main_v47_apply, val_main_cst_12_apply, val_main_v46_apply, val_main_v45_apply, val_main_cst_11_apply]
  have hi : idx_main_v49 (ix2 dd (0 : Fin 1)) = ix1 dd := idx_col dd
  rw [hi]
  unfold kv_main_v45
  rw [maximumf_apply]
  unfold kv_main_v43
  rw [subf_apply, k33_apply sgc x4 x5 hsg hy hd]
  unfold kv_main_v42 kv_main_cst_10 kv_main_v44 kv_main_cst_11
  rw [bcast_const]
  rfl

/-- The test that a domain has more than one row. -/
theorem c8 (hsg : ∀ r : Fin 524288, (sgc : Cert.KernelIdeal.S524288x1.Idx → BitVec 32) (ix2 r (0 : Fin 1)) = Cert.Spec.segw (Yw x4) (Dw x5) r) (hy : ∀ r : Fin 524288, 0 ≤ (Yw x4 r).toInt ∧ (Yw x4 r).toInt < 128) (hd : ∀ r : Fin 524288, 0 ≤ (Dw x5 r).toInt ∧ (Dw x5 r).toInt < 6) : kv_main_v49 (F := Ideal) sgc = val_main_v54 (F := Ideal) x5 := by
  funext i
  obtain ⟨dd, rfl⟩ := eq_col i
  rw [val_main_v54_apply, val_main_v53_apply, val_main_v52_apply, val_main_cst_13_apply]
  have hi : idx_main_v54 (ix2 dd (0 : Fin 1)) = ix1 dd := idx_col dd
  rw [hi]
  unfold kv_main_v49
  rw [cmpf_apply, k33_apply sgc x4 x5 hsg hy hd]
  unfold kv_main_v48 kv_main_cst_12
  rw [bcast_const]
  rfl

/-- The feature means of the squares. -/
theorem c10 (hp4 : ∀ (cc : Fin 2) (dd : Fin 8) (j : Fin 256), (p4 : Cert.KernelIdeal.S2x8x256.Idx → EReal) (ix3 cc dd j) = Cert.Spec.Part (fun r => (dmc : Cert.KernelIdeal.S524288x1.Idx → BitVec 32) (ix2 r (0 : Fin 1))) (fun r j => X x0 r j * X x0 r j) cc dd.val j) (hdm : ∀ r : Fin 524288, (dmc : Cert.KernelIdeal.S524288x1.Idx → BitVec 32) (ix2 r (0 : Fin 1)) = Dw x5 r) (hd : ∀ r : Fin 524288, 0 ≤ (Dw x5 r).toInt ∧ (Dw x5 r).toInt < 6) : kv_main_v126 (F := Ideal) p4 = val_main_v132 (F := Ideal) x0 := by
  have hnum : kv_main_v122 (F := Ideal) p4 = val_main_v130 (F := Ideal) x0 := by
    funext i
    obtain ⟨j, rfl⟩ : ∃ j : Fin 256, i = ix1 j := ⟨i 0, eq_ix1 i⟩
    rw [val130_apply, ← Cert.Spec.dom_all (fun r j => X x0 r j * X x0 r j) (Dw x5) hd j, kv122_apply]
    refine Finset.sum_congr rfl fun dd _ => ?_
    rw [c5 p4 dmc x0 x5 hp4 hdm, val31_apply]
  have hden : kv_main_v125 (F := Ideal) = val_main_v131 (F := Ideal) := by
    funext i
    rw [val_main_v131_apply, val_main_cst_44_apply]
    unfold kv_main_v125 kv_main_cst_43
    rw [bcast_const]
    rfl
  unfold kv_main_v126 val_main_v132
  rw [hnum, hden]

end Cert.Cuts

end
-- ==== Proof.Cut.MeanSide.lean ====
/-
  The feature means of the data: the segment sums added over all 768 segments are, under the label ranges, the sums over
  all rows.
-/
import proofs.«413714_j12455405158619_3_alg».proof.Proof.TailFn
import proofs.«413714_j12455405158619_3_alg».proof.Proof.RefRead
import proofs.«413714_j12455405158619_3_alg».proof.Proof.RefCuts
import proofs.«413714_j12455405158619_3_alg».proof.Proof.Sums
import proofs.«413714_j12455405158619_3_alg».proof.Proof.LibIndexed
import proofs.«413714_j12455405158619_3_alg».proof.Proof.LibReshape
import proofs.«413714_j12455405158619_3_alg».proof.Proof.Cut.SegSide
import Idealize.ShloMosaic.Lib.ValueIdx
import Idealize.ShloMosaic.Lib.ValueLayout
import Idealize.ShloMosaic.Lib.Pipeline.Value
import Idealize.ShloMosaic.PureOps.Ideal.Laws

noncomputable section

namespace Cert.Cuts

open Cert.KernelIdeal.TailFn Cert.ReferenceIdeal.ReadP Cert.RefCuts
open Idealize.ShloMosaic Idealize.ShloMosaic.ValueIdx

variable (p3 : (⟨Cert.KernelIdeal.S2x768x256, .f32⟩ : BufTy).Contents (Elt Ideal)) (p4 : (⟨Cert.KernelIdeal.S2x8x256, .f32⟩ : BufTy).Contents (Elt Ideal)) (sgc dmc : (⟨Cert.KernelIdeal.S524288x1, .i32⟩ : BufTy).Contents (Elt Ideal))
  (x0 : (⟨Cert.ReferenceIdeal.S524288x256, .f32⟩ : BufTy).Contents (Elt Ideal)) (x4 x5 : (⟨Cert.ReferenceIdeal.S524288, .i32⟩ : BufTy).Contents (Elt Ideal))

/-- The feature means of the data. -/
theorem c9 (hp3 : ∀ (cc : Fin 2) (s : Fin 768) (j : Fin 256), (p3 : Cert.KernelIdeal.S2x768x256.Idx → EReal) (ix3 cc s j) = Cert.Spec.Part (fun r => (sgc : Cert.KernelIdeal.S524288x1.Idx → BitVec 32) (ix2 r (0 : Fin 1))) (X x0) cc s.val j) (hsg : ∀ r : Fin 524288, (sgc : Cert.KernelIdeal.S524288x1.Idx → BitVec 32) (ix2 r (0 : Fin 1)) = Cert.Spec.segw (Yw x4) (Dw x5) r) (hy : ∀ r : Fin 524288, 0 ≤ (Yw x4 r).toInt ∧ (Yw x4 r).toInt < 128) (hd : ∀ r : Fin 524288, 0 ≤ (Dw x5 r).toInt ∧ (Dw x5 r).toInt < 6) : kv_main_v124 (F := Ideal) p3 = val_main_v128 (F := Ideal) x0 := by
  -- the numerators: the segment sums added over the 768 segments are the sums over all rows
  have hnum : kv_main_v121 (F := Ideal) p3 = val_main_v126 (F := Ideal) x0 := by
    funext i
    obtain ⟨j, rfl⟩ : ∃ j : Fin 256, i = ix1 j := ⟨i 0, eq_ix1 i⟩
    rw [val126_apply]
    show Host.reduceAdd (F := Ideal) (kv_main_v6 (F := Ideal) p3) (kv_main_cst_40 (F := Ideal)) Cert.KernelIdeal.Gen.reducesTo_S768x256_S256_d0 Cert.KernelIdeal.Gen.h_S_ (ix1 j) = _
    simp only [Host.reduceAdd, Ideal.hostReduceAdd_def]
    rw [Ideal.hostReduceAdd_single Cert.KernelIdeal.Gen.reducesTo_S768x256_S256_d0 (by decide)]
    have h0 : (kv_main_cst_40 (F := Ideal) : Cert.KernelIdeal.S_.Idx → EReal) (Shape.Idx.first Cert.KernelIdeal.Gen.h_S_) = 0 := Ideal.ofBits_zero_f32
    rw [h0, zero_add, Cert.Cuts.c1 p3 sgc x0 x4 x5 hp3 hsg, ← Cert.Spec.seg_all (X x0) (Yw x4) (Dw x5) hy hd j]
    refine Finset.sum_congr rfl fun s _ => ?_
    rw [← val5_apply x0 x4 x5 s j]
    exact congrArg _ (funext fun a => Fin.ext (by match a with | ⟨0, _⟩ => rfl | ⟨1, _⟩ => rfl))
  -- both programs divide by the same broadcast constant
  unfold kv_main_v124 val_main_v128
  rw [hnum]
  rfl

end Cert.Cuts

end
-- ==== Proof.PreRange.lean ====
/-
  What the precondition says about the two label inputs: every class word, read signed, lies in [0, 128) and every
  domain word in [0, 6). The printed predicate is a conjunction of eight whole-array tests; the last four are these.
-/
import proofs.«413714_j12455405158619_3_alg».proof.Defs
import proofs.«413714_j12455405158619_3_alg».proof.Proof.Gen.Pre_finite_inputs
import Idealize.ShloMosaic.Lib.ValueIdx
import Idealize.ShloMosaic.Lib.ReduceAll
import Idealize.ShloMosaic.Lib.StableHlo.Predicate

noncomputable section

namespace Cert.PreRange

open Idealize.ShloMosaic Idealize.ShloMosaic.ValueIdx Idealize.SL.Sem

/-- The rank-0 shape has exactly one index. -/
private instance : Subsingleton Cert.Pre_finite_inputs.S_.Idx := ⟨fun a b => funext fun d => d.elim0⟩

/-- From the printed predicate at the label inputs to the ranges of their words. -/
theorem range_of_fn {F : FTy → Type} [FloatOps F] [Cert.Pre_finite_inputs.Facts]
    (a0 : FVec F Cert.Pre_finite_inputs.S524288x256 .f32) (a1 : FVec F Cert.Pre_finite_inputs.S6x128x256 .f32)
    (a2 a3 : FVec F Cert.Pre_finite_inputs.S6x256 .f32) (a4 a5 : IVec Cert.Pre_finite_inputs.S524288 32)
    (h : Cert.Pre_finite_inputs.fn (F := F) a0 a1 a2 a3 a4 a5 = (fun _ => 1#1)) (r : Fin 524288) :
    (0 ≤ (a4 (ix1 r)).toInt ∧ (a4 (ix1 r)).toInt < 128) ∧ (0 ≤ (a5 (ix1 r)).toInt ∧ (a5 (ix1 r)).toInt < 6) := by
  -- The predicate's one bit is a left-nested conjunction of eight bits; keep the last four.
  have h0 := congrFun h ValueIdx.ix0
  simp only [Cert.Pre_finite_inputs.fn, Cert.Pre_finite_inputs.fn_part1, Cert.Pre_finite_inputs.fn_part2] at h0
  obtain ⟨h07, h8⟩ := IntOp.andi_eq_one.1 h0
  obtain ⟨h06, h7⟩ := IntOp.andi_eq_one.1 h07
  obtain ⟨h05, h6⟩ := IntOp.andi_eq_one.1 h06
  obtain ⟨-, h5⟩ := IntOp.andi_eq_one.1 h05
  clear h0 h07 h06 h05
  -- Each of the four is a conjunction over all 524288 entries: read it at entry r.
  have e5 := Host.reduce_andi_all _ _ _ _ _ h5 (ix1 r)
  have e6 := Host.reduce_andi_all _ _ _ _ _ h6 (ix1 r)
  have e7 := Host.reduce_andi_all _ _ _ _ _ h7 (ix1 r)
  have e8 := Host.reduce_andi_all _ _ _ _ _ h8 (ix1 r)
  clear h5 h6 h7 h8
  -- A broadcast scalar constant reads that constant at every entry.
  have b0 : ∀ (c : BitVec 32) (hb : Cert.Pre_finite_inputs.S_.BroadcastsInDim Cert.Pre_finite_inputs.S524288 ![]),
      broadcastInDim Cert.Pre_finite_inputs.S524288 ![] hb (constantI Cert.Pre_finite_inputs.S_ 32 c) (ix1 r) = c :=
    fun c hb => StableHlo.Predicate.bcast_scalar hb Cert.Pre_finite_inputs.Facts.h_S_ _ _
  -- A signed compare bit equal to 1 is the order on the signed readings.
  have g5 := IntOp.cmpi_sge.1 e5
  have g6 := IntOp.cmpi_slt.1 e6
  have g7 := IntOp.cmpi_sge.1 e7
  have g8 := IntOp.cmpi_slt.1 e8
  rw [b0] at g5 g6 g7 g8
  have z0 : (0#32 : BitVec 32).toInt = 0 := by decide
  have z128 : (128#32 : BitVec 32).toInt = 128 := by decide
  have z6 : (6#32 : BitVec 32).toInt = 6 := by decide
  rw [z0] at g5 g7
  rw [z128] at g6
  rw [z6] at g8
  exact ⟨⟨g5, g6⟩, g7, g8⟩

end Cert.PreRange

end
-- ==== Proof.Assemble.lean ====
/-
  The two programs compute the same four results. On the kernel's side the region leaves, per core, one-hot weighted
  sums of the data rows; the host lines after it add the two cores, regroup by domain and feed the running averages and
  the loss. On the reference's side accumulating scatters give the same sums directly. The sums meet at ten values: the
  segment sums, the clamped counts and the count test; the domain sums, sums of squares, clamped counts, clamped counts
  less one and the test that a domain has more than one row; and the two feature means. From those values on both programs
  apply the same operations line for line. The label ranges enter only where a segment sum is regrouped by domain or
  added over all segments.
-/
import proofs.«413714_j12455405158619_3_alg».proof.Defs
import proofs.«413714_j12455405158619_3_alg».proof.Proof.KI.Acc
import proofs.«413714_j12455405158619_3_alg».proof.Proof.KI.Results
import proofs.«413714_j12455405158619_3_alg».proof.Proof.Cut.TailR
import proofs.«413714_j12455405158619_3_alg».proof.Proof.Cut.SegSide
import proofs.«413714_j12455405158619_3_alg».proof.Proof.Cut.DomSide
import proofs.«413714_j12455405158619_3_alg».proof.Proof.Cut.MeanSide
import proofs.«413714_j12455405158619_3_alg».proof.Proof.PreRange
import proofs.«413714_j12455405158619_3_alg».proof.Proof.Gen.Pre_finite_inputs
import proofs.«413714_j12455405158619_3_alg».proof.Proof.Gen.ReferenceIdeal

noncomputable section

namespace Cert.Proof.Asm

open Idealize.ShloMosaic Idealize.ShloMosaic.TcCoe Idealize.SL.Sem Idealize.ShloMosaic.ValueIdx
open Cert.KernelIdeal.TailFn Cert.KernelIdeal.TailK Cert.ReferenceIdeal.ReadP Cert.ReferenceIdeal.TailR Cert.RefCuts Cert.Cuts
open Cert.KernelIdeal.Fr (V V0 dats tailOps run_main arrAt3 arrAt4 V_seg V_dom Xk SGk DMk V_arg kept_arg A_eq result_v28 result_v55 result_v61 result_v140)

variable (m : (ℓ : Loc Cert.KernelIdeal.nD Cert.KernelIdeal.τ Cert.KernelIdeal.sig) → Buf (Elt Ideal) ℓ)

/-- The six arguments on core c, at the types the reference's stages take them. -/
abbrev a0 (c : Dev Cert.KernelIdeal.nD) : (⟨Cert.ReferenceIdeal.S524288x256, .f32⟩ : BufTy).Contents (Elt Ideal) := m ((c.tc : Thread Cert.KernelIdeal.nD Cert.KernelIdeal.τ).loc Cert.KernelIdeal.main_arg0)
abbrev a1 (c : Dev Cert.KernelIdeal.nD) : (⟨Cert.ReferenceIdeal.S6x128x256, .f32⟩ : BufTy).Contents (Elt Ideal) := m ((c.tc : Thread Cert.KernelIdeal.nD Cert.KernelIdeal.τ).loc Cert.KernelIdeal.main_arg1)
abbrev a2 (c : Dev Cert.KernelIdeal.nD) : (⟨Cert.ReferenceIdeal.S6x256, .f32⟩ : BufTy).Contents (Elt Ideal) := m ((c.tc : Thread Cert.KernelIdeal.nD Cert.KernelIdeal.τ).loc Cert.KernelIdeal.main_arg2)
abbrev a3 (c : Dev Cert.KernelIdeal.nD) : (⟨Cert.ReferenceIdeal.S6x256, .f32⟩ : BufTy).Contents (Elt Ideal) := m ((c.tc : Thread Cert.KernelIdeal.nD Cert.KernelIdeal.τ).loc Cert.KernelIdeal.main_arg3)
abbrev a4 (c : Dev Cert.KernelIdeal.nD) : (⟨Cert.ReferenceIdeal.S524288, .i32⟩ : BufTy).Contents (Elt Ideal) := m ((c.tc : Thread Cert.KernelIdeal.nD Cert.KernelIdeal.τ).loc Cert.KernelIdeal.main_arg4)
abbrev a5 (c : Dev Cert.KernelIdeal.nD) : (⟨Cert.ReferenceIdeal.S524288, .i32⟩ : BufTy).Contents (Elt Ideal) := m ((c.tc : Thread Cert.KernelIdeal.nD Cert.KernelIdeal.τ).loc Cert.KernelIdeal.main_arg5)

section Meeting

variable (c : Dev Cert.KernelIdeal.nD) (hpre : Cert.Pre_KernelIdeal m)

/-- The data as the region finds it is the argument. -/
theorem hX : Xk m c = X (a0 m c) := by
  funext r j
  exact congrFun (V_arg m c Cert.KernelIdeal.main_arg0 (by decide)) (ix2 r j)

theorem hp3 (cc : Fin 2) (s : Fin 768) (j : Fin 256) :
    ((dats (F := Ideal) m 0 c).arrAt 3 Cert.KernelIdeal.cfg0.N : Cert.KernelIdeal.S2x768x256.Idx → EReal) (ix3 cc s j)
      = Cert.Spec.Part (fun r => (V m c Cert.KernelIdeal.main_v3 : Cert.KernelIdeal.S524288x1.Idx → BitVec 32) (ix2 r (0 : Fin 1))) (X (a0 m c)) cc s.val j := by
  rw [← hX m c]; exact arrAt3 m c cc s j

theorem hp4 (cc : Fin 2) (dd : Fin 8) (j : Fin 256) :
    ((dats (F := Ideal) m 0 c).arrAt 4 Cert.KernelIdeal.cfg0.N : Cert.KernelIdeal.S2x8x256.Idx → EReal) (ix3 cc dd j)
      = Cert.Spec.Part (fun r => (V m c Cert.KernelIdeal.main_v4 : Cert.KernelIdeal.S524288x1.Idx → BitVec 32) (ix2 r (0 : Fin 1))) (fun r j => X (a0 m c) r j * X (a0 m c) r j) cc dd.val j := by
  rw [← hX m c]; exact arrAt4 m c cc dd j

theorem hsg (r : Fin 524288) :
    (V m c Cert.KernelIdeal.main_v3 : Cert.KernelIdeal.S524288x1.Idx → BitVec 32) (ix2 r (0 : Fin 1)) = Cert.Spec.segw (Yw (a4 m c)) (Dw (a5 m c)) r :=
  V_seg m c r

theorem hdm (r : Fin 524288) :
    (V m c Cert.KernelIdeal.main_v4 : Cert.KernelIdeal.S524288x1.Idx → BitVec 32) (ix2 r (0 : Fin 1)) = Dw (a5 m c) r :=
  V_dom m c r

include hpre in
theorem hy (r : Fin 524288) : 0 ≤ (Yw (a4 m c) r).toInt ∧ (Yw (a4 m c) r).toInt < 128 :=
  (Cert.PreRange.range_of_fn (F := Ideal) _ _ _ _ _ _ (hpre c) r).1

include hpre in
theorem hd (r : Fin 524288) : 0 ≤ (Dw (a5 m c) r).toInt ∧ (Dw (a5 m c) r).toInt < 6 :=
  (Cert.PreRange.range_of_fn (F := Ideal) _ _ _ _ _ _ (hpre c) r).2

end Meeting

/-- The kernel's program runs, its four results are the reference's stages of the arguments, and the arguments are kept. -/
theorem kernel_values (ρ : Dev Cert.KernelIdeal.nD → PrngReg) (hpre : Cert.Pre_KernelIdeal m) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v28) = val_main_v24 (F := Ideal) (a0 m c) (a1 m c) (a4 m c) (a5 m c)
      ∧ r.2.mem ((c.tc : Thread Cert.KernelIdeal.nD Cert.KernelIdeal.τ).loc Cert.KernelIdeal.main_v55) = val_main_v60 (F := Ideal) (a0 m c) (a2 m c) (a5 m c)
      ∧ r.2.mem ((c.tc : Thread Cert.KernelIdeal.nD Cert.KernelIdeal.τ).loc Cert.KernelIdeal.main_v61) = val_main_v66 (F := Ideal) (a0 m c) (a3 m c) (a5 m c)
      ∧ r.2.mem ((c.tc : Thread Cert.KernelIdeal.nD Cert.KernelIdeal.τ).loc Cert.KernelIdeal.main_v140) = val_main_v146 (F := Ideal) (a0 m c) (a1 m c) (a2 m c) (a3 m c) (a4 m c) (a5 m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) := by
  refine (θ_run Cert.KernelIdeal.defs _ _).mono (fun r h c => ?_) (run_main (F := Ideal) m ρ)
  have e1 := c1 ((dats (F := Ideal) m 0 c).arrAt 3 Cert.KernelIdeal.cfg0.N) (V m c Cert.KernelIdeal.main_v3) (a0 m c) (a4 m c) (a5 m c) (hp3 m c) (hsg m c)
  have e2 := c2 (V m c Cert.KernelIdeal.main_v3) (a4 m c) (a5 m c) (hsg m c)
  have e3 := c3 (V m c Cert.KernelIdeal.main_v3) (a4 m c) (a5 m c) (hsg m c)
  have e4 := c4 ((dats (F := Ideal) m 0 c).arrAt 3 Cert.KernelIdeal.cfg0.N) (V m c Cert.KernelIdeal.main_v3) (a0 m c) (a4 m c) (a5 m c) (hp3 m c) (hsg m c) (hy m c hpre) (hd m c hpre)
  have e5 := c5 ((dats (F := Ideal) m 0 c).arrAt 4 Cert.KernelIdeal.cfg0.N) (V m c Cert.KernelIdeal.main_v4) (a0 m c) (a5 m c) (hp4 m c) (hdm m c)
  have e6 := c6 (V m c Cert.KernelIdeal.main_v3) (a4 m c) (a5 m c) (hsg m c) (hy m c hpre) (hd m c hpre)
  have e7 := c7 (V m c Cert.KernelIdeal.main_v3) (a4 m c) (a5 m c) (hsg m c) (hy m c hpre) (hd m c hpre)
  have e8 := c8 (V m c Cert.KernelIdeal.main_v3) (a4 m c) (a5 m c) (hsg m c) (hy m c hpre) (hd m c hpre)
  have e9 := c9 ((dats (F := Ideal) m 0 c).arrAt 3 Cert.KernelIdeal.cfg0.N) (V m c Cert.KernelIdeal.main_v3) (a0 m c) (a4 m c) (a5 m c) (hp3 m c) (hsg m c) (hy m c hpre) (hd m c hpre)
  have e10 := c10 ((dats (F := Ideal) m 0 c).arrAt 4 Cert.KernelIdeal.cfg0.N) (V m c Cert.KernelIdeal.main_v4) (a0 m c) (a5 m c) (hp4 m c) (hdm m c) (hd m c hpre)
  have r0 : r.2.mem ((c.tc : Thread Cert.KernelIdeal.nD Cert.KernelIdeal.τ).loc Cert.KernelIdeal.main_v28) = val_main_v24 (F := Ideal) (a0 m c) (a1 m c) (a4 m c) (a5 m c) := by
    rw [result_v28 m c r h, kv28_eq, e1, e2, e3, ← rv24_eq]
  have r1 : r.2.mem ((c.tc : Thread Cert.KernelIdeal.nD Cert.KernelIdeal.τ).loc Cert.KernelIdeal.main_v55) = val_main_v60 (F := Ideal) (a0 m c) (a2 m c) (a5 m c) := by
    rw [result_v55 m c r h, kv55_eq, e4, e6, e8, ← rv60_eq]
  have r2 : r.2.mem ((c.tc : Thread Cert.KernelIdeal.nD Cert.KernelIdeal.τ).loc Cert.KernelIdeal.main_v61) = val_main_v66 (F := Ideal) (a0 m c) (a3 m c) (a5 m c) := by
    rw [result_v61 m c r h, kv61_eq, e4, e5, e6, e7, e8, ← rv66_eq]
  have r3 : r.2.mem ((c.tc : Thread Cert.KernelIdeal.nD Cert.KernelIdeal.τ).loc Cert.KernelIdeal.main_v140) = val_main_v146 (F := Ideal) (a0 m c) (a1 m c) (a2 m c) (a3 m c) (a4 m c) (a5 m c) := by
    rw [result_v140 m c r h, kv140_eq, kv28_eq, kv55_eq, kv61_eq, e1, e2, e3, e4, e5, e6, e7, e8, e9, e10, ← rv24_eq, ← rv60_eq, ← rv66_eq, ← rv146_eq]
  exact ⟨r0, r1, r2, r3,
    ((h c).1 2).trans (((dats (F := Ideal) m 0 c).arrAt_in 2 rfl _).trans ((A_eq m c 2).trans (V_arg m c Cert.KernelIdeal.main_arg0 (by decide)))),
    ((h c).2 Cert.KernelIdeal.main_arg1 (Pipeline.mem_restRefs_of Cert.KernelIdeal.main_arg1 (by decide) (by decide))).trans (kept_arg m c Cert.KernelIdeal.main_arg1 (by decide)),
    ((h c).2 Cert.KernelIdeal.main_arg2 (Pipeline.mem_restRefs_of Cert.KernelIdeal.main_arg2 (by decide) (by decide))).trans (kept_arg m c Cert.KernelIdeal.main_arg2 (by decide)),
    ((h c).2 Cert.KernelIdeal.main_arg3 (Pipeline.mem_restRefs_of Cert.KernelIdeal.main_arg3 (by decide) (by decide))).trans (kept_arg m c Cert.KernelIdeal.main_arg3 (by decide)),
    ((h c).2 Cert.KernelIdeal.main_arg4 (Pipeline.mem_restRefs_of Cert.KernelIdeal.main_arg4 (by decide) (by decide))).trans (kept_arg m c Cert.KernelIdeal.main_arg4 (by decide)),
    ((h c).2 Cert.KernelIdeal.main_arg5 (Pipeline.mem_restRefs_of Cert.KernelIdeal.main_arg5 (by decide) (by decide))).trans (kept_arg m c Cert.KernelIdeal.main_arg5 (by decide))⟩

end Cert.Proof.Asm

end
-- ==== Proof.lean ====
/-
  A streaming reduction against its plain statement. The kernel's program computes, for 524288 rows of 256 features with a
  class label y in [0, 128) and a domain label d in [0, 6), the per-(domain, class) sums and the per-domain sums of squares
  in one pipelined region (2 cores × 128 steps of 2048 rows, one-hot matrix products accumulated per core), and from these
  alone the per-domain sums, all counts, the feature means, the running-average updates of the anchors, means and variances,
  and the two alignment losses. The reference computes every sum by its own accumulating scatter or column sum over the rows.
  At the exact values the two agree: every sum is a finite sum of the same entries, regrouped; the regrouping by domain and
  the sum over all segments use that the labels lie in their ranges, which the precondition states. The three frames: both
  kernel programs run their region and host lines without touching an argument; the reference is host lines only.
-/
import proofs.«413714_j12455405158619_3_alg».proof.Defs
import proofs.«413714_j12455405158619_3_alg».proof.Proof.Gen.Kernel
import proofs.«413714_j12455405158619_3_alg».proof.Proof.Gen.KernelIdeal
import proofs.«413714_j12455405158619_3_alg».proof.Proof.Gen.ReferenceIdeal
import proofs.«413714_j12455405158619_3_alg».proof.Proof.Gen.Pre_finite_inputs
import proofs.«413714_j12455405158619_3_alg».proof.Proof.KB.Frame
import proofs.«413714_j12455405158619_3_alg».proof.Proof.KI.Frame
import proofs.«413714_j12455405158619_3_alg».proof.Proof.RefRun
import proofs.«413714_j12455405158619_3_alg».proof.Proof.RefRead
import proofs.«413714_j12455405158619_3_alg».proof.Proof.Assemble

noncomputable section

namespace Cert.Proof

open Idealize.ShloMosaic Idealize.ShloMosaic.TcCoe Idealize.SL.Sem
open Cert.ReferenceIdeal.ReadP Cert.Proof.Asm

/-- The word-level program runs and keeps its arguments. -/
theorem frame_k : Cert.frame_Kernel := fun m ρ _ => Cert.Kernel.Fr.frame m ρ

/-- The idealized program runs and keeps its arguments. -/
theorem frame_ki : Cert.frame_KernelIdeal := fun m ρ _ => Cert.KernelIdeal.Fr.frame m ρ

/-- The reference runs and keeps its arguments: its run with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The ideal pass rewrote nothing. -/
theorem preserves : Cert.preserves_Kernel_KernelIdeal := trivial

/-- From memories agreeing on the arguments both programs end at the reference's stages of those arguments. -/
theorem algebraic : Cert.algebraic_KernelIdeal_ReferenceIdeal := by
  intro m ρ m' ρ' hpre hagree
  refine ⟨fun c => val_main_v24 (F := Ideal) (a0 m c) (a1 m c) (a4 m c) (a5 m c),
    fun c => val_main_v60 (F := Ideal) (a0 m c) (a2 m c) (a5 m c),
    fun c => val_main_v66 (F := Ideal) (a0 m c) (a3 m c) (a5 m c),
    fun c => val_main_v146 (F := Ideal) (a0 m c) (a1 m c) (a2 m c) (a3 m c) (a4 m c) (a5 m c),
    kernel_values m ρ hpre, ?_⟩
  refine (θ_run Cert.ReferenceIdeal.defs _ _).mono (fun r h c => ?_) (Cert.ReferenceIdeal.ValueP.run (F := Ideal) m' ρ')
  obtain ⟨h0, h1, h2, h3, hk⟩ := h c
  obtain ⟨e0, e1, e2, e3, e4, e5⟩ := hagree c
  refine ⟨?_, ?_, ?_, ?_, hk⟩
  · rw [h0, val_main_v24_eq, e0, e1, e4, e5]
  · rw [h1, val_main_v60_eq, e0, e2, e5]
  · rw [h2, val_main_v66_eq, e0, e3, e5]
  · rw [h3, val_main_v146_eq, e0, e1, e2, e3, e4, e5]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
